-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S2x2048x1024 .f32) (main_arg1 : FVec F S3072x1024 .f32) (main_arg2 : FVec F S3072 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S3072 : Shape := ⟨1, ![3072]⟩
abbrev S4096x1024 : Shape := ⟨2, ![4096, 1024]⟩
abbrev S1024x3072 : Shape := ⟨2, ![1024, 3072]⟩
abbrev S1x3072 : Shape := ⟨2, ![1, 3072]⟩
abbrev S4096x3072 : Shape := ⟨2, ![4096, 3072]⟩
abbrev S512x1024 : Shape := ⟨2, ![512, 1024]⟩
abbrev S1024x1024 : Shape := ⟨2, ![1024, 1024]⟩
abbrev S1x1024 : Shape := ⟨2, ![1, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩

abbrev nBuf : Space → Nat
  | .hbm => 24
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S4096x1024, .f32⟩
  | .hbm, ⟨4, _⟩ => ⟨S1024x3072, .f32⟩
  | .hbm, ⟨5, _⟩ => ⟨S1x3072, .f32⟩
  | .hbm, ⟨6, _⟩ => ⟨S4096x3072, .bf16⟩
  | .hbm, ⟨7, _⟩ => ⟨S2x2048x3072, .bf16⟩
  | .hbm, ⟨8, _⟩ => ⟨S2x2048x1024, .bf16⟩
  | .hbm, ⟨9, _⟩ => ⟨S2x2048x1024, .bf16⟩
  | .hbm, ⟨10, _⟩ => ⟨S2x2048x1024, .bf16⟩
  | .hbm, ⟨11, _⟩ => ⟨S2x2048x16x64, .bf16⟩
  | .hbm, ⟨12, _⟩ => ⟨S2x16x2048x64, .bf16⟩
  | .hbm, ⟨13, _⟩ => ⟨S32x2048x64, .bf16⟩
  | .hbm, ⟨14, _⟩ => ⟨S2x2048x16x64, .bf16⟩
  | .hbm, ⟨15, _⟩ => ⟨S2x16x2048x64, .bf16⟩
  | .hbm, ⟨16, _⟩ => ⟨S32x2048x64, .bf16⟩
  | .hbm, ⟨17, _⟩ => ⟨S2x2048x16x64, .bf16⟩
  | .hbm, ⟨18, _⟩ => ⟨S2x16x2048x64, .bf16⟩
  | .hbm, ⟨19, _⟩ => ⟨S32x2048x64, .bf16⟩
  | .hbm, ⟨20, _⟩ => ⟨S32x2048x64, .f32⟩
  | .hbm, ⟨21, _⟩ => ⟨S2x16x2048x64, .f32⟩
  | .hbm, ⟨22, _⟩ => ⟨S2x2048x16x64, .f32⟩
  | .hbm, ⟨23, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .f32⟩
  | .local _ .vmem, ⟨15, _⟩ => ⟨S1x512x64, .f32⟩
  | .local _ .vmem, ⟨16, _⟩ => ⟨S512x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![32, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2x2048x1024_S4096x1024 : S2x2048x1024.ShapeCasts S4096x1024
  transposes_S3072x1024_S1024x3072_1_0 : S3072x1024.Transposes [1, 0] S1024x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x1024_S1024x1024_S512x1024_1_0_0_1_n_n_wf : DotDims.WF S512x1024 S1024x1024 S512x1024 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .bf16 = 32 ∨ (Rect.block (s := S4096x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x2048x64.size a
  hwx1_1 : ∀ i : grid1.Coords, EltTy.bits .bf16 = 32 ∨ (Rect.block (s := S32x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S32x2048x64.size a
  hwx1_2 : ∀ i : grid1.Coords, EltTy.bits .bf16 = 32 ∨ (Rect.block (s := S32x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S2x2048x3072, .f32⟩
  | .hbm, ⟨4, _⟩ => ⟨S1x1x3072, .f32⟩
  | .hbm, ⟨5, _⟩ => ⟨S2x2048x3072, .f32⟩
  | .hbm, ⟨6, _⟩ => ⟨S2x2048x3072, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S2x16x2048x64, .f32⟩
  | .hbm, ⟨40, _⟩ => ⟨S2x2048x16x64, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_cst_0 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Fr.Reg0.lean ====
/-
  The first kernel region (the fused projection) on its own: at ANY contents `V` of the TensorCore's buffers at the
  region's entry, what each window's block is at a grid point, what the body leaves in the output window's staging buffer
  (one whole-block store of the payload of the three input blocks), the body's triple, the pipeline's proof data and the
  body obligation at every point. Generic in the float instance.
-/
import proofs.«126934_j43173011259799_1_alg».proof.Proof.Gen.KernelIdeal.Launch
import proofs.«126934_j43173011259799_1_alg».proof.Proof.Gen.KernelIdeal.Skeleton
import proofs.«126934_j43173011259799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the point does
    not fetch, the block index has not moved since the fetch that filled the buffer, and the body leaves inputs alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_x : Rect S512x1024 := Rect.unit (s := S512x1024) ![0, 0] S512x1024.size Facts₀.inb_S512x1024_S512x1024_0_0
abbrev r0_w : Rect S1024x1024 := Rect.unit (s := S1024x1024) ![0, 0] S1024x1024.size Facts₀.inb_S1024x1024_S1024x1024_0_0
abbrev r0_b : Rect S1x1024 := Rect.unit (s := S1x1024) ![0, 0] S1x1024.size Facts₀.inb_S1x1024_S1x1024_0_0

/-! ## What the body leaves in the output window's buffer -/

/-- The output window's staging buffer after the body, from the three input blocks: its one store, as a piece. -/
def out0_3 (x0 : Vec F S512x1024 .f32) (x1 : Vec F S1024x1024 .f32) (x2 : Vec F S1x1024 .f32) : Vec F S512x1024 .bf16 :=
  View.canon [⟨r0_x, k0_pay1 (View.ld x0 r0_x) (View.ld x1 r0_w) (View.ld x2 r0_b)⟩]

/-- The one store is the whole block, so it covers the buffer. -/
theorem cover0_3 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 1000000 in
/-- The kernel body on whole staging memrefs, the inputs' at contents `x0 x1 x2` and the output's at anything, runs to
    the continuation holding the inputs' as they were and the output's at `out0_3` of them. -/
theorem sound_kernel0 (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__qkv_proj_kernel i arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the region finds them; after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.Reg1Runs.lean ====
/-
  The second kernel region's body, case by case. The body branches three times on the grid point (key tile `kv`, query
  tile `qi`): it resets the scratch accumulator when `kv = 0`, adds the masked score-times-value product of the point's
  blocks to it when `kv ≤ qi`, and stores the accumulator into the output block when `kv = 3`. Over the grid five
  assignments of the three conditions occur; each gets the body's triple on whole staging memrefs.
-/
import proofs.«126934_j43173011259799_1_alg».proof.Proof.Gen.KernelIdeal.Launch
import proofs.«126934_j43173011259799_1_alg».proof.Proof.Gen.KernelIdeal.Skeleton
import proofs.«126934_j43173011259799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

/-! ## The branch conditions, from the grid coordinates, and where they hold -/

/-- `kv = 0`: the accumulator is reset. -/
abbrev cond1_1 (i : grid1.Coords) : Prop :=
  (Scalar.cmpi .ne (Scalar.extui (Scalar.cmpi .eq (BitVec.ofNat 32 (i 2).val) 0#32)) 0#32) = 1#1
/-- `kv ≤ qi`: the point's key tile is not wholly above the diagonal. -/
abbrev cond1_2 (i : grid1.Coords) : Prop :=
  (Scalar.cmpi .ne (Scalar.extui (Scalar.cmpi .sle (BitVec.ofNat 32 (i 2).val) (BitVec.ofNat 32 (i 1).val))) 0#32) = 1#1
/-- `kv = 3`: the last key tile; the output block is stored. -/
abbrev cond1_3 (i : grid1.Coords) : Prop := k1_cond3 i = 1#1

theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ (t.val / 4) % 4 :=
  (by decide +kernel : ∀ t : Fin grid1.N, cond1_2 (grid1.coords t) ↔ t.val % 4 ≤ (t.val / 4) % 4)
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output is not stored the window is idle and not written back. -/
theorem idleAt1_3 : ∀ t : Fin cfg1.N, ¬cond1_3 (grid1.coords t) → cfg1.idle 3 (grid1.coords t) = true := by decide +kernel
theorem noFlush1_3 : ∀ t : Fin cfg1.N, ¬cond1_3 (grid1.coords t) → (cfg1.win 3).flush t = false := by decide +kernel
theorem liveAt1_3 : ∀ t : Fin cfg1.N, cond1_3 (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S1x512x64 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x512x64 .bf16 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1x512x64 .f32 := win1_3.stage (cfg1.slots t 3)
abbrev hs1_3 (t : Fin cfg1.N) : (ms1_3 t).IsWhole := Facts₀.hstage1_3 ((cfg1.slots t 3).cast Facts₀.nbuf1_3)
/-- The scratch accumulator: a whole scoped buffer of the kernel's own. -/
abbrev scM1 : Memref sig .tc .vmem S512x64 .f32 := Memref.whole cc1_scratch0
/-- The views through which the scratch's and the output block's contents are stated. -/
abbrev VS1 : View sig .tc .vmem S512x64 .f32 := scM1.view
abbrev VO1 : View sig .tc .vmem S1x512x64 .f32 := (Memref.whole cc1_stg3_0 : Memref sig .tc .vmem S1x512x64 .f32).view

/-! ## The invariant with the scratch held apart -/

/-- The region's scoped rest (the first region's eight staging buffers at anything) and the generator register, with
    the scratch accumulator held as `S`. -/
def PhiWith (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S) ∗ ∃ r, prngReg c r)

/-- The class invariant is `PhiWith` at the scratch owned at anything. -/
theorem PhiA1_eq (c : Dev nD) :
    (Pipeline.ΦA spec1 c : sProp 𝕄) = PhiWith (F := F) c iprop(∃ d, owns (c : Thread nD τ) scM1 fullShare d) := by
  unfold Pipeline.ΦA PhiWith; rw [Gen.scopedRest1_eq]; simp only [scM1, owns_whole]; try rfl

/-- The scratch can be taken out of the invariant and put back at other contents. -/
theorem PhiWith_swap (c : Dev nD) (S S' : sProp 𝕄) :
    PhiWith (F := F) c S ⊢ iprop(S ∗ (S' -∗ PhiWith (F := F) c S')) := by
  unfold PhiWith
  iintro ⟨⟨H0, H1, H2, H3, H4, H5, H6, H7, HS⟩, Hg⟩
  isplitl [HS]
  · iexact HS
  iintro HS'
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS'
  · iexact Hg

/-! ## The body's triple, case by case -/

set_option maxHeartbeats 1000000 in
/-- Case A (`kv = 0`: reset, then the update; no store of the output, which is handed back untouched at `xi`). -/
noncomputable def kernelRun1_A (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : cond1_1 i) (hc2 : cond1_2 i) (hc3 : ¬cond1_3 i)
    (x0 x1 x2 : Vec F S1x512x64 .bf16) :
    { LS : List (View.Piece (Elt F) S512x64 .f32) //
      ∀ (xi : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__causal_relu_attn_kernel i arg3 harg3 arg4 harg4 arg5 harg5 arg6 harg6 arg7 harg7) K } := by
  refine ⟨?_, fun xi E K => ?run⟩
  case run =>
    simp only [Gen.cc1__causal_relu_attn_kernel_eq_skeleton]; unfold Gen.cc1__causal_relu_attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case B (`0 < kv ≤ qi`, `kv < 3`: the update over what the point before left in the scratch, `xs`; output idle). -/
noncomputable def kernelRun1_B (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : cond1_2 i) (hc3 : ¬cond1_3 i)
    (x0 x1 x2 : Vec F S1x512x64 .bf16) (xs : Vec F S512x64 .f32) :
    { LS : List (View.Piece (Elt F) S512x64 .f32) //
      ∀ (xi : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__causal_relu_attn_kernel i arg3 harg3 arg4 harg4 arg5 harg5 arg6 harg6 arg7 harg7) K } := by
  refine ⟨?_, fun xi E K => ?run⟩
  case run =>
    simp only [Gen.cc1__causal_relu_attn_kernel_eq_skeleton]; unfold Gen.cc1__causal_relu_attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case C (`qi < kv < 3`: a key tile wholly above the diagonal; the body touches nothing). -/
theorem kernelRun1_C (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : ¬cond1_2 i) (hc3 : ¬cond1_3 i)
    (E : Set ℕ) (K : PUnit → sProp 𝕄) : K ⟨⟩ ⊢ wp frame (wpE (defs₀ (F := F)) Variants.none c none) E (cc1__causal_relu_attn_kernel i arg3 harg3 arg4 harg4 arg5 harg5 arg6 harg6 arg7 harg7) K := by
  simp only [Gen.cc1__causal_relu_attn_kernel_eq_skeleton]; unfold Gen.cc1__causal_relu_attn_kernel_skel
  iintro Hk
  sl_exec (disch := first | exact hc1 | exact hc2 | exact hc3)
  sl_step
  iexact Hk

set_option maxHeartbeats 1000000 in
/-- Case D (`kv = 3 ≤ qi`: the update over `xs`, then the output block stored, pieces `L3`). -/
noncomputable def kernelRun1_D (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : cond1_2 i) (hc3 : cond1_3 i)
    (x0 x1 x2 : Vec F S1x512x64 .bf16) (xs : Vec F S512x64 .f32) :
    Σ' (L3 : List (View.Piece (Elt F) S1x512x64 .f32)), { LS : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__causal_relu_attn_kernel i arg3 harg3 arg4 harg4 arg5 harg5 arg6 harg6 arg7 harg7) K } := by
  refine ⟨?_, ?_, fun E K => ?run⟩
  case run =>
    simp only [Gen.cc1__causal_relu_attn_kernel_eq_skeleton]; unfold Gen.cc1__causal_relu_attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

set_option maxHeartbeats 1000000 in
/-- Case E (`kv = 3 > qi`: no update; the scratch, at `xs`, is read and the output block stored, pieces `L3`). -/
noncomputable def kernelRun1_E (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : ¬cond1_2 i) (hc3 : cond1_3 i)
    (xs : Vec F S512x64 .f32) :
    { L3 : List (View.Piece (Elt F) S1x512x64 .f32) //
      ∀ (E : Set ℕ) (K : PUnit → sProp 𝕄),
        iprop((∃ d, owns (c : Thread nD τ) arg6 fullShare d) ∗ owns (c : Thread nD τ) arg7 fullShare xs
            ∗ (iprop((∃ f, arg6.view.loc (c : Thread nD τ) ↦[arg6.view.set]{fullShare} arg6.view.writes (Elt F) f L3)
                ∗ owns (c : Thread nD τ) arg7 fullShare xs) -∗ K ⟨⟩))
          ⊢ wp frame (wpE (defs₀ (F := F)) Variants.none c none) E (cc1__causal_relu_attn_kernel i arg3 harg3 arg4 harg4 arg5 harg5 arg6 harg6 arg7 harg7) K } := by
  refine ⟨?_, fun E K => ?run⟩
  case run =>
    simp only [Gen.cc1__causal_relu_attn_kernel_eq_skeleton]; unfold Gen.cc1__causal_relu_attn_kernel_skel
    unfold owns
    iintro ⟨⟨%d3, %f3, -, H3⟩, ⟨%fs, %hfs, HS⟩, Hk⟩
    obtain rfl := harg7.eq_unread hfs
    sl_exec (disch := first | exact hc1 | exact hc2 | exact hc3)
    sl_step
    iapply Hk
    isplitl [H3]; · iexists _; iexact H3
    iexists _; isplitr; · ipureintro; exact harg7.read_unread _
    iexact HS

end Cert.KernelIdeal.Fr

end
-- ==== Proof.Fr.Reg1.lean ====
/-
  The second kernel region (causal ReLU attention, one head group and one query tile per output block, the key tiles
  accumulated in a scratch buffer) on its own, at ANY contents `V` of the TensorCore's buffers at the region's entry:
  what the scratch accumulator and the output window's staging buffer hold after each grid point, the region invariant
  carrying the accumulator between points, the pipeline's proof data and the body obligation at every point.
  Generic in the float instance.
-/
import proofs.«126934_j43173011259799_1_alg».proof.Proof.Gen.KernelIdeal.Launch
import proofs.«126934_j43173011259799_1_alg».proof.Proof.Gen.KernelIdeal.Skeleton
import proofs.«126934_j43173011259799_1_alg».proof.Proof.Gen.KernelIdeal.Points
import proofs.«126934_j43173011259799_1_alg».proof.Proof.Fr.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the point does
    not fetch, the block index has not moved since the fetch that filled the buffer, and the body leaves inputs alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch accumulator and in the output window's buffer -/

/-- At a point that does not store the output block the window's buffer is handed back as found and nothing consults
    what the proof data names for it: a placeholder (nothing written, read back). -/
def out1_idle : Vec F S1x512x64 .f32 := VO1.read (Elt F) (VO1.writes (Elt F) VO1.junk [])

/-- Case A's pieces for the scratch accumulator tile it, so they cover it. -/
theorem scover1_A (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : cond1_1 i) (hc2 : cond1_2 i) (hc3 : ¬cond1_3 i) (x0 x1 x2 : Vec F S1x512x64 .bf16) (y : S512x64.Idx) :
    ∃ pc ∈ (kernelRun1_A c i arg3 harg3 arg4 harg4 arg5 harg5 arg6 harg6 arg7 harg7 hc1 hc2 hc3 x0 x1 x2).1, y ∈ pc.1.set :=
  View.cover_of_tiledL (kernelRun1_A c i arg3 harg3 arg4 harg4 arg5 harg5 arg6 harg6 arg7 harg7 hc1 hc2 hc3 x0 x1 x2).1 S512x64.size (by sl_kernel_rfl) y

/-- What case A leaves in the scratch accumulator: its pieces read back. -/
def sout1_A (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : cond1_1 i) (hc2 : cond1_2 i) (hc3 : ¬cond1_3 i) (x0 x1 x2 : Vec F S1x512x64 .bf16) : Vec F S512x64 .f32 :=
  VS1.read (Elt F) (VS1.writes (Elt F) VS1.junk (kernelRun1_A c i arg3 harg3 arg4 harg4 arg5 harg5 arg6 harg6 arg7 harg7 hc1 hc2 hc3 x0 x1 x2).1)

/-- Case B's pieces for the scratch accumulator tile it, so they cover it. -/
theorem scover1_B (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : ¬cond1_3 i) (x0 x1 x2 : Vec F S1x512x64 .bf16) (xs : Vec F S512x64 .f32) (y : S512x64.Idx) :
    ∃ pc ∈ (kernelRun1_B c i arg3 harg3 arg4 harg4 arg5 harg5 arg6 harg6 arg7 harg7 hc1 hc2 hc3 x0 x1 x2 xs).1, y ∈ pc.1.set :=
  View.cover_of_tiledL (kernelRun1_B c i arg3 harg3 arg4 harg4 arg5 harg5 arg6 harg6 arg7 harg7 hc1 hc2 hc3 x0 x1 x2 xs).1 S512x64.size (by sl_kernel_rfl) y

/-- What case B leaves in the scratch accumulator: its pieces read back. -/
def sout1_B (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : ¬cond1_3 i) (x0 x1 x2 : Vec F S1x512x64 .bf16) (xs : Vec F S512x64 .f32) : Vec F S512x64 .f32 :=
  VS1.read (Elt F) (VS1.writes (Elt F) VS1.junk (kernelRun1_B c i arg3 harg3 arg4 harg4 arg5 harg5 arg6 harg6 arg7 harg7 hc1 hc2 hc3 x0 x1 x2 xs).1)

/-- Case D's pieces for the output block tile it, so they cover it. -/
theorem cover1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) (y : S1x512x64.Idx) :
    ∃ pc ∈ (kernelRun1_D c i arg3 harg3 arg4 harg4 arg5 harg5 arg6 harg6 arg7 harg7 hc1 hc2 hc3 x0 x1 x2 xs).1, y ∈ pc.1.set :=
  View.cover_of_tiledL (kernelRun1_D c i arg3 harg3 arg4 harg4 arg5 harg5 arg6 harg6 arg7 harg7 hc1 hc2 hc3 x0 x1 x2 xs).1 S1x512x64.size (by sl_kernel_rfl) y

/-- What case D leaves in the output window's buffer: its pieces read back. -/
def out1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) : Vec F S1x512x64 .f32 :=
  VO1.read (Elt F) (VO1.writes (Elt F) VO1.junk (kernelRun1_D c i arg3 harg3 arg4 harg4 arg5 harg5 arg6 harg6 arg7 harg7 hc1 hc2 hc3 x0 x1 x2 xs).1)

/-- Case D's pieces for the scratch accumulator tile it, so they cover it. -/
theorem scover1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) (y : S512x64.Idx) :
    ∃ pc ∈ (kernelRun1_D c i arg3 harg3 arg4 harg4 arg5 harg5 arg6 harg6 arg7 harg7 hc1 hc2 hc3 x0 x1 x2 xs).2.1, y ∈ pc.1.set :=
  View.cover_of_tiledL (kernelRun1_D c i arg3 harg3 arg4 harg4 arg5 harg5 arg6 harg6 arg7 harg7 hc1 hc2 hc3 x0 x1 x2 xs).2.1 S512x64.size (by sl_kernel_rfl) y

/-- What case D leaves in the scratch accumulator: its pieces read back. -/
def sout1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) : Vec F S512x64 .f32 :=
  VS1.read (Elt F) (VS1.writes (Elt F) VS1.junk (kernelRun1_D c i arg3 harg3 arg4 harg4 arg5 harg5 arg6 harg6 arg7 harg7 hc1 hc2 hc3 x0 x1 x2 xs).2.1)

/-- Case E's pieces for the output block tile it, so they cover it. -/
theorem cover1_E (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : ¬cond1_2 i) (hc3 : cond1_3 i) (xs : Vec F S512x64 .f32) (y : S1x512x64.Idx) :
    ∃ pc ∈ (kernelRun1_E c i arg3 harg3 arg4 harg4 arg5 harg5 arg6 harg6 arg7 harg7 hc1 hc2 hc3 xs).1, y ∈ pc.1.set :=
  View.cover_of_tiledL (kernelRun1_E c i arg3 harg3 arg4 harg4 arg5 harg5 arg6 harg6 arg7 harg7 hc1 hc2 hc3 xs).1 S1x512x64.size (by sl_kernel_rfl) y

/-- What case E leaves in the output window's buffer: its pieces read back. -/
def out1_E (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : ¬cond1_2 i) (hc3 : cond1_3 i) (xs : Vec F S512x64 .f32) : Vec F S1x512x64 .f32 :=
  VO1.read (Elt F) (VO1.writes (Elt F) VO1.junk (kernelRun1_E c i arg3 harg3 arg4 harg4 arg5 harg5 arg6 harg6 arg7 harg7 hc1 hc2 hc3 xs).1)

/-! ## The conditions from the closed forms -/

theorem c1_of (t : Fin cfg1.N) (h : t.val % 4 = 0) : cond1_1 (grid1.coords t) := (hcond1_1 t).mpr h
theorem nc1_of (t : Fin cfg1.N) (h : ¬t.val % 4 = 0) : ¬cond1_1 (grid1.coords t) := fun hc => h ((hcond1_1 t).mp hc)
theorem c2_of (t : Fin cfg1.N) (h : t.val % 4 ≤ (t.val / 4) % 4) : cond1_2 (grid1.coords t) := (hcond1_2 t).mpr h
theorem nc2_of (t : Fin cfg1.N) (h : ¬t.val % 4 ≤ (t.val / 4) % 4) : ¬cond1_2 (grid1.coords t) := fun hc => h ((hcond1_2 t).mp hc)
theorem c3_of (t : Fin cfg1.N) (h : t.val % 4 = 3) : cond1_3 (grid1.coords t) := (hcond1_3 t).mpr h
theorem nc3_of (t : Fin cfg1.N) (h : ¬t.val % 4 = 3) : ¬cond1_3 (grid1.coords t) := fun hc => h ((hcond1_3 t).mp hc)
/-- At the first key tile the key tile is not above the diagonal, and it is not the last. -/
theorem c2_of_A (t : Fin cfg1.N) (h : t.val % 4 = 0) : cond1_2 (grid1.coords t) := (hcond1_2 t).mpr (by omega)
theorem nc3_of_A (t : Fin cfg1.N) (h : t.val % 4 = 0) : ¬cond1_3 (grid1.coords t) := fun hc => by
  have := (hcond1_3 t).mp hc; omega

/-! ## What the scratch accumulator and the output window's buffer hold after each point -/

/-- What the output window's staging buffer (first component) and the scratch accumulator (second component) hold after
    the body at position `n`: with `kv = n % 4` the key tile and `qi = (n / 4) % 4` the query tile, the accumulator is
    reset and updated when `kv = 0`, updated over what the point before left when `0 < kv ≤ qi`, and left as the point
    before left it when `qi < kv`; the output block is stored from the accumulator when `kv = 3`. -/
def outsAt1 (c : Dev nD) : (n : ℕ) → n < cfg1.N → Vec F S1x512x64 .f32 × Vec F S512x64 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (c1_of ⟨0, hn⟩ (Nat.zero_mod 4)) (c2_of_A ⟨0, hn⟩ (Nat.zero_mod 4)) (nc3_of_A ⟨0, hn⟩ (Nat.zero_mod 4)) (iblk1 V c 0 ⟨0, hn⟩) (iblk1 V c 1 ⟨0, hn⟩) (iblk1 V c 2 ⟨0, hn⟩))
  | n + 1, hn =>
    if h0 : (n + 1) % 4 = 0 then
      (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c1_of ⟨n + 1, hn⟩ h0) (c2_of_A ⟨n + 1, hn⟩ h0) (nc3_of_A ⟨n + 1, hn⟩ h0) (iblk1 V c 0 ⟨n + 1, hn⟩) (iblk1 V c 1 ⟨n + 1, hn⟩) (iblk1 V c 2 ⟨n + 1, hn⟩))
    else
      if h3 : (n + 1) % 4 = 3 then
        if h2 : (n + 1) % 4 ≤ ((n + 1) / 4) % 4 then
          (out1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (c2_of ⟨n + 1, hn⟩ h2) (c3_of ⟨n + 1, hn⟩ h3) (iblk1 V c 0 ⟨n + 1, hn⟩) (iblk1 V c 1 ⟨n + 1, hn⟩) (iblk1 V c 2 ⟨n + 1, hn⟩) (outsAt1 c n (Nat.lt_of_succ_lt hn)).2,
            sout1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (c2_of ⟨n + 1, hn⟩ h2) (c3_of ⟨n + 1, hn⟩ h3) (iblk1 V c 0 ⟨n + 1, hn⟩) (iblk1 V c 1 ⟨n + 1, hn⟩) (iblk1 V c 2 ⟨n + 1, hn⟩) (outsAt1 c n (Nat.lt_of_succ_lt hn)).2)
        else
          (out1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (nc2_of ⟨n + 1, hn⟩ h2) (c3_of ⟨n + 1, hn⟩ h3) (outsAt1 c n (Nat.lt_of_succ_lt hn)).2, (outsAt1 c n (Nat.lt_of_succ_lt hn)).2)
      else
        if h2 : (n + 1) % 4 ≤ ((n + 1) / 4) % 4 then
          (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (c2_of ⟨n + 1, hn⟩ h2) (nc3_of ⟨n + 1, hn⟩ h3) (iblk1 V c 0 ⟨n + 1, hn⟩) (iblk1 V c 1 ⟨n + 1, hn⟩) (iblk1 V c 2 ⟨n + 1, hn⟩) (outsAt1 c n (Nat.lt_of_succ_lt hn)).2)
        else
          (out1_idle, (outsAt1 c n (Nat.lt_of_succ_lt hn)).2)

/-- `outsAt1` at a point of the first key tile: the accumulator reset and updated. -/
theorem outsAt1_A (c : Dev nD) (t : Fin cfg1.N) (h0 : t.val % 4 = 0) :
    outsAt1 V c t.val t.isLt = (out1_idle, sout1_A c (grid1.coords t) (ms1_0 t) (hs1_0 t) (ms1_1 t) (hs1_1 t) (ms1_2 t) (hs1_2 t) (ms1_3 t) (hs1_3 t) scM1 (Memref.isWhole_whole _) (c1_of t h0) (c2_of_A t h0) (nc3_of_A t h0) (iblk1 V c 0 t) (iblk1 V c 1 t) (iblk1 V c 2 t)) := by
  obtain ⟨n, hn⟩ := t
  cases n with
  | zero => exact rfl
  | succ n => exact (dif_pos h0).trans rfl

/-- `outsAt1` at a point of a middle key tile on or below the diagonal: the accumulator updated over what the point
    before left. -/
theorem outsAt1_B (c : Dev nD) (t : Fin cfg1.N) (h0 : ¬t.val % 4 = 0) (h3 : ¬t.val % 4 = 3) (h2 : t.val % 4 ≤ (t.val / 4) % 4) :
    outsAt1 V c t.val t.isLt = (out1_idle, sout1_B c (grid1.coords t) (ms1_0 t) (hs1_0 t) (ms1_1 t) (hs1_1 t) (ms1_2 t) (hs1_2 t) (ms1_3 t) (hs1_3 t) scM1 (Memref.isWhole_whole _) (nc1_of t h0) (c2_of t h2) (nc3_of t h3) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_pos h2).trans rfl))

/-- `outsAt1` at a point of a middle key tile above the diagonal: the accumulator as the point before left it. -/
theorem outsAt1_C (c : Dev nD) (t : Fin cfg1.N) (h0 : ¬t.val % 4 = 0) (h3 : ¬t.val % 4 = 3) (h2 : ¬t.val % 4 ≤ (t.val / 4) % 4) :
    outsAt1 V c t.val t.isLt = (out1_idle, (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_neg h2).trans rfl))

/-- `outsAt1` at a point of the last key tile on the diagonal: the accumulator updated over what the point before left,
    and the output block stored from it. -/
theorem outsAt1_D (c : Dev nD) (t : Fin cfg1.N) (h0 : ¬t.val % 4 = 0) (h3 : t.val % 4 = 3) (h2 : t.val % 4 ≤ (t.val / 4) % 4) :
    outsAt1 V c t.val t.isLt = (out1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2,
      sout1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_pos h2).trans rfl))

/-- `outsAt1` at a point of the last key tile above the diagonal: the accumulator as the point before left it, and the
    output block stored from it. -/
theorem outsAt1_E (c : Dev nD) (t : Fin cfg1.N) (h0 : ¬t.val % 4 = 0) (h3 : t.val % 4 = 3) (h2 : ¬t.val % 4 ≤ (t.val / 4) % 4) :
    outsAt1 V c t.val t.isLt = (out1_E c (grid1.coords t) (ms1_0 t) (hs1_0 t) (ms1_1 t) (hs1_1 t) (ms1_2 t) (hs1_2 t) (ms1_3 t) (hs1_3 t) scM1 (Memref.isWhole_whole _) (nc1_of t h0) (nc2_of t h2) (c3_of t h3) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_neg h2).trans rfl))

/-! ## The buffers read back after a case's stores -/

/-- After case A's stores the scratch accumulator reads as `outsAt1`'s second component, whatever it held before. -/
theorem sread1_A (c : Dev nD) (t : Fin cfg1.N) (h0 : t.val % 4 = 0) (es : VS1.ty.Contents (Elt F)) :
    VS1.read (Elt F) (VS1.writes (Elt F) es (kernelRun1_A c (grid1.coords t) (ms1_0 t) (hs1_0 t) (ms1_1 t) (hs1_1 t) (ms1_2 t) (hs1_2 t) (ms1_3 t) (hs1_3 t) scM1 (Memref.isWhole_whole _) (c1_of t h0) (c2_of_A t h0) (nc3_of_A t h0) (iblk1 V c 0 t) (iblk1 V c 1 t) (iblk1 V c 2 t)).1)
      = (outsAt1 V c t.val t.isLt).2 := by
  rw [outsAt1_A V c t h0]; dsimp only; unfold sout1_A
  exact View.read_writes_of_cover _ _ _ _ _ (scover1_A (F := F) c _ _ _ _ _ _ _ _ _ _ _ _ _ _ _ _ _)

/-- After case B's stores the scratch accumulator reads as `outsAt1`'s second component. -/
theorem sread1_B (c : Dev nD) (t : Fin cfg1.N) (h0 : ¬t.val % 4 = 0) (h3 : ¬t.val % 4 = 3) (h2 : t.val % 4 ≤ (t.val / 4) % 4)
    (es : VS1.ty.Contents (Elt F)) :
    VS1.read (Elt F) (VS1.writes (Elt F) es (kernelRun1_B c (grid1.coords t) (ms1_0 t) (hs1_0 t) (ms1_1 t) (hs1_1 t) (ms1_2 t) (hs1_2 t) (ms1_3 t) (hs1_3 t) scM1 (Memref.isWhole_whole _) (nc1_of t h0) (c2_of t h2) (nc3_of t h3) (iblk1 V c 0 t) (iblk1 V c 1 t) (iblk1 V c 2 t) (outsAt1 V c (t.val - 1) (Nat.lt_of_le_of_lt (Nat.sub_le _ _) t.isLt)).2).1)
      = (outsAt1 V c t.val t.isLt).2 := by
  rw [outsAt1_B V c t h0 h3 h2]; dsimp only; unfold sout1_B
  exact View.read_writes_of_cover _ _ _ _ _ (scover1_B (F := F) c _ _ _ _ _ _ _ _ _ _ _ _ _ _ _ _ _ _)

/-- After case D's stores the scratch accumulator reads as `outsAt1`'s second component, -/
theorem sread1_D (c : Dev nD) (t : Fin cfg1.N) (h0 : ¬t.val % 4 = 0) (h3 : t.val % 4 = 3) (h2 : t.val % 4 ≤ (t.val / 4) % 4)
    (es : VS1.ty.Contents (Elt F)) :
    VS1.read (Elt F) (VS1.writes (Elt F) es (kernelRun1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2).2.1)
      = (outsAt1 V c t.val t.isLt).2 := by
  rw [outsAt1_D V c t h0 h3 h2]; dsimp only; unfold sout1_D
  exact View.read_writes_of_cover _ _ _ _ _ (scover1_D (F := F) c _ _ _ _ _ _ _ _ _ _ _ _ _ _ _ _ _ _)

/-- and the output window's buffer as its first component. -/
theorem oread1_D (c : Dev nD) (t : Fin cfg1.N) (h0 : ¬t.val % 4 = 0) (h3 : t.val % 4 = 3) (h2 : t.val % 4 ≤ (t.val / 4) % 4)
    (e3 : (ms1_3 t).view.ty.Contents (Elt F)) :
    (ms1_3 t).view.read (Elt F) ((ms1_3 t).view.writes (Elt F) e3 (kernelRun1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2).1)
      = (outsAt1 V c t.val t.isLt).1 := by
  rw [outsAt1_D V c t h0 h3 h2]; dsimp only; unfold out1_D
  exact View.read_writes_of_cover _ _ _ _ _ (cover1_D (F := F) c _ _ _ _ _ _ _ _ _ _ _ _ _ _ _ _ _ _)

/-- After case E's store the output window's buffer reads as `outsAt1`'s first component. -/
theorem oread1_E (c : Dev nD) (t : Fin cfg1.N) (h0 : ¬t.val % 4 = 0) (h3 : t.val % 4 = 3) (h2 : ¬t.val % 4 ≤ (t.val / 4) % 4)
    (e3 : (ms1_3 t).view.ty.Contents (Elt F)) :
    (ms1_3 t).view.read (Elt F) ((ms1_3 t).view.writes (Elt F) e3 (kernelRun1_E c (grid1.coords t) (ms1_0 t) (hs1_0 t) (ms1_1 t) (hs1_1 t) (ms1_2 t) (hs1_2 t) (ms1_3 t) (hs1_3 t) scM1 (Memref.isWhole_whole _) (nc1_of t h0) (nc2_of t h2) (c3_of t h3) (outsAt1 V c (t.val - 1) (Nat.lt_of_le_of_lt (Nat.sub_le _ _) t.isLt)).2).1)
      = (outsAt1 V c t.val t.isLt).1 := by
  rw [outsAt1_E V c t h0 h3 h2]; dsimp only; unfold out1_E
  exact View.read_writes_of_cover _ _ _ _ _ (cover1_E (F := F) c _ _ _ _ _ _ _ _ _ _ _ _ _ _ _)

/-! ## The region invariant -/

/-- The region invariant before position `n`: before the first point what the launch hands over (the scratch accumulator
    at anything); afterwards the same with the accumulator at what the point before left in it. -/
def PhiS1 (c : Dev nD) : (n : ℕ) → n ≤ cfg1.N → sProp 𝕄
  | 0, _ => Pipeline.ΦA spec1 c
  | n + 1, hn => PhiWith (F := F) c (owns (c : Thread nD τ) scM1 fullShare (outsAt1 V c n hn).2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith (F := F) c (owns (c : Thread nD τ) scM1 fullShare (outsAt1 V c n hn).2) := rfl

theorem PhiS1_pos (c : Dev nD) (n : ℕ) (h : n ≤ cfg1.N) (hz : n ≠ 0) :
    PhiS1 V c n h = PhiWith (F := F) c (owns (c : Thread nD τ) scM1 fullShare (outsAt1 V c (n - 1) (by omega)).2) := by
  cases n with
  | zero => exact absurd rfl hz
  | succ n => rfl

/-! ## The pipeline's proof data -/

/-- The proof data of the second pipeline on core `c`: the arrays as the region finds them; after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the five cases the point is
    in; the invariant hands the body the scratch accumulator at what the point before left (at anything at the first
    point) and takes it back at this point's contents; where the output block is not stored its buffer is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 512 := lt_of_lt_of_eq t.isLt (show cfg1.N = 512 from N_1)
  by_cases h0 : t.val % 4 = 0
  · rw [Dat.leavesExact_idle (dat1 V c) 3 t (idleAt1_3 t (nc3_of_A t h0)) (noFlush1_3 t (nc3_of_A t h0))]
    by_cases hz : t.val = 0
    · rw [PhiS1_castSucc V c t, PhiS1_zero V c _ _ hz, PhiA1_eq]
      iintro ⟨HΦ, Ho, ⟨%d0, H0⟩, ⟨%d1, H1⟩, ⟨%d2, H2⟩, ⟨%d3, H3⟩⟩
      ihave ⟨HS, Hb⟩ := (PhiWith_swap (F := F) c _ (owns (c : Thread nD τ) scM1 fullShare (outsAt1 V c t.val t.isLt).2)) $$ HΦ
      iapply ((kernelRun1_A c (grid1.coords t) _ _ _ _ _ _ _ _ _ _ (c1_of t h0) (c2_of_A t h0) (nc3_of_A t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · iapply Hb
        unfold owns; iexists _; isplitr
        swap; · iexact HS
        ipureintro; exact sread1_A V c t h0 _
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨HΦ, Ho, ⟨%d0, H0⟩, ⟨%d1, H1⟩, ⟨%d2, H2⟩, ⟨%d3, H3⟩⟩
      ihave ⟨HS, Hb⟩ := (PhiWith_swap (F := F) c _ (owns (c : Thread nD τ) scM1 fullShare (outsAt1 V c t.val t.isLt).2)) $$ HΦ
      iapply ((kernelRun1_A c (grid1.coords t) _ _ _ _ _ _ _ _ _ _ (c1_of t h0) (c2_of_A t h0) (nc3_of_A t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hb]
      · iapply Hb
        unfold owns; iexists _; isplitr
        swap; · iexact HS
        ipureintro; exact sread1_A V c t h0 _
      isplitl [Ho]; · iexact Ho
      isplitl [H0]; · iexact H0
      isplitl [H1]; · iexact H1
      isplitl [H2]; · iexact H2
      iexists _; iexact H3
  · have hz : t.val ≠ 0 := fun e => h0 (by rw [e])
    rw [PhiS1_castSucc V c t, PhiS1_pos V c _ _ hz]
    by_cases h3 : t.val % 4 = 3
    · rw [show (dat1 V c).leavesExact 3 t = owns (c : Thread nD τ) (ms1_3 t) fullShare ((dat1 V c).after 3 t) from by
        unfold Dat.leavesExact; rw [liveAt1_3 t (c3_of t h3)], after1_3]
      by_cases h2 : t.val % 4 ≤ (t.val / 4) % 4
      · iintro ⟨HΦ, Ho, ⟨%d0, H0⟩, ⟨%d1, H1⟩, ⟨%d2, H2⟩, ⟨%d3, H3⟩⟩
        ihave ⟨HS, Hb⟩ := (PhiWith_swap (F := F) c _ (owns (c : Thread nD τ) scM1 fullShare (outsAt1 V c t.val t.isLt).2)) $$ HΦ
        iapply ((kernelRun1_D c (grid1.coords t) _ _ _ _ _ _ _ _ _ _ (nc1_of t h0) (c2_of t h2) (c3_of t h3) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hb]
        · iapply Hb
          unfold owns; iexists _; isplitr
          swap; · iexact HS
          ipureintro; exact sread1_D V c t h0 h3 h2 _
        isplitl [Ho]; · iexact Ho
        isplitl [H0]; · iexact H0
        isplitl [H1]; · iexact H1
        isplitl [H2]; · iexact H2
        unfold owns; iexists _; isplitr
        swap; · iexact H3
        ipureintro; exact oread1_D V c t h0 h3 h2 _
      · rw [show (outsAt1 V c t.val t.isLt).2 = (outsAt1 V c (t.val - 1) (Nat.lt_of_le_of_lt (Nat.sub_le _ _) t.isLt)).2 from by
          rw [outsAt1_E V c t h0 h3 h2]]
        iintro ⟨HΦ, Ho, ⟨%d0, H0⟩, ⟨%d1, H1⟩, ⟨%d2, H2⟩, ⟨%d3, H3⟩⟩
        ihave ⟨HS, Hb⟩ := (PhiWith_swap (F := F) c _ (owns (c : Thread nD τ) scM1 fullShare (outsAt1 V c (t.val - 1) (Nat.lt_of_le_of_lt (Nat.sub_le _ _) t.isLt)).2)) $$ HΦ
        iapply ((kernelRun1_E c (grid1.coords t) _ _ _ _ _ _ _ _ _ _ (nc1_of t h0) (nc2_of t h2) (c3_of t h3) _).2 Set.univ _)
        isplitl [H3]; · iexists _; iexact H3
        isplitl [HS]; · iexact HS
        iintro ⟨⟨%e3, H3⟩, HS⟩
        isplitl [HS Hb]
        · iapply Hb; iexact HS
        isplitl [Ho]; · iexact Ho
        isplitl [H0]; · iexact H0
        isplitl [H1]; · iexact H1
        isplitl [H2]; · iexact H2
        unfold owns; iexists _; isplitr
        swap; · iexact H3
        ipureintro; exact oread1_E V c t h0 h3 h2 _
    · rw [Dat.leavesExact_idle (dat1 V c) 3 t (idleAt1_3 t (nc3_of t h3)) (noFlush1_3 t (nc3_of t h3))]
      by_cases h2 : t.val % 4 ≤ (t.val / 4) % 4
      · iintro ⟨HΦ, Ho, ⟨%d0, H0⟩, ⟨%d1, H1⟩, ⟨%d2, H2⟩, ⟨%d3, H3⟩⟩
        ihave ⟨HS, Hb⟩ := (PhiWith_swap (F := F) c _ (owns (c : Thread nD τ) scM1 fullShare (outsAt1 V c t.val t.isLt).2)) $$ HΦ
        iapply ((kernelRun1_B c (grid1.coords t) _ _ _ _ _ _ _ _ _ _ (nc1_of t h0) (c2_of t h2) (nc3_of t h3) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · iapply Hb
          unfold owns; iexists _; isplitr
          swap; · iexact HS
          ipureintro; exact sread1_B V c t h0 h3 h2 _
        isplitl [Ho]; · iexact Ho
        isplitl [H0]; · iexact H0
        isplitl [H1]; · iexact H1
        isplitl [H2]; · iexact H2
        iexists _; iexact H3
      · rw [show (outsAt1 V c t.val t.isLt).2 = (outsAt1 V c (t.val - 1) (Nat.lt_of_le_of_lt (Nat.sub_le _ _) t.isLt)).2 from by
          rw [outsAt1_C V c t h0 h3 h2]]
        iintro ⟨HΦ, Ho, ⟨%d0, H0⟩, ⟨%d1, H1⟩, ⟨%d2, H2⟩, ⟨%d3, H3⟩⟩
        iapply (kernelRun1_C c (grid1.coords t) _ _ _ _ _ _ _ _ _ _ (nc1_of t h0) (nc2_of t h2) (nc3_of t h3) Set.univ _)
        isplitl [HΦ]; · iexact HΦ
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [Gen.bigSep_W1, Gen.bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave ⟨HS, Hb⟩ := (PhiWith_swap (F := F) c _ iprop(∃ d, owns (c : Thread nD τ) scM1 fullShare d)) $$ HΦ
  iapply Hb
  iexists _; iexact HS

/-- After the last point the invariant gives it back. -/
theorem hout1 (c : Dev nD) : (dat1 V c).Φ (Fin.last cfg1.N) ⊢ Pipeline.ΦA spec1 c :=
  Phi_out1 V c _ (by rw [Fin.val_last]; have : cfg1.N = 512 := N_1; omega)

end Cert.KernelIdeal.Fr

end
-- ==== Proof.Fr.Run.lean ====
/-
  The run of the whole program: host operations, the projection region, host operations, the attention region, host
  operations. The contents of every unscoped buffer at each of the six boundaries are named as a fold from the launch
  memory (a host stretch maps the contents through its operations; a region replaces its windows' arrays by what its
  write-backs leave and keeps every other buffer). Each region is a segment entered from "every unscoped buffer at the
  boundary's contents, the generator register at some state, nothing owed" and left at the same shape one boundary on;
  each host stretch is a segment of the same shape. The launch theorem for several regions then says: every weakly fair
  execution terminates, and at the end every unscoped buffer holds the last boundary's contents. The three arguments are
  written by no operation and are no window of either region, so they end as launched. Generic in the float instance.
-/
import proofs.«126934_j43173011259799_1_alg».proof.Proof.Gen.KernelIdeal.Launch
import proofs.«126934_j43173011259799_1_alg».proof.Proof.Gen.KernelIdeal.Skeleton
import proofs.«126934_j43173011259799_1_alg».proof.Proof.Gen.KernelIdeal.Points
import proofs.«126934_j43173011259799_1_alg».proof.Proof.Gen.KernelIdeal.Regions
import proofs.«126934_j43173011259799_1_alg».proof.Proof.Fr.Reg0
import proofs.«126934_j43173011259799_1_alg».proof.Proof.Fr.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch: the launch state's memory (memory `m`, zero counters, generator registers `ρ`). -/
abbrev W0 : Dev nD → Valuation τ sig (Elt F) := fun c b => (⟨m, fun _ => 0, ρ⟩ : MemSt nD τ sig (Elt F)).mem (c, b)
/-- After the first host stretch (the projection region's entry). -/
abbrev W1 : Dev nD → Valuation τ sig (Elt F) := fun c => StableHlo.after hostOps0 (W0 m ρ c)
/-- The same read at the TensorCore's references (what the projection region's proof data take). -/
abbrev V1 : (c : Dev nD) → (b : Ref sig .tc) → Buf (Elt F) ((c : Thread nD τ).loc b) := fun c b => W1 m ρ c b
/-- At the projection region's exit: its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m ρ c b
/-- At the projection region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the TensorCore's references (what the attention region's proof data take). -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the contents at the return. -/
abbrev W5 : Dev nD → Valuation τ sig (Elt F) := fun c => StableHlo.after hostOps2 (W4 m ρ c)

/-! ### The arguments end as launched: no host operation writes one and neither region has one as a window -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The projection region over the thread state: entered from every unscoped buffer at `W1`, left at `W2`. Its arrays
    split out of the unscoped buffers and put back at the exit contents; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. As the
    projection region, except that its invariant carries the scratch accumulator's contents from point to point: at
    the first point it is made from the plain invariant, and at the last it gives the plain invariant back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (V3 m ρ) c
    refine .trans ?_ h1
    unfold Pipeline.ΦA
    iintro ⟨Hp, -, Hr⟩
    isplitl [Hr]; · iexact Hr
    iexact Hp
  hout c := by
    have h1 : (pdats m ρ 1 c).Φ (Fin.last _) ⊢ Pipeline.ΦA spec1 c := hout1 (V3 m ρ) c
    refine h1.trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state has every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Fr

end
-- ==== Proof.FrK.Reg0.lean ====
/-
  The first kernel region (the fused projection) on its own: at ANY contents `V` of the TensorCore's buffers at the
  region's entry, what each window's block is at a grid point, what the body leaves in the output window's staging buffer
  (one whole-block store of the payload of the three input blocks), the body's triple, the pipeline's proof data and the
  body obligation at every point. Generic in the float instance.
-/
import proofs.«126934_j43173011259799_1_alg».proof.Proof.Gen.Kernel.Launch
import proofs.«126934_j43173011259799_1_alg».proof.Proof.Gen.Kernel.Skeleton
import proofs.«126934_j43173011259799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the point does
    not fetch, the block index has not moved since the fetch that filled the buffer, and the body leaves inputs alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_x : Rect S512x1024 := Rect.unit (s := S512x1024) ![0, 0] S512x1024.size Facts₀.inb_S512x1024_S512x1024_0_0
abbrev r0_w : Rect S1024x1024 := Rect.unit (s := S1024x1024) ![0, 0] S1024x1024.size Facts₀.inb_S1024x1024_S1024x1024_0_0
abbrev r0_b : Rect S1x1024 := Rect.unit (s := S1x1024) ![0, 0] S1x1024.size Facts₀.inb_S1x1024_S1x1024_0_0

/-! ## What the body leaves in the output window's buffer -/

/-- The output window's staging buffer after the body, from the three input blocks: its one store, as a piece. -/
def out0_3 (x0 : Vec F S512x1024 .f32) (x1 : Vec F S1024x1024 .f32) (x2 : Vec F S1x1024 .f32) : Vec F S512x1024 .bf16 :=
  View.canon [⟨r0_x, k0_pay1 (View.ld x0 r0_x) (View.ld x1 r0_w) (View.ld x2 r0_b)⟩]

/-- The one store is the whole block, so it covers the buffer. -/
theorem cover0_3 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 1000000 in
/-- The kernel body on whole staging memrefs, the inputs' at contents `x0 x1 x2` and the output's at anything, runs to
    the continuation holding the inputs' as they were and the output's at `out0_3` of them. -/
theorem sound_kernel0 (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__qkv_proj_kernel i arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the region finds them; after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.Reg1Runs.lean ====
/-
  The second kernel region's body, case by case. The body branches three times on the grid point (key tile `kv`, query
  tile `qi`): it resets the scratch accumulator when `kv = 0`, adds the masked score-times-value product of the point's
  blocks to it when `kv ≤ qi`, and stores the accumulator into the output block when `kv = 3`. Over the grid five
  assignments of the three conditions occur; each gets the body's triple on whole staging memrefs.
-/
import proofs.«126934_j43173011259799_1_alg».proof.Proof.Gen.Kernel.Launch
import proofs.«126934_j43173011259799_1_alg».proof.Proof.Gen.Kernel.Skeleton
import proofs.«126934_j43173011259799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

/-! ## The branch conditions, from the grid coordinates, and where they hold -/

/-- `kv = 0`: the accumulator is reset. -/
abbrev cond1_1 (i : grid1.Coords) : Prop :=
  (Scalar.cmpi .ne (Scalar.extui (Scalar.cmpi .eq (BitVec.ofNat 32 (i 2).val) 0#32)) 0#32) = 1#1
/-- `kv ≤ qi`: the point's key tile is not wholly above the diagonal. -/
abbrev cond1_2 (i : grid1.Coords) : Prop :=
  (Scalar.cmpi .ne (Scalar.extui (Scalar.cmpi .sle (BitVec.ofNat 32 (i 2).val) (BitVec.ofNat 32 (i 1).val))) 0#32) = 1#1
/-- `kv = 3`: the last key tile; the output block is stored. -/
abbrev cond1_3 (i : grid1.Coords) : Prop := k1_cond3 i = 1#1

theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ (t.val / 4) % 4 :=
  (by decide +kernel : ∀ t : Fin grid1.N, cond1_2 (grid1.coords t) ↔ t.val % 4 ≤ (t.val / 4) % 4)
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output is not stored the window is idle and not written back. -/
theorem idleAt1_3 : ∀ t : Fin cfg1.N, ¬cond1_3 (grid1.coords t) → cfg1.idle 3 (grid1.coords t) = true := by decide +kernel
theorem noFlush1_3 : ∀ t : Fin cfg1.N, ¬cond1_3 (grid1.coords t) → (cfg1.win 3).flush t = false := by decide +kernel
theorem liveAt1_3 : ∀ t : Fin cfg1.N, cond1_3 (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S1x512x64 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x512x64 .bf16 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1x512x64 .f32 := win1_3.stage (cfg1.slots t 3)
abbrev hs1_3 (t : Fin cfg1.N) : (ms1_3 t).IsWhole := Facts₀.hstage1_3 ((cfg1.slots t 3).cast Facts₀.nbuf1_3)
/-- The scratch accumulator: a whole scoped buffer of the kernel's own. -/
abbrev scM1 : Memref sig .tc .vmem S512x64 .f32 := Memref.whole cc1_scratch0
/-- The views through which the scratch's and the output block's contents are stated. -/
abbrev VS1 : View sig .tc .vmem S512x64 .f32 := scM1.view
abbrev VO1 : View sig .tc .vmem S1x512x64 .f32 := (Memref.whole cc1_stg3_0 : Memref sig .tc .vmem S1x512x64 .f32).view

/-! ## The invariant with the scratch held apart -/

/-- The region's scoped rest (the first region's eight staging buffers at anything) and the generator register, with
    the scratch accumulator held as `S`. -/
def PhiWith (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S) ∗ ∃ r, prngReg c r)

/-- The class invariant is `PhiWith` at the scratch owned at anything. -/
theorem PhiA1_eq (c : Dev nD) :
    (Pipeline.ΦA spec1 c : sProp 𝕄) = PhiWith (F := F) c iprop(∃ d, owns (c : Thread nD τ) scM1 fullShare d) := by
  unfold Pipeline.ΦA PhiWith; rw [Gen.scopedRest1_eq]; simp only [scM1, owns_whole]; try rfl

/-- The scratch can be taken out of the invariant and put back at other contents. -/
theorem PhiWith_swap (c : Dev nD) (S S' : sProp 𝕄) :
    PhiWith (F := F) c S ⊢ iprop(S ∗ (S' -∗ PhiWith (F := F) c S')) := by
  unfold PhiWith
  iintro ⟨⟨H0, H1, H2, H3, H4, H5, H6, H7, HS⟩, Hg⟩
  isplitl [HS]
  · iexact HS
  iintro HS'
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS'
  · iexact Hg

/-! ## The body's triple, case by case -/

set_option maxHeartbeats 1000000 in
/-- Case A (`kv = 0`: reset, then the update; no store of the output, which is handed back untouched at `xi`). -/
noncomputable def kernelRun1_A (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : cond1_1 i) (hc2 : cond1_2 i) (hc3 : ¬cond1_3 i)
    (x0 x1 x2 : Vec F S1x512x64 .bf16) :
    { LS : List (View.Piece (Elt F) S512x64 .f32) //
      ∀ (xi : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__causal_relu_attn_kernel i arg3 harg3 arg4 harg4 arg5 harg5 arg6 harg6 arg7 harg7) K } := by
  refine ⟨?_, fun xi E K => ?run⟩
  case run =>
    simp only [Gen.cc1__causal_relu_attn_kernel_eq_skeleton]; unfold Gen.cc1__causal_relu_attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case B (`0 < kv ≤ qi`, `kv < 3`: the update over what the point before left in the scratch, `xs`; output idle). -/
noncomputable def kernelRun1_B (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : cond1_2 i) (hc3 : ¬cond1_3 i)
    (x0 x1 x2 : Vec F S1x512x64 .bf16) (xs : Vec F S512x64 .f32) :
    { LS : List (View.Piece (Elt F) S512x64 .f32) //
      ∀ (xi : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__causal_relu_attn_kernel i arg3 harg3 arg4 harg4 arg5 harg5 arg6 harg6 arg7 harg7) K } := by
  refine ⟨?_, fun xi E K => ?run⟩
  case run =>
    simp only [Gen.cc1__causal_relu_attn_kernel_eq_skeleton]; unfold Gen.cc1__causal_relu_attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case C (`qi < kv < 3`: a key tile wholly above the diagonal; the body touches nothing). -/
theorem kernelRun1_C (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : ¬cond1_2 i) (hc3 : ¬cond1_3 i)
    (E : Set ℕ) (K : PUnit → sProp 𝕄) : K ⟨⟩ ⊢ wp frame (wpE (defs₀ (F := F)) Variants.none c none) E (cc1__causal_relu_attn_kernel i arg3 harg3 arg4 harg4 arg5 harg5 arg6 harg6 arg7 harg7) K := by
  simp only [Gen.cc1__causal_relu_attn_kernel_eq_skeleton]; unfold Gen.cc1__causal_relu_attn_kernel_skel
  iintro Hk
  sl_exec (disch := first | exact hc1 | exact hc2 | exact hc3)
  sl_step
  iexact Hk

set_option maxHeartbeats 1000000 in
/-- Case D (`kv = 3 ≤ qi`: the update over `xs`, then the output block stored, pieces `L3`). -/
noncomputable def kernelRun1_D (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : cond1_2 i) (hc3 : cond1_3 i)
    (x0 x1 x2 : Vec F S1x512x64 .bf16) (xs : Vec F S512x64 .f32) :
    Σ' (L3 : List (View.Piece (Elt F) S1x512x64 .f32)), { LS : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__causal_relu_attn_kernel i arg3 harg3 arg4 harg4 arg5 harg5 arg6 harg6 arg7 harg7) K } := by
  refine ⟨?_, ?_, fun E K => ?run⟩
  case run =>
    simp only [Gen.cc1__causal_relu_attn_kernel_eq_skeleton]; unfold Gen.cc1__causal_relu_attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

set_option maxHeartbeats 1000000 in
/-- Case E (`kv = 3 > qi`: no update; the scratch, at `xs`, is read and the output block stored, pieces `L3`). -/
noncomputable def kernelRun1_E (c : Dev nD) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole) (hc1 : ¬cond1_1 i) (hc2 : ¬cond1_2 i) (hc3 : cond1_3 i)
    (xs : Vec F S512x64 .f32) :
    { L3 : List (View.Piece (Elt F) S1x512x64 .f32) //
      ∀ (E : Set ℕ) (K : PUnit → sProp 𝕄),
        iprop((∃ d, owns (c : Thread nD τ) arg6 fullShare d) ∗ owns (c : Thread nD τ) arg7 fullShare xs
            ∗ (iprop((∃ f, arg6.view.loc (c : Thread nD τ) ↦[arg6.view.set]{fullShare} arg6.view.writes (Elt F) f L3)
                ∗ owns (c : Thread nD τ) arg7 fullShare xs) -∗ K ⟨⟩))
          ⊢ wp frame (wpE (defs₀ (F := F)) Variants.none c none) E (cc1__causal_relu_attn_kernel i arg3 harg3 arg4 harg4 arg5 harg5 arg6 harg6 arg7 harg7) K } := by
  refine ⟨?_, fun E K => ?run⟩
  case run =>
    simp only [Gen.cc1__causal_relu_attn_kernel_eq_skeleton]; unfold Gen.cc1__causal_relu_attn_kernel_skel
    unfold owns
    iintro ⟨⟨%d3, %f3, -, H3⟩, ⟨%fs, %hfs, HS⟩, Hk⟩
    obtain rfl := harg7.eq_unread hfs
    sl_exec (disch := first | exact hc1 | exact hc2 | exact hc3)
    sl_step
    iapply Hk
    isplitl [H3]; · iexists _; iexact H3
    iexists _; isplitr; · ipureintro; exact harg7.read_unread _
    iexact HS

end Cert.Kernel.Fr

end
-- ==== Proof.FrK.Reg1.lean ====
/-
  The second kernel region (causal ReLU attention, one head group and one query tile per output block, the key tiles
  accumulated in a scratch buffer) on its own, at ANY contents `V` of the TensorCore's buffers at the region's entry:
  what the scratch accumulator and the output window's staging buffer hold after each grid point, the region invariant
  carrying the accumulator between points, the pipeline's proof data and the body obligation at every point.
  Generic in the float instance.
-/
import proofs.«126934_j43173011259799_1_alg».proof.Proof.Gen.Kernel.Launch
import proofs.«126934_j43173011259799_1_alg».proof.Proof.Gen.Kernel.Skeleton
import proofs.«126934_j43173011259799_1_alg».proof.Proof.Gen.Kernel.Points
import proofs.«126934_j43173011259799_1_alg».proof.Proof.FrK.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the point does
    not fetch, the block index has not moved since the fetch that filled the buffer, and the body leaves inputs alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch accumulator and in the output window's buffer -/

/-- At a point that does not store the output block the window's buffer is handed back as found and nothing consults
    what the proof data names for it: a placeholder (nothing written, read back). -/
def out1_idle : Vec F S1x512x64 .f32 := VO1.read (Elt F) (VO1.writes (Elt F) VO1.junk [])

/-- Case A's pieces for the scratch accumulator tile it, so they cover it. -/
theorem scover1_A (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : cond1_1 i) (hc2 : cond1_2 i) (hc3 : ¬cond1_3 i) (x0 x1 x2 : Vec F S1x512x64 .bf16) (y : S512x64.Idx) :
    ∃ pc ∈ (kernelRun1_A c i arg3 harg3 arg4 harg4 arg5 harg5 arg6 harg6 arg7 harg7 hc1 hc2 hc3 x0 x1 x2).1, y ∈ pc.1.set :=
  View.cover_of_tiledL (kernelRun1_A c i arg3 harg3 arg4 harg4 arg5 harg5 arg6 harg6 arg7 harg7 hc1 hc2 hc3 x0 x1 x2).1 S512x64.size (by sl_kernel_rfl) y

/-- What case A leaves in the scratch accumulator: its pieces read back. -/
def sout1_A (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : cond1_1 i) (hc2 : cond1_2 i) (hc3 : ¬cond1_3 i) (x0 x1 x2 : Vec F S1x512x64 .bf16) : Vec F S512x64 .f32 :=
  VS1.read (Elt F) (VS1.writes (Elt F) VS1.junk (kernelRun1_A c i arg3 harg3 arg4 harg4 arg5 harg5 arg6 harg6 arg7 harg7 hc1 hc2 hc3 x0 x1 x2).1)

/-- Case B's pieces for the scratch accumulator tile it, so they cover it. -/
theorem scover1_B (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : ¬cond1_3 i) (x0 x1 x2 : Vec F S1x512x64 .bf16) (xs : Vec F S512x64 .f32) (y : S512x64.Idx) :
    ∃ pc ∈ (kernelRun1_B c i arg3 harg3 arg4 harg4 arg5 harg5 arg6 harg6 arg7 harg7 hc1 hc2 hc3 x0 x1 x2 xs).1, y ∈ pc.1.set :=
  View.cover_of_tiledL (kernelRun1_B c i arg3 harg3 arg4 harg4 arg5 harg5 arg6 harg6 arg7 harg7 hc1 hc2 hc3 x0 x1 x2 xs).1 S512x64.size (by sl_kernel_rfl) y

/-- What case B leaves in the scratch accumulator: its pieces read back. -/
def sout1_B (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : ¬cond1_3 i) (x0 x1 x2 : Vec F S1x512x64 .bf16) (xs : Vec F S512x64 .f32) : Vec F S512x64 .f32 :=
  VS1.read (Elt F) (VS1.writes (Elt F) VS1.junk (kernelRun1_B c i arg3 harg3 arg4 harg4 arg5 harg5 arg6 harg6 arg7 harg7 hc1 hc2 hc3 x0 x1 x2 xs).1)

/-- Case D's pieces for the output block tile it, so they cover it. -/
theorem cover1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) (y : S1x512x64.Idx) :
    ∃ pc ∈ (kernelRun1_D c i arg3 harg3 arg4 harg4 arg5 harg5 arg6 harg6 arg7 harg7 hc1 hc2 hc3 x0 x1 x2 xs).1, y ∈ pc.1.set :=
  View.cover_of_tiledL (kernelRun1_D c i arg3 harg3 arg4 harg4 arg5 harg5 arg6 harg6 arg7 harg7 hc1 hc2 hc3 x0 x1 x2 xs).1 S1x512x64.size (by sl_kernel_rfl) y

/-- What case D leaves in the output window's buffer: its pieces read back. -/
def out1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) : Vec F S1x512x64 .f32 :=
  VO1.read (Elt F) (VO1.writes (Elt F) VO1.junk (kernelRun1_D c i arg3 harg3 arg4 harg4 arg5 harg5 arg6 harg6 arg7 harg7 hc1 hc2 hc3 x0 x1 x2 xs).1)

/-- Case D's pieces for the scratch accumulator tile it, so they cover it. -/
theorem scover1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) (y : S512x64.Idx) :
    ∃ pc ∈ (kernelRun1_D c i arg3 harg3 arg4 harg4 arg5 harg5 arg6 harg6 arg7 harg7 hc1 hc2 hc3 x0 x1 x2 xs).2.1, y ∈ pc.1.set :=
  View.cover_of_tiledL (kernelRun1_D c i arg3 harg3 arg4 harg4 arg5 harg5 arg6 harg6 arg7 harg7 hc1 hc2 hc3 x0 x1 x2 xs).2.1 S512x64.size (by sl_kernel_rfl) y

/-- What case D leaves in the scratch accumulator: its pieces read back. -/
def sout1_D (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) : Vec F S512x64 .f32 :=
  VS1.read (Elt F) (VS1.writes (Elt F) VS1.junk (kernelRun1_D c i arg3 harg3 arg4 harg4 arg5 harg5 arg6 harg6 arg7 harg7 hc1 hc2 hc3 x0 x1 x2 xs).2.1)

/-- Case E's pieces for the output block tile it, so they cover it. -/
theorem cover1_E (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : ¬cond1_2 i) (hc3 : cond1_3 i) (xs : Vec F S512x64 .f32) (y : S1x512x64.Idx) :
    ∃ pc ∈ (kernelRun1_E c i arg3 harg3 arg4 harg4 arg5 harg5 arg6 harg6 arg7 harg7 hc1 hc2 hc3 xs).1, y ∈ pc.1.set :=
  View.cover_of_tiledL (kernelRun1_E c i arg3 harg3 arg4 harg4 arg5 harg5 arg6 harg6 arg7 harg7 hc1 hc2 hc3 xs).1 S1x512x64.size (by sl_kernel_rfl) y

/-- What case E leaves in the output window's buffer: its pieces read back. -/
def out1_E (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : ¬cond1_2 i) (hc3 : cond1_3 i) (xs : Vec F S512x64 .f32) : Vec F S1x512x64 .f32 :=
  VO1.read (Elt F) (VO1.writes (Elt F) VO1.junk (kernelRun1_E c i arg3 harg3 arg4 harg4 arg5 harg5 arg6 harg6 arg7 harg7 hc1 hc2 hc3 xs).1)

/-! ## The conditions from the closed forms -/

theorem c1_of (t : Fin cfg1.N) (h : t.val % 4 = 0) : cond1_1 (grid1.coords t) := (hcond1_1 t).mpr h
theorem nc1_of (t : Fin cfg1.N) (h : ¬t.val % 4 = 0) : ¬cond1_1 (grid1.coords t) := fun hc => h ((hcond1_1 t).mp hc)
theorem c2_of (t : Fin cfg1.N) (h : t.val % 4 ≤ (t.val / 4) % 4) : cond1_2 (grid1.coords t) := (hcond1_2 t).mpr h
theorem nc2_of (t : Fin cfg1.N) (h : ¬t.val % 4 ≤ (t.val / 4) % 4) : ¬cond1_2 (grid1.coords t) := fun hc => h ((hcond1_2 t).mp hc)
theorem c3_of (t : Fin cfg1.N) (h : t.val % 4 = 3) : cond1_3 (grid1.coords t) := (hcond1_3 t).mpr h
theorem nc3_of (t : Fin cfg1.N) (h : ¬t.val % 4 = 3) : ¬cond1_3 (grid1.coords t) := fun hc => h ((hcond1_3 t).mp hc)
/-- At the first key tile the key tile is not above the diagonal, and it is not the last. -/
theorem c2_of_A (t : Fin cfg1.N) (h : t.val % 4 = 0) : cond1_2 (grid1.coords t) := (hcond1_2 t).mpr (by omega)
theorem nc3_of_A (t : Fin cfg1.N) (h : t.val % 4 = 0) : ¬cond1_3 (grid1.coords t) := fun hc => by
  have := (hcond1_3 t).mp hc; omega

/-! ## What the scratch accumulator and the output window's buffer hold after each point -/

/-- What the output window's staging buffer (first component) and the scratch accumulator (second component) hold after
    the body at position `n`: with `kv = n % 4` the key tile and `qi = (n / 4) % 4` the query tile, the accumulator is
    reset and updated when `kv = 0`, updated over what the point before left when `0 < kv ≤ qi`, and left as the point
    before left it when `qi < kv`; the output block is stored from the accumulator when `kv = 3`. -/
def outsAt1 (c : Dev nD) : (n : ℕ) → n < cfg1.N → Vec F S1x512x64 .f32 × Vec F S512x64 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (c1_of ⟨0, hn⟩ (Nat.zero_mod 4)) (c2_of_A ⟨0, hn⟩ (Nat.zero_mod 4)) (nc3_of_A ⟨0, hn⟩ (Nat.zero_mod 4)) (iblk1 V c 0 ⟨0, hn⟩) (iblk1 V c 1 ⟨0, hn⟩) (iblk1 V c 2 ⟨0, hn⟩))
  | n + 1, hn =>
    if h0 : (n + 1) % 4 = 0 then
      (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c1_of ⟨n + 1, hn⟩ h0) (c2_of_A ⟨n + 1, hn⟩ h0) (nc3_of_A ⟨n + 1, hn⟩ h0) (iblk1 V c 0 ⟨n + 1, hn⟩) (iblk1 V c 1 ⟨n + 1, hn⟩) (iblk1 V c 2 ⟨n + 1, hn⟩))
    else
      if h3 : (n + 1) % 4 = 3 then
        if h2 : (n + 1) % 4 ≤ ((n + 1) / 4) % 4 then
          (out1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (c2_of ⟨n + 1, hn⟩ h2) (c3_of ⟨n + 1, hn⟩ h3) (iblk1 V c 0 ⟨n + 1, hn⟩) (iblk1 V c 1 ⟨n + 1, hn⟩) (iblk1 V c 2 ⟨n + 1, hn⟩) (outsAt1 c n (Nat.lt_of_succ_lt hn)).2,
            sout1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (c2_of ⟨n + 1, hn⟩ h2) (c3_of ⟨n + 1, hn⟩ h3) (iblk1 V c 0 ⟨n + 1, hn⟩) (iblk1 V c 1 ⟨n + 1, hn⟩) (iblk1 V c 2 ⟨n + 1, hn⟩) (outsAt1 c n (Nat.lt_of_succ_lt hn)).2)
        else
          (out1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (nc2_of ⟨n + 1, hn⟩ h2) (c3_of ⟨n + 1, hn⟩ h3) (outsAt1 c n (Nat.lt_of_succ_lt hn)).2, (outsAt1 c n (Nat.lt_of_succ_lt hn)).2)
      else
        if h2 : (n + 1) % 4 ≤ ((n + 1) / 4) % 4 then
          (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (nc1_of ⟨n + 1, hn⟩ h0) (c2_of ⟨n + 1, hn⟩ h2) (nc3_of ⟨n + 1, hn⟩ h3) (iblk1 V c 0 ⟨n + 1, hn⟩) (iblk1 V c 1 ⟨n + 1, hn⟩) (iblk1 V c 2 ⟨n + 1, hn⟩) (outsAt1 c n (Nat.lt_of_succ_lt hn)).2)
        else
          (out1_idle, (outsAt1 c n (Nat.lt_of_succ_lt hn)).2)

/-- `outsAt1` at a point of the first key tile: the accumulator reset and updated. -/
theorem outsAt1_A (c : Dev nD) (t : Fin cfg1.N) (h0 : t.val % 4 = 0) :
    outsAt1 V c t.val t.isLt = (out1_idle, sout1_A c (grid1.coords t) (ms1_0 t) (hs1_0 t) (ms1_1 t) (hs1_1 t) (ms1_2 t) (hs1_2 t) (ms1_3 t) (hs1_3 t) scM1 (Memref.isWhole_whole _) (c1_of t h0) (c2_of_A t h0) (nc3_of_A t h0) (iblk1 V c 0 t) (iblk1 V c 1 t) (iblk1 V c 2 t)) := by
  obtain ⟨n, hn⟩ := t
  cases n with
  | zero => exact rfl
  | succ n => exact (dif_pos h0).trans rfl

/-- `outsAt1` at a point of a middle key tile on or below the diagonal: the accumulator updated over what the point
    before left. -/
theorem outsAt1_B (c : Dev nD) (t : Fin cfg1.N) (h0 : ¬t.val % 4 = 0) (h3 : ¬t.val % 4 = 3) (h2 : t.val % 4 ≤ (t.val / 4) % 4) :
    outsAt1 V c t.val t.isLt = (out1_idle, sout1_B c (grid1.coords t) (ms1_0 t) (hs1_0 t) (ms1_1 t) (hs1_1 t) (ms1_2 t) (hs1_2 t) (ms1_3 t) (hs1_3 t) scM1 (Memref.isWhole_whole _) (nc1_of t h0) (c2_of t h2) (nc3_of t h3) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_pos h2).trans rfl))

/-- `outsAt1` at a point of a middle key tile above the diagonal: the accumulator as the point before left it. -/
theorem outsAt1_C (c : Dev nD) (t : Fin cfg1.N) (h0 : ¬t.val % 4 = 0) (h3 : ¬t.val % 4 = 3) (h2 : ¬t.val % 4 ≤ (t.val / 4) % 4) :
    outsAt1 V c t.val t.isLt = (out1_idle, (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_neg h2).trans rfl))

/-- `outsAt1` at a point of the last key tile on the diagonal: the accumulator updated over what the point before left,
    and the output block stored from it. -/
theorem outsAt1_D (c : Dev nD) (t : Fin cfg1.N) (h0 : ¬t.val % 4 = 0) (h3 : t.val % 4 = 3) (h2 : t.val % 4 ≤ (t.val / 4) % 4) :
    outsAt1 V c t.val t.isLt = (out1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2,
      sout1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_pos h2).trans rfl))

/-- `outsAt1` at a point of the last key tile above the diagonal: the accumulator as the point before left it, and the
    output block stored from it. -/
theorem outsAt1_E (c : Dev nD) (t : Fin cfg1.N) (h0 : ¬t.val % 4 = 0) (h3 : t.val % 4 = 3) (h2 : ¬t.val % 4 ≤ (t.val / 4) % 4) :
    outsAt1 V c t.val t.isLt = (out1_E c (grid1.coords t) (ms1_0 t) (hs1_0 t) (ms1_1 t) (hs1_1 t) (ms1_2 t) (hs1_2 t) (ms1_3 t) (hs1_3 t) scM1 (Memref.isWhole_whole _) (nc1_of t h0) (nc2_of t h2) (c3_of t h3) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_neg h2).trans rfl))

/-! ## The buffers read back after a case's stores -/

/-- After case A's stores the scratch accumulator reads as `outsAt1`'s second component, whatever it held before. -/
theorem sread1_A (c : Dev nD) (t : Fin cfg1.N) (h0 : t.val % 4 = 0) (es : VS1.ty.Contents (Elt F)) :
    VS1.read (Elt F) (VS1.writes (Elt F) es (kernelRun1_A c (grid1.coords t) (ms1_0 t) (hs1_0 t) (ms1_1 t) (hs1_1 t) (ms1_2 t) (hs1_2 t) (ms1_3 t) (hs1_3 t) scM1 (Memref.isWhole_whole _) (c1_of t h0) (c2_of_A t h0) (nc3_of_A t h0) (iblk1 V c 0 t) (iblk1 V c 1 t) (iblk1 V c 2 t)).1)
      = (outsAt1 V c t.val t.isLt).2 := by
  rw [outsAt1_A V c t h0]; dsimp only; unfold sout1_A
  exact View.read_writes_of_cover _ _ _ _ _ (scover1_A (F := F) c _ _ _ _ _ _ _ _ _ _ _ _ _ _ _ _ _)

/-- After case B's stores the scratch accumulator reads as `outsAt1`'s second component. -/
theorem sread1_B (c : Dev nD) (t : Fin cfg1.N) (h0 : ¬t.val % 4 = 0) (h3 : ¬t.val % 4 = 3) (h2 : t.val % 4 ≤ (t.val / 4) % 4)
    (es : VS1.ty.Contents (Elt F)) :
    VS1.read (Elt F) (VS1.writes (Elt F) es (kernelRun1_B c (grid1.coords t) (ms1_0 t) (hs1_0 t) (ms1_1 t) (hs1_1 t) (ms1_2 t) (hs1_2 t) (ms1_3 t) (hs1_3 t) scM1 (Memref.isWhole_whole _) (nc1_of t h0) (c2_of t h2) (nc3_of t h3) (iblk1 V c 0 t) (iblk1 V c 1 t) (iblk1 V c 2 t) (outsAt1 V c (t.val - 1) (Nat.lt_of_le_of_lt (Nat.sub_le _ _) t.isLt)).2).1)
      = (outsAt1 V c t.val t.isLt).2 := by
  rw [outsAt1_B V c t h0 h3 h2]; dsimp only; unfold sout1_B
  exact View.read_writes_of_cover _ _ _ _ _ (scover1_B (F := F) c _ _ _ _ _ _ _ _ _ _ _ _ _ _ _ _ _ _)

/-- After case D's stores the scratch accumulator reads as `outsAt1`'s second component, -/
theorem sread1_D (c : Dev nD) (t : Fin cfg1.N) (h0 : ¬t.val % 4 = 0) (h3 : t.val % 4 = 3) (h2 : t.val % 4 ≤ (t.val / 4) % 4)
    (es : VS1.ty.Contents (Elt F)) :
    VS1.read (Elt F) (VS1.writes (Elt F) es (kernelRun1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2).2.1)
      = (outsAt1 V c t.val t.isLt).2 := by
  rw [outsAt1_D V c t h0 h3 h2]; dsimp only; unfold sout1_D
  exact View.read_writes_of_cover _ _ _ _ _ (scover1_D (F := F) c _ _ _ _ _ _ _ _ _ _ _ _ _ _ _ _ _ _)

/-- and the output window's buffer as its first component. -/
theorem oread1_D (c : Dev nD) (t : Fin cfg1.N) (h0 : ¬t.val % 4 = 0) (h3 : t.val % 4 = 3) (h2 : t.val % 4 ≤ (t.val / 4) % 4)
    (e3 : (ms1_3 t).view.ty.Contents (Elt F)) :
    (ms1_3 t).view.read (Elt F) ((ms1_3 t).view.writes (Elt F) e3 (kernelRun1_D c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t) (outsAt1 V c (t.val - 1) (Nat.lt_of_le_of_lt (Nat.sub_le _ _) t.isLt)).2).1)
      = (outsAt1 V c t.val t.isLt).1 := by
  rw [outsAt1_D V c t h0 h3 h2]; dsimp only; unfold out1_D
  exact View.read_writes_of_cover _ _ _ _ _ (cover1_D (F := F) c _ _ _ _ _ _ _ _ _ _ _ _ _ _ _ _ _ _)

/-- After case E's store the output window's buffer reads as `outsAt1`'s first component. -/
theorem oread1_E (c : Dev nD) (t : Fin cfg1.N) (h0 : ¬t.val % 4 = 0) (h3 : t.val % 4 = 3) (h2 : ¬t.val % 4 ≤ (t.val / 4) % 4)
    (e3 : (ms1_3 t).view.ty.Contents (Elt F)) :
    (ms1_3 t).view.read (Elt F) ((ms1_3 t).view.writes (Elt F) e3 (kernelRun1_E c (grid1.coords t) (ms1_0 t) (hs1_0 t) (ms1_1 t) (hs1_1 t) (ms1_2 t) (hs1_2 t) (ms1_3 t) (hs1_3 t) scM1 (Memref.isWhole_whole _) (nc1_of t h0) (nc2_of t h2) (c3_of t h3) (outsAt1 V c (t.val - 1) (Nat.lt_of_le_of_lt (Nat.sub_le _ _) t.isLt)).2).1)
      = (outsAt1 V c t.val t.isLt).1 := by
  rw [outsAt1_E V c t h0 h3 h2]; dsimp only; unfold out1_E
  exact View.read_writes_of_cover _ _ _ _ _ (cover1_E (F := F) c _ _ _ _ _ _ _ _ _ _ _ _ _ _ _)

/-! ## The region invariant -/

/-- The region invariant before position `n`: before the first point what the launch hands over (the scratch accumulator
    at anything); afterwards the same with the accumulator at what the point before left in it. -/
def PhiS1 (c : Dev nD) : (n : ℕ) → n ≤ cfg1.N → sProp 𝕄
  | 0, _ => Pipeline.ΦA spec1 c
  | n + 1, hn => PhiWith (F := F) c (owns (c : Thread nD τ) scM1 fullShare (outsAt1 V c n hn).2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith (F := F) c (owns (c : Thread nD τ) scM1 fullShare (outsAt1 V c n hn).2) := rfl

theorem PhiS1_pos (c : Dev nD) (n : ℕ) (h : n ≤ cfg1.N) (hz : n ≠ 0) :
    PhiS1 V c n h = PhiWith (F := F) c (owns (c : Thread nD τ) scM1 fullShare (outsAt1 V c (n - 1) (by omega)).2) := by
  cases n with
  | zero => exact absurd rfl hz
  | succ n => rfl

/-! ## The pipeline's proof data -/

/-- The proof data of the second pipeline on core `c`: the arrays as the region finds them; after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the five cases the point is
    in; the invariant hands the body the scratch accumulator at what the point before left (at anything at the first
    point) and takes it back at this point's contents; where the output block is not stored its buffer is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 512 := lt_of_lt_of_eq t.isLt (show cfg1.N = 512 from N_1)
  by_cases h0 : t.val % 4 = 0
  · rw [Dat.leavesExact_idle (dat1 V c) 3 t (idleAt1_3 t (nc3_of_A t h0)) (noFlush1_3 t (nc3_of_A t h0))]
    by_cases hz : t.val = 0
    · rw [PhiS1_castSucc V c t, PhiS1_zero V c _ _ hz, PhiA1_eq]
      iintro ⟨HΦ, Ho, ⟨%d0, H0⟩, ⟨%d1, H1⟩, ⟨%d2, H2⟩, ⟨%d3, H3⟩⟩
      ihave ⟨HS, Hb⟩ := (PhiWith_swap (F := F) c _ (owns (c : Thread nD τ) scM1 fullShare (outsAt1 V c t.val t.isLt).2)) $$ HΦ
      iapply ((kernelRun1_A c (grid1.coords t) _ _ _ _ _ _ _ _ _ _ (c1_of t h0) (c2_of_A t h0) (nc3_of_A t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · iapply Hb
        unfold owns; iexists _; isplitr
        swap; · iexact HS
        ipureintro; exact sread1_A V c t h0 _
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨HΦ, Ho, ⟨%d0, H0⟩, ⟨%d1, H1⟩, ⟨%d2, H2⟩, ⟨%d3, H3⟩⟩
      ihave ⟨HS, Hb⟩ := (PhiWith_swap (F := F) c _ (owns (c : Thread nD τ) scM1 fullShare (outsAt1 V c t.val t.isLt).2)) $$ HΦ
      iapply ((kernelRun1_A c (grid1.coords t) _ _ _ _ _ _ _ _ _ _ (c1_of t h0) (c2_of_A t h0) (nc3_of_A t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hb]
      · iapply Hb
        unfold owns; iexists _; isplitr
        swap; · iexact HS
        ipureintro; exact sread1_A V c t h0 _
      isplitl [Ho]; · iexact Ho
      isplitl [H0]; · iexact H0
      isplitl [H1]; · iexact H1
      isplitl [H2]; · iexact H2
      iexists _; iexact H3
  · have hz : t.val ≠ 0 := fun e => h0 (by rw [e])
    rw [PhiS1_castSucc V c t, PhiS1_pos V c _ _ hz]
    by_cases h3 : t.val % 4 = 3
    · rw [show (dat1 V c).leavesExact 3 t = owns (c : Thread nD τ) (ms1_3 t) fullShare ((dat1 V c).after 3 t) from by
        unfold Dat.leavesExact; rw [liveAt1_3 t (c3_of t h3)], after1_3]
      by_cases h2 : t.val % 4 ≤ (t.val / 4) % 4
      · iintro ⟨HΦ, Ho, ⟨%d0, H0⟩, ⟨%d1, H1⟩, ⟨%d2, H2⟩, ⟨%d3, H3⟩⟩
        ihave ⟨HS, Hb⟩ := (PhiWith_swap (F := F) c _ (owns (c : Thread nD τ) scM1 fullShare (outsAt1 V c t.val t.isLt).2)) $$ HΦ
        iapply ((kernelRun1_D c (grid1.coords t) _ _ _ _ _ _ _ _ _ _ (nc1_of t h0) (c2_of t h2) (c3_of t h3) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hb]
        · iapply Hb
          unfold owns; iexists _; isplitr
          swap; · iexact HS
          ipureintro; exact sread1_D V c t h0 h3 h2 _
        isplitl [Ho]; · iexact Ho
        isplitl [H0]; · iexact H0
        isplitl [H1]; · iexact H1
        isplitl [H2]; · iexact H2
        unfold owns; iexists _; isplitr
        swap; · iexact H3
        ipureintro; exact oread1_D V c t h0 h3 h2 _
      · rw [show (outsAt1 V c t.val t.isLt).2 = (outsAt1 V c (t.val - 1) (Nat.lt_of_le_of_lt (Nat.sub_le _ _) t.isLt)).2 from by
          rw [outsAt1_E V c t h0 h3 h2]]
        iintro ⟨HΦ, Ho, ⟨%d0, H0⟩, ⟨%d1, H1⟩, ⟨%d2, H2⟩, ⟨%d3, H3⟩⟩
        ihave ⟨HS, Hb⟩ := (PhiWith_swap (F := F) c _ (owns (c : Thread nD τ) scM1 fullShare (outsAt1 V c (t.val - 1) (Nat.lt_of_le_of_lt (Nat.sub_le _ _) t.isLt)).2)) $$ HΦ
        iapply ((kernelRun1_E c (grid1.coords t) _ _ _ _ _ _ _ _ _ _ (nc1_of t h0) (nc2_of t h2) (c3_of t h3) _).2 Set.univ _)
        isplitl [H3]; · iexists _; iexact H3
        isplitl [HS]; · iexact HS
        iintro ⟨⟨%e3, H3⟩, HS⟩
        isplitl [HS Hb]
        · iapply Hb; iexact HS
        isplitl [Ho]; · iexact Ho
        isplitl [H0]; · iexact H0
        isplitl [H1]; · iexact H1
        isplitl [H2]; · iexact H2
        unfold owns; iexists _; isplitr
        swap; · iexact H3
        ipureintro; exact oread1_E V c t h0 h3 h2 _
    · rw [Dat.leavesExact_idle (dat1 V c) 3 t (idleAt1_3 t (nc3_of t h3)) (noFlush1_3 t (nc3_of t h3))]
      by_cases h2 : t.val % 4 ≤ (t.val / 4) % 4
      · iintro ⟨HΦ, Ho, ⟨%d0, H0⟩, ⟨%d1, H1⟩, ⟨%d2, H2⟩, ⟨%d3, H3⟩⟩
        ihave ⟨HS, Hb⟩ := (PhiWith_swap (F := F) c _ (owns (c : Thread nD τ) scM1 fullShare (outsAt1 V c t.val t.isLt).2)) $$ HΦ
        iapply ((kernelRun1_B c (grid1.coords t) _ _ _ _ _ _ _ _ _ _ (nc1_of t h0) (c2_of t h2) (nc3_of t h3) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hb]
        · iapply Hb
          unfold owns; iexists _; isplitr
          swap; · iexact HS
          ipureintro; exact sread1_B V c t h0 h3 h2 _
        isplitl [Ho]; · iexact Ho
        isplitl [H0]; · iexact H0
        isplitl [H1]; · iexact H1
        isplitl [H2]; · iexact H2
        iexists _; iexact H3
      · rw [show (outsAt1 V c t.val t.isLt).2 = (outsAt1 V c (t.val - 1) (Nat.lt_of_le_of_lt (Nat.sub_le _ _) t.isLt)).2 from by
          rw [outsAt1_C V c t h0 h3 h2]]
        iintro ⟨HΦ, Ho, ⟨%d0, H0⟩, ⟨%d1, H1⟩, ⟨%d2, H2⟩, ⟨%d3, H3⟩⟩
        iapply (kernelRun1_C c (grid1.coords t) _ _ _ _ _ _ _ _ _ _ (nc1_of t h0) (nc2_of t h2) (nc3_of t h3) Set.univ _)
        isplitl [HΦ]; · iexact HΦ
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [Gen.bigSep_W1, Gen.bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave ⟨HS, Hb⟩ := (PhiWith_swap (F := F) c _ iprop(∃ d, owns (c : Thread nD τ) scM1 fullShare d)) $$ HΦ
  iapply Hb
  iexists _; iexact HS

/-- After the last point the invariant gives it back. -/
theorem hout1 (c : Dev nD) : (dat1 V c).Φ (Fin.last cfg1.N) ⊢ Pipeline.ΦA spec1 c :=
  Phi_out1 V c _ (by rw [Fin.val_last]; have : cfg1.N = 512 := N_1; omega)

end Cert.Kernel.Fr

end
-- ==== Proof.FrK.Run.lean ====
/-
  The run of the whole program: host operations, the projection region, host operations, the attention region, host
  operations. The contents of every unscoped buffer at each of the six boundaries are named as a fold from the launch
  memory (a host stretch maps the contents through its operations; a region replaces its windows' arrays by what its
  write-backs leave and keeps every other buffer). Each region is a segment entered from "every unscoped buffer at the
  boundary's contents, the generator register at some state, nothing owed" and left at the same shape one boundary on;
  each host stretch is a segment of the same shape. The launch theorem for several regions then says: every weakly fair
  execution terminates, and at the end every unscoped buffer holds the last boundary's contents. The three arguments are
  written by no operation and are no window of either region, so they end as launched. Generic in the float instance.
-/
import proofs.«126934_j43173011259799_1_alg».proof.Proof.Gen.Kernel.Launch
import proofs.«126934_j43173011259799_1_alg».proof.Proof.Gen.Kernel.Skeleton
import proofs.«126934_j43173011259799_1_alg».proof.Proof.Gen.Kernel.Points
import proofs.«126934_j43173011259799_1_alg».proof.Proof.Gen.Kernel.Regions
import proofs.«126934_j43173011259799_1_alg».proof.Proof.FrK.Reg0
import proofs.«126934_j43173011259799_1_alg».proof.Proof.FrK.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch: the launch state's memory (memory `m`, zero counters, generator registers `ρ`). -/
abbrev W0 : Dev nD → Valuation τ sig (Elt F) := fun c b => (⟨m, fun _ => 0, ρ⟩ : MemSt nD τ sig (Elt F)).mem (c, b)
/-- After the first host stretch (the projection region's entry). -/
abbrev W1 : Dev nD → Valuation τ sig (Elt F) := fun c => StableHlo.after hostOps0 (W0 m ρ c)
/-- The same read at the TensorCore's references (what the projection region's proof data take). -/
abbrev V1 : (c : Dev nD) → (b : Ref sig .tc) → Buf (Elt F) ((c : Thread nD τ).loc b) := fun c b => W1 m ρ c b
/-- At the projection region's exit: its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m ρ c b
/-- At the projection region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the TensorCore's references (what the attention region's proof data take). -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the contents at the return. -/
abbrev W5 : Dev nD → Valuation τ sig (Elt F) := fun c => StableHlo.after hostOps2 (W4 m ρ c)

/-! ### The arguments end as launched: no host operation writes one and neither region has one as a window -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The projection region over the thread state: entered from every unscoped buffer at `W1`, left at `W2`. Its arrays
    split out of the unscoped buffers and put back at the exit contents; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. As the
    projection region, except that its invariant carries the scratch accumulator's contents from point to point: at
    the first point it is made from the plain invariant, and at the last it gives the plain invariant back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (V3 m ρ) c
    refine .trans ?_ h1
    unfold Pipeline.ΦA
    iintro ⟨Hp, -, Hr⟩
    isplitl [Hr]; · iexact Hr
    iexact Hp
  hout c := by
    have h1 : (pdats m ρ 1 c).Φ (Fin.last _) ⊢ Pipeline.ΦA spec1 c := hout1 (V3 m ρ) c
    refine h1.trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state has every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Fr

end
-- ==== Proof.Val.Spec.lean ====
/-
  The mathematics both programs compute, stated once over the extended reals with no program in sight.

  * `proj`: a row-times-column product with a bias row, `(x · wt)[r, o] + bias[0, o]` — the fused query/key/value
    projection as the first kernel region lays it out (rows = batch × time, the weight already transposed).
  * `wgt`, `attn`: causal ReLU attention of one head group `g`: the weight of key `j` for query `i` is
    `max ((q_i · k_j) · s, 0)` when `j ≤ i` and `0` otherwise (`s` the scale the programs share as a literal), and
    the result is the weighted sum of the value rows over ALL keys.
-/
import Idealize.ShloMosaic.PureOps.Ideal
import Idealize.ShloMosaic.Lib.ValueIdx

noncomputable section

namespace Cert.Spec

open Idealize.ShloMosaic Idealize.ShloMosaic.ValueIdx

/-- The shapes, literal. -/
abbrev R4096x1024 : Shape := ⟨2, ![4096, 1024]⟩
abbrev R1024x3072 : Shape := ⟨2, ![1024, 3072]⟩
abbrev R1x3072 : Shape := ⟨2, ![1, 3072]⟩
abbrev R4096x3072 : Shape := ⟨2, ![4096, 3072]⟩
abbrev R32x2048x64 : Shape := ⟨3, ![32, 2048, 64]⟩

/-- The projection: entry `(r, o)` is the product of row `r` of `x2` with column `o` of `wt`, plus the bias of column `o`. -/
def proj (x2 : R4096x1024.Idx → EReal) (wt : R1024x3072.Idx → EReal) (b2 : R1x3072.Idx → EReal) : R4096x3072.Idx → EReal :=
  fun idx => (∑ c : Fin 1024, x2 (ix2 (idx 0) c) * wt (ix2 c (idx 1))) + b2 (ix2 (0 : Fin 1) (idx 1))

/-- The scale both programs multiply the scores by: the f32 literal `0.125`, kept as its bit pattern. -/
abbrev scale : EReal := Ideal.ofBits .f32 0x3E000000#32

/-- The attention weight of key `j` for query `i` in head group `g`: the scaled score clamped at zero on and below the
    diagonal, zero above it. -/
def wgt (q k : R32x2048x64.Idx → EReal) (g : Fin 32) (i j : Fin 2048) : EReal :=
  if j.val ≤ i.val then max ((∑ d : Fin 64, q (ix3 g i d) * k (ix3 g j d)) * scale) 0 else 0

/-- Causal ReLU attention: the weighted sum of the value rows over every key. -/
def attn (q k v : R32x2048x64.Idx → EReal) : R32x2048x64.Idx → EReal :=
  fun idx => ∑ j : Fin 2048, wgt q k (idx 0) (idx 1) j * v (ix3 (idx 0) j (idx 2))

/-! ## The same two functions in the layouts the reference uses -/

abbrev R2x2048x1024 : Shape := ⟨3, ![2, 2048, 1024]⟩
abbrev R3072x1024 : Shape := ⟨2, ![3072, 1024]⟩
abbrev R3072 : Shape := ⟨1, ![3072]⟩
abbrev R2x2048x3072 : Shape := ⟨3, ![2, 2048, 3072]⟩
abbrev R2x16x2048x64 : Shape := ⟨4, ![2, 16, 2048, 64]⟩

/-- The projection over batch, time and output feature, the weight as given (output feature × input feature). -/
def qkvFlat (x : R2x2048x1024.Idx → EReal) (W : R3072x1024.Idx → EReal) (bias : R3072.Idx → EReal) : R2x2048x3072.Idx → EReal :=
  fun idx => (∑ c : Fin 1024, x (ix3 (idx 0) (idx 1) c) * W (ix2 (idx 2) c)) + bias (ix1 (idx 2))

/-- Causal ReLU attention over batch, head, time and head feature. -/
def attn4 (q k v : R2x16x2048x64.Idx → EReal) : R2x16x2048x64.Idx → EReal :=
  fun idx => ∑ j : Fin 2048,
    (if j.val ≤ (idx 2).val then max ((∑ d : Fin 64, q (ix4 (idx 0) (idx 1) (idx 2) d) * k (ix4 (idx 0) (idx 1) j d)) * scale) 0 else 0)
      * v (ix4 (idx 0) (idx 1) j (idx 3))

/-! ## The whole function of the arguments -/

/-- The query, key and value of batch `b`, head `h`, time `t`, head feature `d`: the projection's output features
    `h·64 + d`, `1024 + h·64 + d` and `2048 + h·64 + d`. -/
def headQ (x : R2x2048x1024.Idx → EReal) (W : R3072x1024.Idx → EReal) (bias : R3072.Idx → EReal) (b : Fin 2) (h : Fin 16) (t : Fin 2048) (d : Fin 64) : EReal :=
  qkvFlat x W bias (ix3 b t (⟨h.val * 64 + d.val, by omega⟩ : Fin 3072))
def headK (x : R2x2048x1024.Idx → EReal) (W : R3072x1024.Idx → EReal) (bias : R3072.Idx → EReal) (b : Fin 2) (h : Fin 16) (t : Fin 2048) (d : Fin 64) : EReal :=
  qkvFlat x W bias (ix3 b t (⟨1024 + h.val * 64 + d.val, by omega⟩ : Fin 3072))
def headV (x : R2x2048x1024.Idx → EReal) (W : R3072x1024.Idx → EReal) (bias : R3072.Idx → EReal) (b : Fin 2) (h : Fin 16) (t : Fin 2048) (d : Fin 64) : EReal :=
  qkvFlat x W bias (ix3 b t (⟨2048 + h.val * 64 + d.val, by omega⟩ : Fin 3072))

/-- The head and the head feature of a model feature `e = h·64 + d`. -/
def headOf (e : Fin 1024) : Fin 16 := ⟨e.val / 64, by omega⟩
def featOf (e : Fin 1024) : Fin 64 := ⟨e.val % 64, by omega⟩

/-- The result both programs compute, entry `(b, t, e)` with `e = h·64 + d`: causal ReLU attention of head `h` at time
    `t`, head feature `d`, over the projected queries, keys and values. -/
def G (x : R2x2048x1024.Idx → EReal) (W : R3072x1024.Idx → EReal) (bias : R3072.Idx → EReal) : R2x2048x1024.Idx → EReal :=
  fun idx =>
    ∑ j : Fin 2048,
      (if j.val ≤ (idx 1).val then
          max ((∑ d' : Fin 64, headQ x W bias (idx 0) (headOf (idx 2)) (idx 1) d' * headK x W bias (idx 0) (headOf (idx 2)) j d') * scale) 0
        else 0)
        * headV x W bias (idx 0) (headOf (idx 2)) j (featOf (idx 2))

end Cert.Spec

end
-- ==== Proof.Val.KernelFun.lean ====
/-
  The idealized kernel program as ONE pure function of its three arguments, at the ideal instance: the host
  operations' layout changes composed around the two regions' specifications (`Spec.proj` for the projection,
  `Spec.attn` for the attention).
-/
import proofs.«126934_j43173011259799_1_alg».proof.KernelIdeal
import proofs.«126934_j43173011259799_1_alg».proof.Proof.Gen.KernelIdeal
import proofs.«126934_j43173011259799_1_alg».proof.Proof.Val.Spec
import Idealize.ShloMosaic.PureOps.Ideal

noncomputable section

namespace Cert.KernelIdeal.Val

open Cert.KernelIdeal Idealize.ShloMosaic

/-- From the projection's output (rows = batch × time, 3072 features) to the head layout (32 head groups, 2048 times, 64
    head features) of the feature slice starting at `off`: reshape to batch × time × feature, slice, split the feature
    into head × head feature, swap time and head, merge batch and head. -/
def toHeads (qkv : Vec Ideal S4096x3072 .bf16) (off : Fin 3 → Nat) (hs : S2x2048x3072.Slices off S2x2048x1024) : Vec Ideal S32x2048x64 .bf16 :=
  shapeCast S32x2048x64
    (transpose S2x16x2048x64 [0, 2, 1, 3]
      (shapeCast S2x2048x16x64
        (extractStridedSlice S2x2048x1024 off (shapeCast S2x2048x3072 qkv Facts₀.shapeCasts_S4096x3072_S2x2048x3072) hs)
        Facts₀.shapeCasts_S2x2048x1024_S2x2048x16x64)
      Facts₀.transposes_S2x2048x16x64_S2x16x2048x64_0_2_1_3)
    Facts₀.shapeCasts_S2x16x2048x64_S32x2048x64

/-- The projection as the first region computes it, from the arguments through the host operations before it. -/
def projOf (x : Vec Ideal S2x2048x1024 .f32) (W : Vec Ideal S3072x1024 .f32) (bias : Vec Ideal S3072 .f32) : Vec Ideal S4096x3072 .bf16 :=
  Cert.Spec.proj (shapeCast S4096x1024 x Facts₀.shapeCasts_S2x2048x1024_S4096x1024)
    (transpose S1024x3072 [1, 0] W Facts₀.transposes_S3072x1024_S1024x3072_1_0)
    (shapeCast S1x3072 bias Facts₀.shapeCasts_S3072_S1x3072)

/-- From the attention's output in head layout back to batch × time × model feature. -/
def fromHeads (y : Vec Ideal S32x2048x64 .f32) : Vec Ideal S2x2048x1024 .f32 :=
  shapeCast S2x2048x1024
    (transpose S2x2048x16x64 [0, 2, 1, 3] (shapeCast S2x16x2048x64 y Facts₀.shapeCasts_S32x2048x64_S2x16x2048x64)
      Facts₀.transposes_S2x16x2048x64_S2x2048x16x64_0_2_1_3)
    Facts₀.shapeCasts_S2x2048x16x64_S2x2048x1024

/-- The whole kernel program's result as a function of its arguments. -/
def kernelFun (x : Vec Ideal S2x2048x1024 .f32) (W : Vec Ideal S3072x1024 .f32) (bias : Vec Ideal S3072 .f32) : Vec Ideal S2x2048x1024 .f32 :=
  fromHeads (Cert.Spec.attn
    (toHeads (projOf x W bias) ![0, 0, 0] Facts₀.slices_S2x2048x3072_S2x2048x1024_0_0_0)
    (toHeads (projOf x W bias) ![0, 0, 1024] Facts₀.slices_S2x2048x3072_S2x2048x1024_0_0_1024)
    (toHeads (projOf x W bias) ![0, 0, 2048] Facts₀.slices_S2x2048x3072_S2x2048x1024_0_0_2048))

end Cert.KernelIdeal.Val

end
-- ==== Proof.Val.KernelValue.lean ====
/-
  The result buffer read off the run's fold, at the ideal instance: the contents of the program's last buffer at the
  return are the kernel program's pure function of the three arguments. One lemma per boundary: what each host stretch
  leaves in the buffers the next region (or the return) reads, as the layout changes applied to what was there; each
  region's output array as its specification of its three input arrays (the two hypotheses); then the chain.
-/
import proofs.«126934_j43173011259799_1_alg».proof.Proof.Fr.Run
import proofs.«126934_j43173011259799_1_alg».proof.Proof.Val.KernelFun
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

/-! ## The host stretches, over any contents `V` at their entry -/

section Host
variable (V : Valuation τ sig (Elt Ideal))

/-- The first stretch leaves the first argument reshaped to rows, -/
theorem after0_v0 : (StableHlo.after hostOps0 V (Proc.devRef .tc main_v0) : Vec Ideal S4096x1024 .f32)
    = shapeCast S4096x1024 (V (Proc.devRef .tc main_arg0) : Vec Ideal S2x2048x1024 .f32) Facts₀.shapeCasts_S2x2048x1024_S4096x1024 := by
  after_results <;> rfl
/-- the weight transposed, -/
theorem after0_v1 : (StableHlo.after hostOps0 V (Proc.devRef .tc main_v1) : Vec Ideal S1024x3072 .f32)
    = transpose S1024x3072 [1, 0] (V (Proc.devRef .tc main_arg1) : Vec Ideal S3072x1024 .f32) Facts₀.transposes_S3072x1024_S1024x3072_1_0 := by
  after_results <;> rfl
/-- and the bias as a row. -/
theorem after0_v2 : (StableHlo.after hostOps0 V (Proc.devRef .tc main_v2) : Vec Ideal S1x3072 .f32)
    = shapeCast S1x3072 (V (Proc.devRef .tc main_arg2) : Vec Ideal S3072 .f32) Facts₀.shapeCasts_S3072_S1x3072 := by
  after_results <;> rfl

/-- The second stretch leaves the queries, -/
theorem after1_v10 : (StableHlo.after hostOps1 V (Proc.devRef .tc main_v10) : Vec Ideal S32x2048x64 .bf16)
    = toHeads (V (Proc.devRef .tc main_v3) : Vec Ideal S4096x3072 .bf16) ![0, 0, 0] Facts₀.slices_S2x2048x3072_S2x2048x1024_0_0_0 := by
  unfold toHeads; after_results <;> rfl
/-- the keys -/
theorem after1_v13 : (StableHlo.after hostOps1 V (Proc.devRef .tc main_v13) : Vec Ideal S32x2048x64 .bf16)
    = toHeads (V (Proc.devRef .tc main_v3) : Vec Ideal S4096x3072 .bf16) ![0, 0, 1024] Facts₀.slices_S2x2048x3072_S2x2048x1024_0_0_1024 := by
  unfold toHeads; after_results <;> rfl
/-- and the values, each in head layout, of the projection's output. -/
theorem after1_v16 : (StableHlo.after hostOps1 V (Proc.devRef .tc main_v16) : Vec Ideal S32x2048x64 .bf16)
    = toHeads (V (Proc.devRef .tc main_v3) : Vec Ideal S4096x3072 .bf16) ![0, 0, 2048] Facts₀.slices_S2x2048x3072_S2x2048x1024_0_0_2048 := by
  unfold toHeads; after_results <;> rfl

/-- The third stretch leaves the attention's output back in batch × time × model feature. -/
theorem after2_v20 : (StableHlo.after hostOps2 V (Proc.devRef .tc main_v20) : Vec Ideal S2x2048x1024 .f32)
    = fromHeads (V (Proc.devRef .tc main_v17) : Vec Ideal S32x2048x64 .f32) := by
  unfold fromHeads; after_results <;> rfl

end Host

/-! ## The boundaries of the run, one by one -/

section Chain
variable (m : (ℓ : Loc nD τ sig) → Buf (Elt Ideal) ℓ) (ρ : Dev nD → PrngReg) (c : Dev nD)

/-- At the projection region's entry its three input arrays hold the arguments' layout changes. -/
theorem W1_main_v0 : (Fr.W1 m ρ c (Proc.devRef .tc main_v0) : Vec Ideal S4096x1024 .f32)
    = shapeCast S4096x1024 (m ((c : Thread nD τ).loc main_arg0) : Vec Ideal S2x2048x1024 .f32) Facts₀.shapeCasts_S2x2048x1024_S4096x1024 :=
  after0_v0 (Fr.W0 m ρ c)
theorem W1_main_v1 : (Fr.W1 m ρ c (Proc.devRef .tc main_v1) : Vec Ideal S1024x3072 .f32)
    = transpose S1024x3072 [1, 0] (m ((c : Thread nD τ).loc main_arg1) : Vec Ideal S3072x1024 .f32) Facts₀.transposes_S3072x1024_S1024x3072_1_0 :=
  after0_v1 (Fr.W0 m ρ c)
theorem W1_main_v2 : (Fr.W1 m ρ c (Proc.devRef .tc main_v2) : Vec Ideal S1x3072 .f32)
    = shapeCast S1x3072 (m ((c : Thread nD τ).loc main_arg2) : Vec Ideal S3072 .f32) Facts₀.shapeCasts_S3072_S1x3072 :=
  after0_v2 (Fr.W0 m ρ c)

/-- At the projection region's exit its output array holds the projection of the arguments. -/
theorem W2_main_v3_of
    (h0 : ∀ (V : (c : Dev nD) → (b : Ref sig .tc) → Buf (Elt Ideal) ((c : Thread nD τ).loc b)) (c : Dev nD),
      (Fr.dat0 V c).arrAt 3 cfg0.N = Cert.Spec.proj (V c main_v0) (V c main_v1) (V c main_v2)) :
    (Fr.W2 m ρ c (Proc.devRef .tc main_v3) : Vec Ideal S4096x3072 .bf16)
      = projOf (m ((c : Thread nD τ).loc main_arg0)) (m ((c : Thread nD τ).loc main_arg1)) (m ((c : Thread nD τ).loc main_arg2)) := by
  refine (Fr.W2_arr m ρ c 3).trans ((h0 (Fr.V1 m ρ) c).trans ?_)
  unfold projOf
  exact congr (congr (congrArg Cert.Spec.proj (W1_main_v0 m ρ c)) (W1_main_v1 m ρ c)) (W1_main_v2 m ρ c)

/-- At the attention region's entry its three input arrays hold the queries, keys and values in head layout. -/
theorem W3_main_v10_of
    (h0 : ∀ (V : (c : Dev nD) → (b : Ref sig .tc) → Buf (Elt Ideal) ((c : Thread nD τ).loc b)) (c : Dev nD),
      (Fr.dat0 V c).arrAt 3 cfg0.N = Cert.Spec.proj (V c main_v0) (V c main_v1) (V c main_v2)) :
    (Fr.W3 m ρ c (Proc.devRef .tc main_v10) : Vec Ideal S32x2048x64 .bf16)
      = toHeads (projOf (m ((c : Thread nD τ).loc main_arg0)) (m ((c : Thread nD τ).loc main_arg1)) (m ((c : Thread nD τ).loc main_arg2)))
          ![0, 0, 0] Facts₀.slices_S2x2048x3072_S2x2048x1024_0_0_0 :=
  (after1_v10 (Fr.W2 m ρ c)).trans
    (congrArg (fun z => toHeads z ![0, 0, 0] Facts₀.slices_S2x2048x3072_S2x2048x1024_0_0_0) (W2_main_v3_of m ρ c h0))
theorem W3_main_v13_of
    (h0 : ∀ (V : (c : Dev nD) → (b : Ref sig .tc) → Buf (Elt Ideal) ((c : Thread nD τ).loc b)) (c : Dev nD),
      (Fr.dat0 V c).arrAt 3 cfg0.N = Cert.Spec.proj (V c main_v0) (V c main_v1) (V c main_v2)) :
    (Fr.W3 m ρ c (Proc.devRef .tc main_v13) : Vec Ideal S32x2048x64 .bf16)
      = toHeads (projOf (m ((c : Thread nD τ).loc main_arg0)) (m ((c : Thread nD τ).loc main_arg1)) (m ((c : Thread nD τ).loc main_arg2)))
          ![0, 0, 1024] Facts₀.slices_S2x2048x3072_S2x2048x1024_0_0_1024 :=
  (after1_v13 (Fr.W2 m ρ c)).trans
    (congrArg (fun z => toHeads z ![0, 0, 1024] Facts₀.slices_S2x2048x3072_S2x2048x1024_0_0_1024) (W2_main_v3_of m ρ c h0))
theorem W3_main_v16_of
    (h0 : ∀ (V : (c : Dev nD) → (b : Ref sig .tc) → Buf (Elt Ideal) ((c : Thread nD τ).loc b)) (c : Dev nD),
      (Fr.dat0 V c).arrAt 3 cfg0.N = Cert.Spec.proj (V c main_v0) (V c main_v1) (V c main_v2)) :
    (Fr.W3 m ρ c (Proc.devRef .tc main_v16) : Vec Ideal S32x2048x64 .bf16)
      = toHeads (projOf (m ((c : Thread nD τ).loc main_arg0)) (m ((c : Thread nD τ).loc main_arg1)) (m ((c : Thread nD τ).loc main_arg2)))
          ![0, 0, 2048] Facts₀.slices_S2x2048x3072_S2x2048x1024_0_0_2048 :=
  (after1_v16 (Fr.W2 m ρ c)).trans
    (congrArg (fun z => toHeads z ![0, 0, 2048] Facts₀.slices_S2x2048x3072_S2x2048x1024_0_0_2048) (W2_main_v3_of m ρ c h0))

/-- At the attention region's exit its output array holds the attention of those three. -/
theorem W4_main_v17_of
    (h0 : ∀ (V : (c : Dev nD) → (b : Ref sig .tc) → Buf (Elt Ideal) ((c : Thread nD τ).loc b)) (c : Dev nD),
      (Fr.dat0 V c).arrAt 3 cfg0.N = Cert.Spec.proj (V c main_v0) (V c main_v1) (V c main_v2))
    (h1 : ∀ (V : (c : Dev nD) → (b : Ref sig .tc) → Buf (Elt Ideal) ((c : Thread nD τ).loc b)) (c : Dev nD),
      (Fr.dat1 V c).arrAt 3 cfg1.N = Cert.Spec.attn (V c main_v10) (V c main_v13) (V c main_v16)) :
    (Fr.W4 m ρ c (Proc.devRef .tc main_v17) : Vec Ideal S32x2048x64 .f32)
      = Cert.Spec.attn
          (toHeads (projOf (m ((c : Thread nD τ).loc main_arg0)) (m ((c : Thread nD τ).loc main_arg1)) (m ((c : Thread nD τ).loc main_arg2)))
            ![0, 0, 0] Facts₀.slices_S2x2048x3072_S2x2048x1024_0_0_0)
          (toHeads (projOf (m ((c : Thread nD τ).loc main_arg0)) (m ((c : Thread nD τ).loc main_arg1)) (m ((c : Thread nD τ).loc main_arg2)))
            ![0, 0, 1024] Facts₀.slices_S2x2048x3072_S2x2048x1024_0_0_1024)
          (toHeads (projOf (m ((c : Thread nD τ).loc main_arg0)) (m ((c : Thread nD τ).loc main_arg1)) (m ((c : Thread nD τ).loc main_arg2)))
            ![0, 0, 2048] Facts₀.slices_S2x2048x3072_S2x2048x1024_0_0_2048) :=
  (Fr.W4_arr m ρ c 3).trans ((h1 (Fr.V3 m ρ) c).trans
    (congr (congr (congrArg Cert.Spec.attn (W3_main_v10_of m ρ c h0)) (W3_main_v13_of m ρ c h0)) (W3_main_v16_of m ρ c h0)))

end Chain

/-- THE RESULT: at the return the program's last buffer holds the kernel program's function of the three arguments,
    given each region's output array as its specification of its input arrays. -/
theorem W5_main_v20_of
    (h0 : ∀ (V : (c : Dev nD) → (b : Ref sig .tc) → Buf (Elt Ideal) ((c : Thread nD τ).loc b)) (c : Dev nD),
      (Fr.dat0 V c).arrAt 3 cfg0.N = Cert.Spec.proj (V c main_v0) (V c main_v1) (V c main_v2))
    (h1 : ∀ (V : (c : Dev nD) → (b : Ref sig .tc) → Buf (Elt Ideal) ((c : Thread nD τ).loc b)) (c : Dev nD),
      (Fr.dat1 V c).arrAt 3 cfg1.N = Cert.Spec.attn (V c main_v10) (V c main_v13) (V c main_v16))
    (m : (ℓ : Loc nD τ sig) → Buf (Elt Ideal) ℓ) (ρ : Dev nD → PrngReg) (c : Dev nD) :
    Fr.W5 m ρ c (Proc.devRef .tc main_v20)
      = kernelFun (m ((c : Thread nD τ).loc main_arg0)) (m ((c : Thread nD τ).loc main_arg1)) (m ((c : Thread nD τ).loc main_arg2)) := by
  unfold kernelFun
  exact (after2_v20 (Fr.W4 m ρ c)).trans (congrArg fromHeads (W4_main_v17_of m ρ c h0 h1))

end Cert.KernelIdeal.Val

end
-- ==== Proof.Val.KernelG.lean ====
/-
  The kernel program read as one pure function of its arguments is the specification `G`.

  Each layout change the host performs around the two regions is read at an index written by coordinates: the
  projection's row `r = b·2048 + t` is batch `b`, time `t`; head group `g = b·16 + h` is batch `b`, head `h`; the
  model feature `e = h·64 + d` is head `h`, head feature `d`. With these the projection read in head layout is the
  specification's `headQ` / `headK` / `headV`, and the attention of head group `g` read back at `(b, t, e)` is the
  summand-by-summand the sum `G` states.
-/
import proofs.«126934_j43173011259799_1_alg».proof.Proof.Val.KernelFun
import proofs.«126934_j43173011259799_1_alg».proof.Proof.Val.Spec
import Idealize.ShloMosaic.Lib.ValueIdx
import Idealize.ShloMosaic.Lib.ValueLayout
import Idealize.ShloMosaic.Lib.Pipeline.Value

noncomputable section

namespace Cert.KernelIdeal.Val

open Cert.KernelIdeal Idealize.ShloMosaic Idealize.ShloMosaic.ValueIdx

/-! ## The projection at row `b·2048 + t` -/

/-- The projection's entry at row `r = b·2048 + t`, output feature `o`, is the flat projection at `(b, t, o)`: the
    reshape of `x` reads `(b, t, c)` at `(r, c)`, the transposed weight reads `(o, c)` at `(c, o)`, the bias row reads
    `o` at `(0, o)`. -/
theorem projOf_apply (x : Vec Ideal S2x2048x1024 .f32) (W : Vec Ideal S3072x1024 .f32) (bias : Vec Ideal S3072 .f32)
    (b : Fin 2) (t : Fin 2048) (o : Fin 3072) (r : Fin 4096) (hr : r.val = b.val * 2048 + t.val) :
    projOf x W bias (ix2 r o) = Cert.Spec.qkvFlat x W bias (ix3 b t o) := by
  unfold projOf Cert.Spec.proj Cert.Spec.qkvFlat
  show (∑ c : Fin 1024, shapeCast S4096x1024 x Facts₀.shapeCasts_S2x2048x1024_S4096x1024 (ix2 r c)
          * transpose S1024x3072 [1, 0] W Facts₀.transposes_S3072x1024_S1024x3072_1_0 (ix2 c o))
        + shapeCast S1x3072 bias Facts₀.shapeCasts_S3072_S1x3072 (ix2 (0 : Fin 1) o)
      = (∑ c : Fin 1024, x (ix3 b t c) * W (ix2 o c)) + bias (ix1 o)
  have h1 : ∀ c : Fin 1024, shapeCast S4096x1024 x Facts₀.shapeCasts_S2x2048x1024_S4096x1024 (ix2 r c) = x (ix3 b t c) := fun c =>
    shapeCast_apply x _ (ix2 r c) (ix3 b t c) (by
      rw [Shape.rowMajor_val_three, Shape.rowMajor_val_two]
      show (b.val * 2048 + t.val) * 1024 + c.val = r.val * 1024 + c.val
      omega)
  have h2 : ∀ c : Fin 1024, transpose S1024x3072 [1, 0] W Facts₀.transposes_S3072x1024_S1024x3072_1_0 (ix2 c o) = W (ix2 o c) := fun c =>
    transpose_ix2_apply W _ c o
  have h3 : shapeCast S1x3072 bias Facts₀.shapeCasts_S3072_S1x3072 (ix2 (0 : Fin 1) o) = bias (ix1 o) :=
    shapeCast_apply bias _ (ix2 (0 : Fin 1) o) (ix1 o) (by
      rw [Shape.rowMajor_val_one, Shape.rowMajor_val_two]
      show o.val = 0 * 3072 + o.val
      omega)
  rw [h3]
  congr 1
  exact Finset.sum_congr rfl fun c _ => by rw [h1 c, h2 c]

/-! ## From the projection's layout to the head layout -/

/-- The head layout of the feature slice starting at `o`, read at head group `g = b·16 + h`, time `t`, head feature
    `d`: the projection's output at row `b·2048 + t`, feature `o + h·64 + d`. -/
theorem toHeads_apply (P : Vec Ideal S4096x3072 .bf16) (o : Nat) (hs : S2x2048x3072.Slices ![0, 0, o] S2x2048x1024)
    (b : Fin 2) (h : Fin 16) (t : Fin 2048) (d : Fin 64) (g : Fin 32) (hg : g.val = b.val * 16 + h.val)
    (r : Fin 4096) (hr : r.val = b.val * 2048 + t.val) (e : Fin 3072) (he : e.val = o + h.val * 64 + d.val) :
    toHeads P ![0, 0, o] hs (ix3 g t d) = P (ix2 r e) := by
  unfold toHeads
  -- merging batch and head: (g, t, d) reads (b, h, t, d)
  refine (shapeCast_apply _ _ (ix3 g t d) (ix4 b h t d) (by
    rw [Shape.rowMajor_val_four, Shape.rowMajor_val_three]
    show ((b.val * 16 + h.val) * 2048 + t.val) * 64 + d.val = (g.val * 2048 + t.val) * 64 + d.val
    omega)).trans ?_
  -- swapping time and head: (b, h, t, d) reads (b, t, h, d)
  refine (transpose_apply _ _ _ (ix4 b h t d) (ix4 b t h d)
    (fun a => match a with | ⟨0, _⟩ => rfl | ⟨1, _⟩ => rfl | ⟨2, _⟩ => rfl | ⟨3, _⟩ => rfl)).trans ?_
  -- splitting the feature: (b, t, h, d) reads (b, t, h·64 + d)
  refine (shapeCast_apply _ _ (ix4 b t h d) (ix3 b t (⟨h.val * 64 + d.val, by omega⟩ : Fin 1024)) (by
    rw [Shape.rowMajor_val_three, Shape.rowMajor_val_four]
    show (b.val * 2048 + t.val) * 1024 + (h.val * 64 + d.val) = ((b.val * 2048 + t.val) * 16 + h.val) * 64 + d.val
    omega)).trans ?_
  -- the slice from feature o: (b, t, f) reads (b, t, o + f)
  refine (extractStridedSlice_apply _ _ _ (ix3 b t (⟨h.val * 64 + d.val, by omega⟩ : Fin 1024)) (ix3 b t e)
    (fun a => match a with
      | ⟨0, _⟩ => by show b.val = 0 + b.val; omega
      | ⟨1, _⟩ => by show t.val = 0 + t.val; omega
      | ⟨2, _⟩ => by show e.val = o + (h.val * 64 + d.val); omega)).trans ?_
  -- batch × time × feature over rows × feature: (b, t, e) reads (b·2048 + t, e)
  exact shapeCast_apply P _ (ix3 b t e) (ix2 r e) (by
    rw [Shape.rowMajor_val_two, Shape.rowMajor_val_three]
    show r.val * 3072 + e.val = (b.val * 2048 + t.val) * 3072 + e.val
    omega)

/-- The queries in head layout are the specification's. -/
theorem toHeads_projOf_Q (x : Vec Ideal S2x2048x1024 .f32) (W : Vec Ideal S3072x1024 .f32) (bias : Vec Ideal S3072 .f32)
    (b : Fin 2) (h : Fin 16) (t : Fin 2048) (d : Fin 64) (g : Fin 32) (hg : g.val = b.val * 16 + h.val) :
    toHeads (projOf x W bias) ![0, 0, 0] Facts₀.slices_S2x2048x3072_S2x2048x1024_0_0_0 (ix3 g t d) = Cert.Spec.headQ x W bias b h t d := by
  rw [toHeads_apply (projOf x W bias) 0 _ b h t d g hg (⟨b.val * 2048 + t.val, by omega⟩ : Fin 4096) rfl
    (⟨h.val * 64 + d.val, by omega⟩ : Fin 3072) (by show h.val * 64 + d.val = 0 + h.val * 64 + d.val; omega),
    projOf_apply x W bias b t _ _ rfl]
  rfl

/-- The keys in head layout are the specification's. -/
theorem toHeads_projOf_K (x : Vec Ideal S2x2048x1024 .f32) (W : Vec Ideal S3072x1024 .f32) (bias : Vec Ideal S3072 .f32)
    (b : Fin 2) (h : Fin 16) (t : Fin 2048) (d : Fin 64) (g : Fin 32) (hg : g.val = b.val * 16 + h.val) :
    toHeads (projOf x W bias) ![0, 0, 1024] Facts₀.slices_S2x2048x3072_S2x2048x1024_0_0_1024 (ix3 g t d) = Cert.Spec.headK x W bias b h t d := by
  rw [toHeads_apply (projOf x W bias) 1024 _ b h t d g hg (⟨b.val * 2048 + t.val, by omega⟩ : Fin 4096) rfl
    (⟨1024 + h.val * 64 + d.val, by omega⟩ : Fin 3072) rfl,
    projOf_apply x W bias b t _ _ rfl]
  rfl

/-- The values in head layout are the specification's. -/
theorem toHeads_projOf_V (x : Vec Ideal S2x2048x1024 .f32) (W : Vec Ideal S3072x1024 .f32) (bias : Vec Ideal S3072 .f32)
    (b : Fin 2) (h : Fin 16) (t : Fin 2048) (d : Fin 64) (g : Fin 32) (hg : g.val = b.val * 16 + h.val) :
    toHeads (projOf x W bias) ![0, 0, 2048] Facts₀.slices_S2x2048x3072_S2x2048x1024_0_0_2048 (ix3 g t d) = Cert.Spec.headV x W bias b h t d := by
  rw [toHeads_apply (projOf x W bias) 2048 _ b h t d g hg (⟨b.val * 2048 + t.val, by omega⟩ : Fin 4096) rfl
    (⟨2048 + h.val * 64 + d.val, by omega⟩ : Fin 3072) rfl,
    projOf_apply x W bias b t _ _ rfl]
  rfl

/-! ## Back from the head layout -/

/-- The attention's output read back at batch `b`, time `t`, model feature `e`: head group `b·16 + e / 64`, head feature
    `e % 64`. -/
theorem fromHeads_apply (y : Vec Ideal S32x2048x64 .f32) (b : Fin 2) (t : Fin 2048) (e : Fin 1024)
    (g : Fin 32) (hg : g.val = b.val * 16 + e.val / 64) (d : Fin 64) (hd : d.val = e.val % 64) :
    fromHeads y (ix3 b t e) = y (ix3 g t d) := by
  unfold fromHeads
  -- merging head and head feature: (b, t, e) reads (b, t, e / 64, e % 64)
  refine (shapeCast_apply _ _ (ix3 b t e) (ix4 b t (⟨e.val / 64, by omega⟩ : Fin 16) d) (by
    rw [Shape.rowMajor_val_four, Shape.rowMajor_val_three]
    show ((b.val * 2048 + t.val) * 16 + e.val / 64) * 64 + d.val = (b.val * 2048 + t.val) * 1024 + e.val
    omega)).trans ?_
  -- swapping head and time
  refine (transpose_apply _ _ _ (ix4 b t (⟨e.val / 64, by omega⟩ : Fin 16) d) (ix4 b (⟨e.val / 64, by omega⟩ : Fin 16) t d)
    (fun a => match a with | ⟨0, _⟩ => rfl | ⟨1, _⟩ => rfl | ⟨2, _⟩ => rfl | ⟨3, _⟩ => rfl)).trans ?_
  -- splitting the head group: (b, h, t, d) reads (b·16 + h, t, d)
  exact shapeCast_apply y _ (ix4 b (⟨e.val / 64, by omega⟩ : Fin 16) t d) (ix3 g t d) (by
    rw [Shape.rowMajor_val_three, Shape.rowMajor_val_four]
    show (g.val * 2048 + t.val) * 64 + d.val = ((b.val * 16 + e.val / 64) * 2048 + t.val) * 64 + d.val
    omega)

/-! ## The two sums, at an index written by coordinates -/

/-- The attention of head group `g` at query `i`, head feature `d`. -/
theorem attn_apply (q k v : Cert.Spec.R32x2048x64.Idx → EReal) (g : Fin 32) (i : Fin 2048) (d : Fin 64) :
    Cert.Spec.attn q k v (ix3 g i d)
      = ∑ j : Fin 2048, (if j.val ≤ i.val then max ((∑ d' : Fin 64, q (ix3 g i d') * k (ix3 g j d')) * Cert.Spec.scale) 0 else 0)
          * v (ix3 g j d) := rfl

/-- The specification at batch `b`, time `t`, model feature `e`. -/
theorem G_apply (x : Cert.Spec.R2x2048x1024.Idx → EReal) (W : Cert.Spec.R3072x1024.Idx → EReal) (bias : Cert.Spec.R3072.Idx → EReal)
    (b : Fin 2) (t : Fin 2048) (e : Fin 1024) :
    Cert.Spec.G x W bias (ix3 b t e)
      = ∑ j : Fin 2048,
          (if j.val ≤ t.val then
              max ((∑ d' : Fin 64, Cert.Spec.headQ x W bias b (Cert.Spec.headOf e) t d' * Cert.Spec.headK x W bias b (Cert.Spec.headOf e) j d') * Cert.Spec.scale) 0
            else 0)
            * Cert.Spec.headV x W bias b (Cert.Spec.headOf e) j (Cert.Spec.featOf e) := rfl

/-! ## The kernel program is the specification -/

theorem kernelFun_is_G (x : Vec Ideal S2x2048x1024 .f32) (W : Vec Ideal S3072x1024 .f32) (bias : Vec Ideal S3072 .f32) :
    kernelFun x W bias = Cert.Spec.G x W bias := by
  funext idx
  obtain ⟨b, t, e, rfl⟩ : ∃ (b : Fin 2) (t : Fin 2048) (e : Fin 1024), idx = ix3 b t e := ⟨idx 0, idx 1, idx 2, eq_ix3 idx⟩
  have hg : ((⟨b.val * 16 + e.val / 64, by omega⟩ : Fin 32)).val = b.val * 16 + (Cert.Spec.headOf e).val := rfl
  unfold kernelFun
  rw [fromHeads_apply _ b t e (⟨b.val * 16 + e.val / 64, by omega⟩ : Fin 32) rfl (Cert.Spec.featOf e) rfl, attn_apply, G_apply]
  refine Finset.sum_congr rfl fun j _ => ?_
  rw [toHeads_projOf_V x W bias b (Cert.Spec.headOf e) j (Cert.Spec.featOf e) _ hg]
  congr 1
  by_cases hj : j.val ≤ t.val
  · rw [if_pos hj, if_pos hj]
    congr 2
    exact Finset.sum_congr rfl fun d' _ => by
      rw [toHeads_projOf_Q x W bias b (Cert.Spec.headOf e) t d' _ hg, toHeads_projOf_K x W bias b (Cert.Spec.headOf e) j d' _ hg]
  · rw [if_neg hj, if_neg hj]

end Cert.KernelIdeal.Val

end
-- ==== Proof.Val.Reg0Value.lean ====
/-
  What the first kernel region (the fused projection) leaves in its output array, index by index, at the ideal
  instance (a float is an extended real, a change of format is the identity, the matrix unit's product is a plain
  sum): entry `(r, o)` is the product of row `r` of the first operand with column `o` of the second, plus the bias
  of column `o` — the specification's `proj` of the three arrays as the region finds them.

  * the payload at an index: a sum over the 1024 contracted places plus the broadcast bias row;
  * the one whole-block store and the three whole-block loads are the payload of the blocks themselves;
  * grid point `t = (t / 3, t % 3)` writes back block `(t / 3, t % 3)` of `proj`: its row block of the first
    operand, its column block of the second and of the bias;
  * the 8 × 3 blocks cover the array: index `(r, o)` lies in the block of point `(r / 512) * 3 + o / 1024`.
-/
import proofs.«126934_j43173011259799_1_alg».proof.Proof.Fr.Reg0
import proofs.«126934_j43173011259799_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open Cert.KernelIdeal.Facts₀ Cert.KernelIdeal.Facts

/-! ## The payload at an index -/

/-- The left operand of the product is read at the output's row and the contracted place. -/
theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand is read at the contracted place and the output's column. -/
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The payload at `(p, q)`: row `p` of the first block times column `q` of the second, plus the bias row at `q`. -/
theorem pay_apply (x0 : Vec Ideal S512x1024 .f32) (x1 : Vec Ideal S1024x1024 .f32) (x2 : Vec Ideal S1x1024 .f32)
    (p : Fin 512) (q : Fin 1024) :
    Gen.k0_pay1 x0 x1 x2 (ix2 p q) = (∑ k : Fin 1024, x0 (ix2 p k) * x1 (ix2 k q)) + x2 (ix2 (0 : Fin 1) q) := by
  unfold Gen.k0_pay1
  simp only [shapeCast_self]
  rw [truncf_apply, addf_apply]
  unfold matmul
  rw [Ideal.matmul_constant_zero_apply, ← Equiv.sum_comp (contrEquiv1 dot_S512x1024_S1024x1024_S512x1024_1_0_0_1_n_n 1024 rfl rfl).symm]
  congr 1
  · refine Finset.sum_congr rfl fun k _ => ?_
    have hk := contrEquiv1_symm_val dot_S512x1024_S1024x1024_S512x1024_1_0_0_1_n_n 1024 rfl rfl k
    have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
      match a with
      | ⟨0, _⟩ => exact lhs_proj_0 _ _
      | ⟨1, _⟩ => exact (lhs_proj_1 _ _).trans hk)
    have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
      match a with
      | ⟨0, _⟩ => exact (rhs_proj_0 _ _).trans hk
      | ⟨1, _⟩ => exact rhs_proj_1 _ _)
    rw [el, er]
    rfl
  · exact broadcastTo_apply _ _ _ (ix2 (0 : Fin 1) q) (fun a => match a with
      | ⟨0, _⟩ => by show (0 : ℕ) = if (1 : Nat) = 1 then 0 else _; rw [if_pos rfl]
      | ⟨1, _⟩ => by show q.val = if (1024 : Nat) = 1 then 0 else q.val; rw [if_neg (by decide)])

/-! ## The body's one store and three loads are whole blocks -/

theorem offsets_zero : (![0, 0] : Fin 2 → Nat) = fun _ => 0 := funext fun a => by fin_cases a <;> rfl

/-- What the body leaves in the output block is the payload of the three input blocks. -/
theorem out0_3_eq (x0 : Vec Ideal S512x1024 .f32) (x1 : Vec Ideal S1024x1024 .f32) (x2 : Vec Ideal S1x1024 .f32) :
    out0_3 x0 x1 x2 = Gen.k0_pay1 x0 x1 x2 := by
  unfold out0_3
  rw [View.canon_unit_zero offsets_zero]
  simp only [View.ld_unit_zero (S := S512x1024) offsets_zero, View.ld_unit_zero (S := S1024x1024) offsets_zero,
    View.ld_unit_zero (S := S1x1024) offsets_zero]

/-! ## One grid point -/

/-- When the three blocks are the arrays read at row block `r` (first operand) and column block `c` (second operand,
    bias), the payload at `j` is the projection at `(r * 512 + j₀, c * 1024 + j₁)`. -/
theorem point_eq (x0 : Vec Ideal S512x1024 .f32) (x1 : Vec Ideal S1024x1024 .f32) (x2 : Vec Ideal S1x1024 .f32)
    (A0 : S4096x1024.Idx → EReal) (A1 : S1024x3072.Idx → EReal) (A2 : S1x3072.Idx → EReal) (r c : ℕ)
    (h0 : ∀ (y : S512x1024.Idx) (i : S4096x1024.Idx), (i 0).val = r * 512 + (y 0).val → (i 1).val = (y 1).val → x0 y = A0 i)
    (h1 : ∀ (y : S1024x1024.Idx) (i : S1024x3072.Idx), (i 0).val = (y 0).val → (i 1).val = c * 1024 + (y 1).val → x1 y = A1 i)
    (h2 : ∀ (y : S1x1024.Idx) (i : S1x3072.Idx), (i 1).val = c * 1024 + (y 1).val → x2 y = A2 i)
    (j : S512x1024.Idx) (i : S4096x3072.Idx) (hi0 : (i 0).val = r * 512 + (j 0).val) (hi1 : (i 1).val = c * 1024 + (j 1).val) :
    Gen.k0_pay1 x0 x1 x2 j = Cert.Spec.proj A0 A1 A2 i := by
  obtain ⟨p, q, rfl⟩ : ∃ (p : Fin 512) (q : Fin 1024), j = ix2 p q := ⟨j 0, j 1, eq_ix2 j⟩
  rw [pay_apply]
  unfold Cert.Spec.proj
  congr 1
  · refine Finset.sum_congr rfl fun k _ => ?_
    rw [h0 (ix2 p k) (ix2 (i 0) k) hi0 rfl, h1 (ix2 k q) (ix2 k (i 1)) rfl hi1]
  · exact h2 (ix2 (0 : Fin 1) q) (ix2 (0 : Fin 1) (i 1)) hi1

/-! ## The blocks of the grid's points -/

variable (V : (c : Dev nD) → (b : Ref sig .tc) → Buf (Elt Ideal) ((c : Thread nD τ).loc b))

/-- The block indices at point `t`, decided over the 24 points: the first operand moves with the rows `t / 3`, the
    second operand and the bias with the columns `t % 3`, the output with both. -/
theorem idx_facts0 : ∀ t : Fin cfg0.N, win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

/-- The first operand's block at point `t` is rows `(t / 3) * 512 …` of its array. -/
theorem iblk0_0_apply (c : Dev nD) (t : Fin cfg0.N) (y : S512x1024.Idx) (i : S4096x1024.Idx)
    (h0 : (i 0).val = t.val / 3 * 512 + (y 0).val) (h1 : (i 1).val = (y 1).val) :
    (iblk0 V c 0 t : Vec Ideal S512x1024 .f32) y = (V c main_v0 : S4096x1024.Idx → EReal) i := by
  obtain ⟨e00, e01, -, -, -, -, -, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The second operand's block at point `t` is columns `(t % 3) * 1024 …` of its array. -/
theorem iblk0_1_apply (c : Dev nD) (t : Fin cfg0.N) (y : S1024x1024.Idx) (i : S1024x3072.Idx)
    (h0 : (i 0).val = (y 0).val) (h1 : (i 1).val = t.val % 3 * 1024 + (y 1).val) :
    (iblk0 V c 1 t : Vec Ideal S1024x1024 .f32) y = (V c main_v1 : S1024x3072.Idx → EReal) i := by
  obtain ⟨-, -, e10, e11, -, -, -, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The bias row's block at point `t` is columns `(t % 3) * 1024 …` of its array. -/
theorem iblk0_2_apply (c : Dev nD) (t : Fin cfg0.N) (y : S1x1024.Idx) (i : S1x3072.Idx)
    (h1 : (i 1).val = t.val % 3 * 1024 + (y 1).val) :
    (iblk0 V c 2 t : Vec Ideal S1x1024 .f32) y = (V c main_v2 : S1x3072.Idx → EReal) i := by
  obtain ⟨-, -, -, -, e20, e21, -, -⟩ := idx_facts0 t
  have hy : (y 0).val < 1 := (y 0).isLt
  have hi : (i 0).val < 1 := (i 0).isLt
  unfold iblk0
  rw [View.read_apply]
  show V c main_v2 _ = V c main_v2 _
  congr 1
  funext a
  apply Fin.ext
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- What point `t` writes back is block `t` of the projection of the three arrays as the region finds them. -/
theorem flushed_eq (c : Dev nD) (t : Fin cfg0.N) :
    (dat0 V c).flushed 3 t = ((cfg0.win 3).blk t).view.read (Elt Ideal) (Cert.Spec.proj (V c main_v0) (V c main_v1) (V c main_v2)) := by
  show (cfg0.win 3).cut (grid0.coords t) ((dat0 V c).after 3 t) = _
  rw [after0_3, out0_3_eq]
  obtain ⟨-, -, -, -, -, -, e30, e31⟩ := idx_facts0 t
  funext j
  show Gen.k0_pay1 (iblk0 V c 0 t) (iblk0 V c 1 t) (iblk0 V c 2 t) j
    = Cert.Spec.proj (V c main_v0) (V c main_v1) (V c main_v2) (((cfg0.win 3).blk t).view.emb j)
  refine point_eq (iblk0 V c 0 t) (iblk0 V c 1 t) (iblk0 V c 2 t) (V c main_v0) (V c main_v1) (V c main_v2) (t.val / 3) (t.val % 3)
    (fun y i h0 h1 => iblk0_0_apply V c t y i h0 h1) (fun y i h0 h1 => iblk0_1_apply V c t y i h0 h1)
    (fun y i h1 => iblk0_2_apply V c t y i h1) j _ ?_ ?_
  · show win0_3.index t (0 : Fin 2) * 512 + 1 * (j 0).val = t.val / 3 * 512 + (j 0).val; omega
  · show win0_3.index t (1 : Fin 2) * 1024 + 1 * (j 1).val = t.val % 3 * 1024 + (j 1).val; omega

/-! ## The blocks cover the array -/

/-- An index of the array is in point `t`'s block iff each coordinate is in the block's range on its axis. -/
theorem mem_blk3 (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Index `(r, o)` lies in the block of point `(r / 512) * 3 + o / 1024`, which writes back. -/
theorem cover3 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hlt : (i 0).val / 512 * 3 + (i 1).val / 1024 < cfg0.N := Nat.lt_of_lt_of_eq (by omega) N_0.symm
  obtain ⟨t, ht⟩ : ∃ t : Fin cfg0.N, t.val = (i 0).val / 512 * 3 + (i 1).val / 1024 := ⟨⟨_, hlt⟩, rfl⟩
  obtain ⟨-, -, -, -, -, -, e30, e31⟩ := idx_facts0 t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The region's output array -/

/-- After the first region its output array holds the projection of the three arrays the region found, index by index. -/
theorem reg0_value (c : Dev nD) :
    (dat0 V c).arrAt 3 cfg0.N = Cert.Spec.proj (V c main_v0) (V c main_v1) (V c main_v2) :=
  (dat0 V c).arrAt_eq_of_cover 3 (Cert.Spec.proj (V c main_v0) (V c main_v1) (V c main_v2))
    (fun t _ => flushed_eq V c t) cover3

end Cert.KernelIdeal.Val

end
-- ==== Proof.Val.Reg1Pieces.lean ====
/-
  The second kernel region's found pieces read back as the payloads they are, and its input blocks read at an index.
  What the scratch accumulator holds after a grid point is the update payload of the point's three input blocks over
  what it held before (the reset value at the first key tile), or what it held before at a key tile wholly above the
  diagonal; what the output block holds at the last key tile is the accumulator.
-/
import proofs.«126934_j43173011259799_1_alg».proof.Proof.Fr.Reg1
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.ShloMosaic.Pipeline (Dat Cfg Window)

variable {F : FTy → Type} [FloatOps F]

/-! ## Each case's stores, read back: every store and every load of the body is a whole buffer at offset zero -/

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- First key tile: the accumulator is reset, read back, and updated: the update over the reset value. -/
theorem sout1_A_eq (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : cond1_1 i) (hc2 : cond1_2 i) (hc3 : ¬cond1_3 i) (x0 x1 x2 : Vec F S1x512x64 .bf16) :
    sout1_A c i arg3 harg3 arg4 harg4 arg5 harg5 arg6 harg6 arg7 harg7 hc1 hc2 hc3 x0 x1 x2 = k1_pay2 i x0 x1 x2 (k1_pay1 (F := F)) := by
  unfold sout1_A
  rw [View.read_writes_eq_canon _ _ _ (scover1_A c i arg3 harg3 arg4 harg4 arg5 harg5 arg6 harg6 arg7 harg7 hc1 hc2 hc3 x0 x1 x2)]
  unfold kernelRun1_A
  dsimp only
  sl_unfold_words
  rw [View.canon_cons_unit_zero (S := S512x64) zero_offsets2, View.readCov_unit_zero (S := S512x64) _ zero_offsets2]
  simp only [View.readAt_eq_ld, harg3.read_unread, harg4.read_unread, harg5.read_unread, harg7.read_unread,
    View.ld_unit_zero (S := S1x512x64) zero_offsets3, View.ld_unit_zero (S := S512x64) zero_offsets2]

/-- A middle key tile not above the diagonal: the update over what the accumulator held. -/
theorem sout1_B_eq (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : ¬cond1_3 i) (x0 x1 x2 : Vec F S1x512x64 .bf16) (xs : Vec F S512x64 .f32) :
    sout1_B c i arg3 harg3 arg4 harg4 arg5 harg5 arg6 harg6 arg7 harg7 hc1 hc2 hc3 x0 x1 x2 xs = k1_pay2 i x0 x1 x2 xs := by
  unfold sout1_B
  rw [View.read_writes_eq_canon _ _ _ (scover1_B c i arg3 harg3 arg4 harg4 arg5 harg5 arg6 harg6 arg7 harg7 hc1 hc2 hc3 x0 x1 x2 xs)]
  unfold kernelRun1_B
  dsimp only
  sl_unfold_words
  rw [View.canon_unit_zero (S := S512x64) zero_offsets2]
  simp only [View.readAt_eq_ld, harg3.read_unread, harg4.read_unread, harg5.read_unread, harg7.read_unread,
    View.ld_unit_zero (S := S1x512x64) zero_offsets3, View.ld_unit_zero (S := S512x64) zero_offsets2]

/-- The last key tile on the diagonal: the accumulator likewise, -/
theorem sout1_D_eq (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) :
    sout1_D c i arg3 harg3 arg4 harg4 arg5 harg5 arg6 harg6 arg7 harg7 hc1 hc2 hc3 x0 x1 x2 xs = k1_pay2 i x0 x1 x2 xs := by
  unfold sout1_D
  rw [View.read_writes_eq_canon _ _ _ (scover1_D c i arg3 harg3 arg4 harg4 arg5 harg5 arg6 harg6 arg7 harg7 hc1 hc2 hc3 x0 x1 x2 xs)]
  unfold kernelRun1_D
  dsimp only
  sl_unfold_words
  rw [View.canon_unit_zero (S := S512x64) zero_offsets2]
  simp only [View.readAt_eq_ld, harg3.read_unread, harg4.read_unread, harg5.read_unread, harg7.read_unread,
    View.ld_unit_zero (S := S1x512x64) zero_offsets3, View.ld_unit_zero (S := S512x64) zero_offsets2]

/-- and the output block is the updated accumulator, re-laid. -/
theorem out1_D_eq (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : cond1_2 i) (hc3 : cond1_3 i) (x0 x1 x2 : Vec F S1x512x64 .bf16) (xs : Vec F S512x64 .f32) :
    out1_D c i arg3 harg3 arg4 harg4 arg5 harg5 arg6 harg6 arg7 harg7 hc1 hc2 hc3 x0 x1 x2 xs = k1_pay3 (k1_pay2 i x0 x1 x2 xs) := by
  unfold out1_D
  rw [View.read_writes_eq_canon _ _ _ (cover1_D c i arg3 harg3 arg4 harg4 arg5 harg5 arg6 harg6 arg7 harg7 hc1 hc2 hc3 x0 x1 x2 xs)]
  unfold kernelRun1_D
  dsimp only
  sl_unfold_words
  rw [View.canon_unit_zero (S := S1x512x64) zero_offsets3]
  simp only [View.readCov_unit_zero (S := S512x64) _ zero_offsets2, View.readAt_eq_ld, harg3.read_unread, harg4.read_unread, harg5.read_unread, harg7.read_unread,
    View.ld_unit_zero (S := S1x512x64) zero_offsets3, View.ld_unit_zero (S := S512x64) zero_offsets2]

/-- The last key tile above the diagonal: the output block is the accumulator as it was, re-laid. -/
theorem out1_E_eq (c : Dev nD) (i : grid1.Coords) (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .f32) (harg6 : arg6.IsWhole)
    (arg7 : Memref sig .tc .vmem S512x64 .f32) (harg7 : arg7.IsWhole)
    (hc1 : ¬cond1_1 i) (hc2 : ¬cond1_2 i) (hc3 : cond1_3 i) (xs : Vec F S512x64 .f32) :
    out1_E c i arg3 harg3 arg4 harg4 arg5 harg5 arg6 harg6 arg7 harg7 hc1 hc2 hc3 xs = k1_pay3 xs := by
  unfold out1_E
  rw [View.read_writes_eq_canon _ _ _ (cover1_E c i arg3 harg3 arg4 harg4 arg5 harg5 arg6 harg6 arg7 harg7 hc1 hc2 hc3 xs)]
  unfold kernelRun1_E
  dsimp only
  sl_unfold_words
  rw [View.canon_unit_zero (S := S1x512x64) zero_offsets3]
  simp only [View.readAt_eq_ld, harg7.read_unread, View.ld_unit_zero (S := S512x64) zero_offsets2]

/-! ## The accumulator and the output block after each grid point -/

variable (V : (c : Dev nD) → (b : Ref sig .tc) → Buf (Elt F) ((c : Thread nD τ).loc b))

/-- The scratch accumulator after grid point `t`. -/
abbrev accAt (c : Dev nD) (t : Fin cfg1.N) : Vec F S512x64 .f32 := (outsAt1 V c t.val t.isLt).2
/-- The point before `t` (used only where `t` is not the first point of its group). -/
abbrev prevPt (t : Fin cfg1.N) : Fin cfg1.N := ⟨t.val - 1, Nat.lt_of_le_of_lt (Nat.sub_le _ _) t.isLt⟩

/-- First key tile: the update over the reset value. -/
theorem acc_first (c : Dev nD) (t : Fin cfg1.N) (h0 : t.val % 4 = 0) :
    accAt V c t = k1_pay2 (grid1.coords t) (iblk1 V c 0 t) (iblk1 V c 1 t) (iblk1 V c 2 t) (k1_pay1 (F := F)) := by
  show (outsAt1 V c t.val t.isLt).2 = _
  rw [outsAt1_A V c t h0]
  dsimp only
  exact sout1_A_eq c (grid1.coords t) (ms1_0 t) (hs1_0 t) (ms1_1 t) (hs1_1 t) (ms1_2 t) (hs1_2 t) (ms1_3 t) (hs1_3 t) scM1 (Memref.isWhole_whole _) (c1_of t h0) (c2_of_A t h0) (nc3_of_A t h0) (iblk1 V c 0 t) (iblk1 V c 1 t) (iblk1 V c 2 t)

/-- A later key tile not wholly above the diagonal: the update over what the point before left. -/
theorem acc_update (c : Dev nD) (t : Fin cfg1.N) (h0 : ¬t.val % 4 = 0) (h2 : t.val % 4 ≤ (t.val / 4) % 4) :
    accAt V c t = k1_pay2 (grid1.coords t) (iblk1 V c 0 t) (iblk1 V c 1 t) (iblk1 V c 2 t) (accAt V c (prevPt t)) := by
  show (outsAt1 V c t.val t.isLt).2 = _
  by_cases h3 : t.val % 4 = 3
  · rw [outsAt1_D V c t h0 h3 h2]
    dsimp only
    exact sout1_D_eq c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t)
      (outsAt1 V c (t.val - 1) (Nat.lt_of_le_of_lt (Nat.sub_le _ _) t.isLt)).2
  · rw [outsAt1_B V c t h0 h3 h2]
    dsimp only
    exact sout1_B_eq c (grid1.coords t) (ms1_0 t) (hs1_0 t) (ms1_1 t) (hs1_1 t) (ms1_2 t) (hs1_2 t) (ms1_3 t) (hs1_3 t) scM1 (Memref.isWhole_whole _) (nc1_of t h0) (c2_of t h2) (nc3_of t h3) (iblk1 V c 0 t) (iblk1 V c 1 t) (iblk1 V c 2 t)
      (outsAt1 V c (t.val - 1) (Nat.lt_of_le_of_lt (Nat.sub_le _ _) t.isLt)).2

/-- A key tile wholly above the diagonal: the accumulator is left as it was. -/
theorem acc_skip (c : Dev nD) (t : Fin cfg1.N) (h0 : ¬t.val % 4 = 0) (h2 : ¬t.val % 4 ≤ (t.val / 4) % 4) :
    accAt V c t = accAt V c (prevPt t) := by
  show (outsAt1 V c t.val t.isLt).2 = _
  by_cases h3 : t.val % 4 = 3
  · rw [outsAt1_E V c t h0 h3 h2]
  · rw [outsAt1_C V c t h0 h3 h2]

/-- Last key tile: the output block is the accumulator (as the point leaves it), re-laid from [512, 64] to [1, 512, 64]. -/
theorem out_last (c : Dev nD) (t : Fin cfg1.N) (h3 : t.val % 4 = 3) :
    (outsAt1 V c t.val t.isLt).1 = k1_pay3 (accAt V c t) := by
  have h0 : ¬t.val % 4 = 0 := by omega
  show (outsAt1 V c t.val t.isLt).1 = k1_pay3 (outsAt1 V c t.val t.isLt).2
  by_cases h2 : t.val % 4 ≤ (t.val / 4) % 4
  · rw [outsAt1_D V c t h0 h3 h2]
    dsimp only
    rw [sout1_D_eq]
    exact out1_D_eq c (grid1.coords t) (ms1_0 t) (hs1_0 t) (ms1_1 t) (hs1_1 t) (ms1_2 t) (hs1_2 t) (ms1_3 t) (hs1_3 t) scM1 (Memref.isWhole_whole _) (nc1_of t h0) (c2_of t h2) (c3_of t h3) (iblk1 V c 0 t) (iblk1 V c 1 t) (iblk1 V c 2 t)
      (outsAt1 V c (t.val - 1) (Nat.lt_of_le_of_lt (Nat.sub_le _ _) t.isLt)).2
  · rw [outsAt1_E V c t h0 h3 h2]
    dsimp only
    exact out1_E_eq c (grid1.coords t) (ms1_0 t) (hs1_0 t) (ms1_1 t) (hs1_1 t) (ms1_2 t) (hs1_2 t) (ms1_3 t) (hs1_3 t) scM1 (Memref.isWhole_whole _) (nc1_of t h0) (nc2_of t h2) (c3_of t h3)
      (outsAt1 V c (t.val - 1) (Nat.lt_of_le_of_lt (Nat.sub_le _ _) t.isLt)).2

/-! ## The input blocks at an index: head group `t / 16`, query tile `(t / 4) % 4`, key tile `t % 4` -/

/-- The block indices at point `t`, decided over the 512 points: the query block moves with the head group and the
    query tile, the key and value blocks with the head group and the key tile. -/
theorem idx_facts1 : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0 :=
  (by decide +kernel : ∀ t : Fin grid1.N, _)

theorem qblk_apply (c : Dev nD) (t : Fin cfg1.N) (p : Fin 512) (d : Fin 64) :
    (iblk1 V c 0 t : Vec F S1x512x64 .bf16) (ix3 (0 : Fin 1) p d)
      = (V c main_v10 : Vec F S32x2048x64 .bf16) (ix3 (⟨t.val / 16, by have := t.isLt; have : cfg1.N = 512 := N_1; omega⟩ : Fin 32) (⟨(t.val / 4) % 4 * 512 + p.val, by omega⟩ : Fin 2048) d) := by
  obtain ⟨e0, e1, e2, -, -, -, -, -, -⟩ := idx_facts1 t
  unfold iblk1
  rw [View.read_apply]
  show V c main_v10 _ = V c main_v10 _
  congr 1
  funext a
  apply Fin.ext
  match a with
  | ⟨0, _⟩ => show win1_0.index t (0 : Fin 3) * 1 + 1 * 0 = t.val / 16; omega
  | ⟨1, _⟩ => show win1_0.index t (1 : Fin 3) * 512 + 1 * p.val = (t.val / 4) % 4 * 512 + p.val; omega
  | ⟨2, _⟩ => show win1_0.index t (2 : Fin 3) * 64 + 1 * d.val = d.val; omega
theorem kblk_apply (c : Dev nD) (t : Fin cfg1.N) (jj : Fin 512) (d : Fin 64) :
    (iblk1 V c 1 t : Vec F S1x512x64 .bf16) (ix3 (0 : Fin 1) jj d)
      = (V c main_v13 : Vec F S32x2048x64 .bf16) (ix3 (⟨t.val / 16, by have := t.isLt; have : cfg1.N = 512 := N_1; omega⟩ : Fin 32) (⟨t.val % 4 * 512 + jj.val, by omega⟩ : Fin 2048) d) := by
  obtain ⟨-, -, -, e0, e1, e2, -, -, -⟩ := idx_facts1 t
  unfold iblk1
  rw [View.read_apply]
  show V c main_v13 _ = V c main_v13 _
  congr 1
  funext a
  apply Fin.ext
  match a with
  | ⟨0, _⟩ => show win1_1.index t (0 : Fin 3) * 1 + 1 * 0 = t.val / 16; omega
  | ⟨1, _⟩ => show win1_1.index t (1 : Fin 3) * 512 + 1 * jj.val = t.val % 4 * 512 + jj.val; omega
  | ⟨2, _⟩ => show win1_1.index t (2 : Fin 3) * 64 + 1 * d.val = d.val; omega
theorem vblk_apply (c : Dev nD) (t : Fin cfg1.N) (jj : Fin 512) (d : Fin 64) :
    (iblk1 V c 2 t : Vec F S1x512x64 .bf16) (ix3 (0 : Fin 1) jj d)
      = (V c main_v16 : Vec F S32x2048x64 .bf16) (ix3 (⟨t.val / 16, by have := t.isLt; have : cfg1.N = 512 := N_1; omega⟩ : Fin 32) (⟨t.val % 4 * 512 + jj.val, by omega⟩ : Fin 2048) d) := by
  obtain ⟨-, -, -, -, -, -, e0, e1, e2⟩ := idx_facts1 t
  unfold iblk1
  rw [View.read_apply]
  show V c main_v16 _ = V c main_v16 _
  congr 1
  funext a
  apply Fin.ext
  match a with
  | ⟨0, _⟩ => show win1_2.index t (0 : Fin 3) * 1 + 1 * 0 = t.val / 16; omega
  | ⟨1, _⟩ => show win1_2.index t (1 : Fin 3) * 512 + 1 * jj.val = t.val % 4 * 512 + jj.val; omega
  | ⟨2, _⟩ => show win1_2.index t (2 : Fin 3) * 64 + 1 * d.val = d.val; omega

/-- The grid coordinates of point `t`: query tile and key tile (what the payload reads). -/
theorem coords_qi (t : Fin cfg1.N) : ((grid1.coords t) 1).val = (t.val / 4) % 4 :=
  (by decide +kernel : ∀ t : Fin grid1.N, ((grid1.coords t) 1).val = (t.val / 4) % 4) t
theorem coords_kv (t : Fin cfg1.N) : ((grid1.coords t) 2).val = t.val % 4 :=
  (by decide +kernel : ∀ t : Fin grid1.N, ((grid1.coords t) 2).val = t.val % 4) t

end Cert.KernelIdeal.Val

end
-- ==== Proof.Val.Reg1Pay.lean ====
/-
  The three values the second kernel region stores, read at an index, at the ideal instance (a float is an extended
  real, rounding is the identity, a matrix product into a zero accumulator is a plain sum).

  * pay1_apply: the accumulator's reset value is 0 everywhere.
  * tileW, pay2_apply: the accumulator's update at a grid point adds, at row p and feature d, the sum over the
    512 keys jj of the point's key tile of the weight of key jj for query p times feature d of value row jj; the
    weight is the scaled score clamped at zero when the key's global position (i 2)·512 + jj is at most the query's
    (i 1)·512 + p, and zero otherwise.
  * pay3_apply: the output block is the accumulator, with a leading unit axis.
-/
import proofs.«126934_j43173011259799_1_alg».proof.Proof.Gen.KernelIdeal.Skeleton
import proofs.«126934_j43173011259799_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem

/-! ## The reset value -/

/-- The accumulator's reset value is zero at every index. -/
theorem pay1_apply (p : Fin 512) (d : Fin 64) : Gen.k1_pay1 (F := Ideal) (ix2 p d) = 0 := by
  unfold Gen.k1_pay1
  rw [shapeCast_self]
  show Ideal.ofBits .f32 0x00000000#32 = 0
  exact Ideal.ofBits_zero_f32

/-! ## The output block -/

/-- The output block read at (0, p, d) is the accumulator at (p, d). -/
theorem pay3_apply (a : Vec Ideal S512x64 .f32) (p : Fin 512) (d : Fin 64) : Gen.k1_pay3 a (ix3 0 p d) = a (ix2 p d) := by
  unfold Gen.k1_pay3
  exact shapeCast_ab_1ab_apply a _ 0 p d

/-! ## The two matrix products read at an index -/

theorem lhs_qk_0 (j : S512x512.Idx) (q : dot_S512x64_S64x512_S512x512_1_0_0_1_n_n.contr.Idx) :
    (dot_S512x64_S64x512_S512x512_1_0_0_1_n_n.lhsIdx j q 0).val = (j 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_qk_1 (j : S512x512.Idx) (q : dot_S512x64_S64x512_S512x512_1_0_0_1_n_n.contr.Idx) :
    (dot_S512x64_S64x512_S512x512_1_0_0_1_n_n.lhsIdx j q 1).val = (q ⟨0, by decide⟩).val :=
  dot_S512x64_S64x512_S512x512_1_0_0_1_n_n.lhsIdx_val_of_single rfl j q
theorem rhs_qk_0 (j : S512x512.Idx) (q : dot_S512x64_S64x512_S512x512_1_0_0_1_n_n.contr.Idx) :
    (dot_S512x64_S64x512_S512x512_1_0_0_1_n_n.rhsIdx j q 0).val = (q ⟨0, by decide⟩).val :=
  dot_S512x64_S64x512_S512x512_1_0_0_1_n_n.rhsIdx_val_of_single rfl j q
theorem rhs_qk_1 (j : S512x512.Idx) (q : dot_S512x64_S64x512_S512x512_1_0_0_1_n_n.contr.Idx) :
    (dot_S512x64_S64x512_S512x512_1_0_0_1_n_n.rhsIdx j q 1).val = (j 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The product of a 512 x 64 matrix with a 64 x 512 matrix into a zero accumulator, read at (p, jj): the sum over
    the 64 contracted places of the left operand's row p times the right operand's column jj. -/
theorem matmul_qk_apply (l : FVec Ideal S512x64 .bf16) (r : FVec Ideal S64x512 .bf16) (p jj : Fin 512) :
    matmul dot_S512x64_S64x512_S512x512_1_0_0_1_n_n none l r (constant S512x512 .f32 0x00000000#32) (ix2 p jj)
      = ∑ e : Fin 64, l (ix2 p e) * r (ix2 e jj) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 p jj) ((ValueIdx.contrEquiv1 dot_S512x64_S64x512_S512x512_1_0_0_1_n_n 64 rfl rfl).symm k) = ix2 p k := funext fun a => Fin.ext (by
    match a with
    | ⟨0, _⟩ => exact lhs_qk_0 _ _
    | ⟨1, _⟩ => exact (lhs_qk_1 _ _).trans hk)
  have er : dot_S512x64_S64x512_S512x512_1_0_0_1_n_n.rhsIdx (ix2 p jj) ((ValueIdx.contrEquiv1 dot_S512x64_S64x512_S512x512_1_0_0_1_n_n 64 rfl rfl).symm k) = ix2 k jj := funext fun a => Fin.ext (by
    match a with
    | ⟨0, _⟩ => exact (rhs_qk_0 _ _).trans hk
    | ⟨1, _⟩ => exact rhs_qk_1 _ _)
  rw [el, er]

theorem lhs_wv_0 (j : S512x64.Idx) (q : dot_S512x512_S512x64_S512x64_1_0_0_1_n_n.contr.Idx) :
    (dot_S512x512_S512x64_S512x64_1_0_0_1_n_n.lhsIdx j q 0).val = (j 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_wv_1 (j : S512x64.Idx) (q : dot_S512x512_S512x64_S512x64_1_0_0_1_n_n.contr.Idx) :
    (dot_S512x512_S512x64_S512x64_1_0_0_1_n_n.lhsIdx j q 1).val = (q ⟨0, by decide⟩).val :=
  dot_S512x512_S512x64_S512x64_1_0_0_1_n_n.lhsIdx_val_of_single rfl j q
theorem rhs_wv_0 (j : S512x64.Idx) (q : dot_S512x512_S512x64_S512x64_1_0_0_1_n_n.contr.Idx) :
    (dot_S512x512_S512x64_S512x64_1_0_0_1_n_n.rhsIdx j q 0).val = (q ⟨0, by decide⟩).val :=
  dot_S512x512_S512x64_S512x64_1_0_0_1_n_n.rhsIdx_val_of_single rfl j q
theorem rhs_wv_1 (j : S512x64.Idx) (q : dot_S512x512_S512x64_S512x64_1_0_0_1_n_n.contr.Idx) :
    (dot_S512x512_S512x64_S512x64_1_0_0_1_n_n.rhsIdx j q 1).val = (j 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The product of a 512 x 512 matrix with a 512 x 64 matrix into a zero accumulator, read at (p, d): the sum over
    the 512 contracted places of the left operand's row p times the right operand's column d. -/
theorem matmul_wv_apply (l : FVec Ideal S512x512 .bf16) (r : FVec Ideal S512x64 .bf16) (p : Fin 512) (d : Fin 64) :
    matmul dot_S512x512_S512x64_S512x64_1_0_0_1_n_n none l r (constant S512x64 .f32 0x00000000#32) (ix2 p d)
      = ∑ jj : Fin 512, l (ix2 p jj) * r (ix2 jj d) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 p d) ((ValueIdx.contrEquiv1 dot_S512x512_S512x64_S512x64_1_0_0_1_n_n 512 rfl rfl).symm k) = ix2 p k := funext fun a => Fin.ext (by
    match a with
    | ⟨0, _⟩ => exact lhs_wv_0 _ _
    | ⟨1, _⟩ => exact (lhs_wv_1 _ _).trans hk)
  have er : dot_S512x512_S512x64_S512x64_1_0_0_1_n_n.rhsIdx (ix2 p d) ((ValueIdx.contrEquiv1 dot_S512x512_S512x64_S512x64_1_0_0_1_n_n 512 rfl rfl).symm k) = ix2 k d := funext fun a => Fin.ext (by
    match a with
    | ⟨0, _⟩ => exact (rhs_wv_0 _ _).trans hk
    | ⟨1, _⟩ => exact rhs_wv_1 _ _)
  rw [el, er]

/-! ## The causal mask -/

/-- With tile numbers below 4 and places below 512 both global positions are below 2048, so the signed 32-bit
    comparison of the two sums is the comparison of the natural numbers. -/
theorem sge_iff (a b p q : Nat) (ha : a < 4) (hb : b < 4) (hp : p < 512) (hq : q < 512) :
    IntOp.cmpi .sge (IntOp.addi (Scalar.muli (BitVec.ofNat 32 a) 512#32) (BitVec.ofNat 32 p))
        (IntOp.addi (Scalar.muli (BitVec.ofNat 32 b) 512#32) (BitVec.ofNat 32 q))
      = if b * 512 + q ≤ a * 512 + p then 1#1 else 0#1 := by
  have hx : IntOp.addi (Scalar.muli (BitVec.ofNat 32 a) 512#32) (BitVec.ofNat 32 p) = BitVec.ofNat 32 (a * 512 + p) := by
    show BitVec.ofNat 32 a * 512#32 + BitVec.ofNat 32 p = _
    apply BitVec.eq_of_toNat_eq
    simp only [BitVec.toNat_add, BitVec.toNat_mul, BitVec.toNat_ofNat]
    omega
  have hy : IntOp.addi (Scalar.muli (BitVec.ofNat 32 b) 512#32) (BitVec.ofNat 32 q) = BitVec.ofNat 32 (b * 512 + q) := by
    show BitVec.ofNat 32 b * 512#32 + BitVec.ofNat 32 q = _
    apply BitVec.eq_of_toNat_eq
    simp only [BitVec.toNat_add, BitVec.toNat_mul, BitVec.toNat_ofNat]
    omega
  rw [hx, hy]
  show BitVec.ofBool ((BitVec.ofNat 32 (b * 512 + q)).sle (BitVec.ofNat 32 (a * 512 + p))) = _
  have hs : (BitVec.ofNat 32 (b * 512 + q)).sle (BitVec.ofNat 32 (a * 512 + p)) = decide (b * 512 + q ≤ a * 512 + p) := by
    rw [BitVec.sle_eq_decide]
    congr 1
    have n1 : (BitVec.ofNat 32 (b * 512 + q)).toNat = b * 512 + q := by rw [BitVec.toNat_ofNat]; omega
    have n2 : (BitVec.ofNat 32 (a * 512 + p)).toNat = a * 512 + p := by rw [BitVec.toNat_ofNat]; omega
    rw [BitVec.toInt_eq_toNat_of_lt (by rw [n1]; omega), BitVec.toInt_eq_toNat_of_lt (by rw [n2]; omega), n1, n2]
    apply propext
    omega
  rw [hs]
  by_cases h : b * 512 + q ≤ a * 512 + p
  · rw [if_pos h, decide_eq_true h]; rfl
  · rw [if_neg h, decide_eq_false h]; rfl

/-- The mask of a grid point at (p, jj): set exactly when the key's global position is at most the query's. -/
theorem mask_apply (i : grid1.Coords) (p jj : Fin 512) :
    cmpi .sge
        (addi (broadcast S512x512 (Scalar.muli (BitVec.ofNat 32 (i 1).val) 512#32)) (iota .tc S512x512 32 [0] iota_S512x512_d0_w32))
        (addi (broadcast S512x512 (Scalar.muli (BitVec.ofNat 32 (i 2).val) 512#32)) (iota .tc S512x512 32 [1] iota_S512x512_d1_w32))
        (ix2 p jj)
      = if (i 2).val * 512 + jj.val ≤ (i 1).val * 512 + p.val then 1#1 else 0#1 := by
  show IntOp.cmpi .sge
      (IntOp.addi (Scalar.muli (BitVec.ofNat 32 (i 1).val) 512#32) (iota .tc S512x512 32 [0] iota_S512x512_d0_w32 (ix2 p jj)))
      (IntOp.addi (Scalar.muli (BitVec.ofNat 32 (i 2).val) 512#32) (iota .tc S512x512 32 [1] iota_S512x512_d1_w32 (ix2 p jj))) = _
  rw [iota_single_apply, iota_single_apply]
  exact sge_iff (i 1).val (i 2).val p.val jj.val (i 1).isLt (i 2).isLt p.isLt jj.isLt

/-! ## The accumulator's update -/

/-- The masked, clamped, scaled score of query row p against key row jj of the point's blocks. -/
def tileW (i : grid1.Coords) (x0 x1 : Vec Ideal S1x512x64 .bf16) (p jj : Fin 512) : EReal :=
  if (i 2).val * 512 + jj.val ≤ (i 1).val * 512 + p.val then max ((∑ d' : Fin 64, x0 (ix3 0 p d') * x1 (ix3 0 jj d')) * Cert.Spec.scale) 0 else 0

theorem pay2_apply (i : grid1.Coords) (x0 x1 x2 : Vec Ideal S1x512x64 .bf16) (a : Vec Ideal S512x64 .f32) (p : Fin 512) (d : Fin 64) :
    Gen.k1_pay2 i x0 x1 x2 a (ix2 p d) = a (ix2 p d) + ∑ jj : Fin 512, tileW i x0 x1 p jj * x2 (ix3 0 jj d) := by
  unfold Gen.k1_pay2
  dsimp only
  rw [shapeCast_self]
  refine (addf_apply _ _ _).trans ?_
  refine congrArg (a (ix2 p d) + ·) ?_
  refine (matmul_wv_apply _ _ p d).trans ?_
  refine Finset.sum_congr rfl fun jj _ => ?_
  refine congrArg₂ (· * ·) ?_ (shapeCast_1ab_ab_apply x2 _ jj d)
  refine (truncf_apply (φ := .f32) (ψ := .bf16) _ bitsLt_bf16_f32 _).trans ?_
  refine (select_apply _ _ _ _).trans ?_
  rw [mask_apply]
  unfold tileW
  by_cases h : (i 2).val * 512 + jj.val ≤ (i 1).val * 512 + p.val
  · rw [if_pos h, if_pos h, select_one]
    refine (maximumf_apply _ _ _).trans ?_
    refine congrArg₂ max ?_ Ideal.ofBits_zero_f32
    refine (mulf_apply _ _ _).trans ?_
    refine congrArg₂ (· * ·) ?_ rfl
    refine (matmul_qk_apply _ _ p jj).trans ?_
    refine Finset.sum_congr rfl fun e _ => ?_
    refine congrArg₂ (· * ·) (shapeCast_1ab_ab_apply x0 _ p e) ?_
    refine (transpose_ix2_apply _ _ e jj).trans ?_
    exact shapeCast_1ab_ab_apply x1 _ jj e
  · rw [if_neg h, if_neg h, select_zero]
    exact Ideal.ofBits_zero_f32

end Cert.KernelIdeal.Val

end
-- ==== Proof.Val.BlockSum.lean ====
/-
  Regrouping a sum over all 2048 keys into four key tiles of 512 keys each, and dropping the tiles that lie
  strictly above the diagonal tile of a query.

  * `keyOf`, `sum_keys_tiles`: a key index is `tile * 512 + place`; a sum over all keys is the sum over
    the tiles of the sums over each tile (addition of extended reals is commutative and associative).
  * `tilesUpTo`, `tilesUpTo_eq_sum`: the left fold that adds tile `n` only when `n ≤ qi` equals the sum
    over all four tiles as soon as every tile above `qi` contributes `0`.
  * `tile_zero_of_above`: a tile strictly above the diagonal tile contributes `0` when every term carries a
    factor that vanishes at keys beyond the query (`0 * x = 0` in the extended reals).
-/
import Idealize.ShloMosaic.PureOps.Ideal
import Idealize.ShloMosaic.Lib.ValueIdx
import Mathlib.Data.Fintype.BigOperators
import Mathlib.Algebra.BigOperators.Fin
import Mathlib.Logic.Equiv.Fin.Basic

noncomputable section

namespace Cert.Spec

/-- A key index from its tile and its place in the tile. -/
def keyOf (kv : Fin 4) (jj : Fin 512) : Fin 2048 := ⟨kv.val * 512 + jj.val, by omega⟩

@[simp] theorem keyOf_val (kv : Fin 4) (jj : Fin 512) : (keyOf kv jj).val = kv.val * 512 + jj.val := rfl

/-- A sum over all keys is the sum over the four key tiles of the sums over each tile. -/
theorem sum_keys_tiles (f : Fin 2048 → EReal) :
    ∑ j : Fin 2048, f j = ∑ kv : Fin 4, ∑ jj : Fin 512, f (keyOf kv jj) := by
  rw [← Fintype.sum_prod_type' (fun kv jj => f (keyOf kv jj))]
  symm
  refine Fintype.sum_equiv (finProdFinEquiv : Fin 4 × Fin 512 ≃ Fin 2048) _ _ ?_
  rintro ⟨kv, jj⟩
  congr 1
  apply Fin.ext
  simp only [keyOf_val, finProdFinEquiv_apply_val]
  omega

/-- The sum over the key tiles up to and including query tile `qi`, as a left fold: start at `0`, add tile
`0`, then tile `1` if `1 ≤ qi`, and so on; `n` is the number of tiles folded. -/
def tilesUpTo (g : Fin 4 → EReal) (qi : Fin 4) : (n : ℕ) → EReal
  | 0 => 0
  | n + 1 =>
    if h : n < 4 then (if n ≤ qi.val then tilesUpTo g qi n + g ⟨n, h⟩ else tilesUpTo g qi n)
    else tilesUpTo g qi n

/-- If every tile strictly above the diagonal tile contributes `0`, the fold over all four tiles is the sum
over all four. -/
theorem tilesUpTo_eq_sum (g : Fin 4 → EReal) (qi : Fin 4)
    (h0 : ∀ kv : Fin 4, qi.val < kv.val → g kv = 0) :
    tilesUpTo g qi 4 = ∑ kv : Fin 4, g kv := by
  rw [Fin.sum_univ_four]
  obtain ⟨q, hq⟩ := qi
  have hq' : q = 0 ∨ q = 1 ∨ q = 2 ∨ q = 3 := by omega
  rcases hq' with rfl | rfl | rfl | rfl
  · have g1 : g 1 = 0 := h0 1 (by simp)
    have g2 : g 2 = 0 := h0 2 (by simp)
    have g3 : g 3 = 0 := h0 3 (by simp)
    simp [tilesUpTo, g1, g2, g3]
  · have g2 : g 2 = 0 := h0 2 (by simp)
    have g3 : g 3 = 0 := h0 3 (by simp)
    simp [tilesUpTo, g2, g3]
  · have g3 : g 3 = 0 := h0 3 (by simp)
    simp [tilesUpTo, g3]
  · simp [tilesUpTo]

/-- Every term of a tile strictly above the diagonal vanishes when each term carries a factor that is `0`
at every key beyond the query. -/
theorem tile_zero_of_above (w : Fin 2048 → EReal) (v : Fin 2048 → EReal) (qi kv : Fin 4) (i : Fin 2048)
    (hi : i.val / 512 = qi.val) (hw : ∀ j : Fin 2048, i.val < j.val → w j = 0) (h : qi.val < kv.val) :
    ∑ jj : Fin 512, w (keyOf kv jj) * v (keyOf kv jj) = 0 := by
  apply Finset.sum_eq_zero
  intro jj _
  have hlt : i.val < (keyOf kv jj).val := by
    rw [keyOf_val]
    omega
  rw [hw (keyOf kv jj) hlt, zero_mul]

end Cert.Spec
-- ==== Proof.Val.Reg1Acc.lean ====
/-
  The second kernel region's accumulation in closed form, at the ideal instance: at the last key tile of a (head group,
  query tile) pair the output block holds, at query row p and head feature d, the causal ReLU attention of query
  i = qi·512 + p over ALL 2048 keys — the key tiles up to the diagonal were added one by one, and the tiles above it,
  which the kernel skips, contribute nothing because every weight there is zero.

  * tileTerm: the contribution of one key tile; tilesUpTo_succ_le / tilesUpTo_succ_gt: one step of the fold over the
    tiles; tiles_eq_attn: the fold over all four tiles is the attention over all keys.
  * tile_sum: the update's sum at a grid point is the tile term of the point's key tile (the point's blocks are rows
    of the query, key and value arrays).
  * acc_inv: after the point of key tile n of a group the accumulator is the fold over tiles 0 … n.
  * out_value: the output block at the last key tile.
-/
import proofs.«126934_j43173011259799_1_alg».proof.Proof.Val.Reg1Pieces
import proofs.«126934_j43173011259799_1_alg».proof.Proof.Val.Reg1Pay
import proofs.«126934_j43173011259799_1_alg».proof.Proof.Val.BlockSum
import proofs.«126934_j43173011259799_1_alg».proof.Proof.Val.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

/-! ## The fold over the key tiles, one step at a time, and its value at the last tile -/

/-- The contribution of key tile kv to the attention of query i of head group g at head feature d. -/
def tileTerm (q k v : Cert.Spec.R32x2048x64.Idx → EReal) (g : Fin 32) (i : Fin 2048) (d : Fin 64) (kv : Fin 4) : EReal :=
  ∑ jj : Fin 512, Cert.Spec.wgt q k g i (Cert.Spec.keyOf kv jj) * v (ix3 g (Cert.Spec.keyOf kv jj) d)

/-- The fold takes tile n in when n is at most the diagonal tile. -/
theorem tilesUpTo_succ_le (f : Fin 4 → EReal) (qi : Fin 4) (n : ℕ) (h : n < 4) (hle : n ≤ qi.val) :
    Cert.Spec.tilesUpTo f qi (n + 1) = Cert.Spec.tilesUpTo f qi n + f ⟨n, h⟩ := by
  show (if h : n < 4 then (if n ≤ qi.val then Cert.Spec.tilesUpTo f qi n + f ⟨n, h⟩ else Cert.Spec.tilesUpTo f qi n)
    else Cert.Spec.tilesUpTo f qi n) = _
  rw [dif_pos h, if_pos hle]

/-- The fold passes over tile n when n is above the diagonal tile. -/
theorem tilesUpTo_succ_gt (f : Fin 4 → EReal) (qi : Fin 4) (n : ℕ) (h : n < 4) (hle : ¬n ≤ qi.val) :
    Cert.Spec.tilesUpTo f qi (n + 1) = Cert.Spec.tilesUpTo f qi n := by
  show (if h : n < 4 then (if n ≤ qi.val then Cert.Spec.tilesUpTo f qi n + f ⟨n, h⟩ else Cert.Spec.tilesUpTo f qi n)
    else Cert.Spec.tilesUpTo f qi n) = _
  rw [dif_pos h, if_neg hle]

/-- The fold over all four tiles is the attention over all 2048 keys: the tiles above the diagonal tile of the query
    carry only zero weights. -/
theorem tiles_eq_attn (q k v : Cert.Spec.R32x2048x64.Idx → EReal) (g : Fin 32) (i : Fin 2048) (d : Fin 64) (qi : Fin 4)
    (hi : i.val / 512 = qi.val) :
    Cert.Spec.tilesUpTo (tileTerm q k v g i d) qi 4 = Cert.Spec.attn q k v (ix3 g i d) := by
  rw [Cert.Spec.tilesUpTo_eq_sum]
  · unfold Cert.Spec.attn tileTerm
    exact (Cert.Spec.sum_keys_tiles (fun j => Cert.Spec.wgt q k g i j * v (ix3 g j d))).symm
  · intro kv h
    exact Cert.Spec.tile_zero_of_above (Cert.Spec.wgt q k g i) (fun j => v (ix3 g j d)) qi kv i hi
      (fun j hj => by unfold Cert.Spec.wgt; rw [if_neg (by omega)]) h

variable (V : (c : Dev nD) → (b : Ref sig .tc) → Buf (Elt Ideal) ((c : Thread nD τ).loc b))

/-- The head group and the query row of grid point t and block row p. -/
def grpOf (t : Fin cfg1.N) : Fin 32 := ⟨t.val / 16, by have := t.isLt; have : cfg1.N = 512 := N_1; omega⟩
def rowOf (t : Fin cfg1.N) (p : Fin 512) : Fin 2048 := ⟨(t.val / 4) % 4 * 512 + p.val, by omega⟩

/-- The query tile of grid point t. -/
def qtOf (t : Fin cfg1.N) : Fin 4 := ⟨(t.val / 4) % 4, Nat.mod_lt _ (by decide)⟩

/-- The update's sum at grid point t is the tile term of the point's key tile t % 4: the point's query, key and value
    blocks are rows of the three arrays, and the mask's condition compares the global key and query positions. -/
theorem tile_sum (c : Dev nD) (t : Fin cfg1.N) (p : Fin 512) (d : Fin 64) :
    ∑ jj : Fin 512, tileW (grid1.coords t) (iblk1 V c 0 t) (iblk1 V c 1 t) p jj
        * (iblk1 V c 2 t : Vec Ideal S1x512x64 .bf16) (ix3 (0 : Fin 1) jj d)
      = tileTerm (V c main_v10) (V c main_v13) (V c main_v16) (grpOf t) (rowOf t p) d ⟨t.val % 4, Nat.mod_lt _ (by decide)⟩ := by
  unfold tileTerm
  refine Finset.sum_congr rfl fun jj _ => ?_
  refine congrArg₂ (· * ·) ?_ (vblk_apply V c t jj d)
  unfold tileW Cert.Spec.wgt
  rw [coords_qi, coords_kv]
  by_cases h : t.val % 4 * 512 + jj.val ≤ (t.val / 4) % 4 * 512 + p.val
  · rw [if_pos h, if_pos (show (Cert.Spec.keyOf ⟨t.val % 4, Nat.mod_lt _ (by decide)⟩ jj).val ≤ (rowOf t p).val from h)]
    refine congrArg₂ max (congrArg₂ (· * ·) (Finset.sum_congr rfl fun e _ => ?_) rfl) rfl
    exact congrArg₂ (· * ·) (qblk_apply V c t p e) (kblk_apply V c t jj e)
  · rw [if_neg h, if_neg (show ¬(Cert.Spec.keyOf ⟨t.val % 4, Nat.mod_lt _ (by decide)⟩ jj).val ≤ (rowOf t p).val from h)]

/-- After the point of key tile n of a (head group, query tile) pair the accumulator holds, at (p, d), the fold over
    the key tiles 0 … n of the tile terms of the pair's query row. -/
theorem acc_inv (c : Dev nD) (p : Fin 512) (d : Fin 64) :
    ∀ (n : ℕ) (t : Fin cfg1.N), t.val % 4 = n →
      accAt V c t (ix2 p d)
        = Cert.Spec.tilesUpTo (tileTerm (V c main_v10) (V c main_v13) (V c main_v16) (grpOf t) (rowOf t p) d) (qtOf t) (n + 1) := by
  intro n
  induction n with
  | zero =>
    intro t h0
    rw [acc_first V c t h0]
    refine (pay2_apply _ _ _ _ _ p d).trans ?_
    refine (congrArg₂ (· + ·) (pay1_apply p d) (tile_sum V c t p d)).trans ?_
    rw [tilesUpTo_succ_le _ _ 0 (by decide) (Nat.zero_le _)]
    show _ = 0 + _
    congr 2
    exact Fin.ext h0
  | succ n ih =>
    intro t hn
    have hN : cfg1.N = 512 := N_1
    have hlt := t.isLt
    have hn4 : n + 1 < 4 := by omega
    have hprev : (prevPt t).val % 4 = n := by show (t.val - 1) % 4 = n; omega
    have eg : grpOf (prevPt t) = grpOf t := Fin.ext (by show (t.val - 1) / 16 = t.val / 16; omega)
    have er : rowOf (prevPt t) p = rowOf t p :=
      Fin.ext (by show ((t.val - 1) / 4) % 4 * 512 + p.val = (t.val / 4) % 4 * 512 + p.val; omega)
    have eq : qtOf (prevPt t) = qtOf t := Fin.ext (by show ((t.val - 1) / 4) % 4 = (t.val / 4) % 4; omega)
    have IH := ih (prevPt t) hprev
    rw [eg, er, eq] at IH
    have h0 : ¬t.val % 4 = 0 := by omega
    by_cases h2 : t.val % 4 ≤ (t.val / 4) % 4
    · rw [acc_update V c t h0 h2]
      refine (pay2_apply _ _ _ _ _ p d).trans ?_
      refine (congrArg₂ (· + ·) IH (tile_sum V c t p d)).trans ?_
      rw [tilesUpTo_succ_le _ _ (n + 1) hn4 (show n + 1 ≤ (t.val / 4) % 4 by omega)]
      congr 2
      exact Fin.ext hn
    · rw [acc_skip V c t h0 h2, IH,
        tilesUpTo_succ_gt _ _ (n + 1) hn4 (show ¬n + 1 ≤ (t.val / 4) % 4 by omega)]

theorem out_value (c : Dev nD) (t : Fin cfg1.N) (h3 : t.val % 4 = 3) (p : Fin 512) (d : Fin 64) :
    ((outsAt1 V c t.val t.isLt).1 : Vec Ideal S1x512x64 .f32) (ix3 (0 : Fin 1) p d)
      = Cert.Spec.attn (V c main_v10) (V c main_v13) (V c main_v16) (ix3 (grpOf t) (rowOf t p) d) := by
  rw [out_last V c t h3]
  refine (pay3_apply _ p d).trans ?_
  rw [acc_inv V c p d 3 t h3]
  exact tiles_eq_attn _ _ _ (grpOf t) (rowOf t p) d (qtOf t)
    (by show ((t.val / 4) % 4 * 512 + p.val) / 512 = (t.val / 4) % 4; omega)

end Cert.KernelIdeal.Val

end
-- ==== Proof.Val.Reg1Value.lean ====
/-
  What the second kernel region (causal ReLU attention) leaves in its output array, index by index, at the ideal
  instance: entry `(g, i, d)` is the attention of head group `g` at query `i`, head feature `d`, over the three arrays
  as the region finds them — the specification's `attn`.

  * the output window is written back at the last key tile of each (head group, query tile) pair only, the points
    `t` with `t % 4 = 3`; there the output block holds the attention of the block's rows (the accumulation in closed
    form);
  * grid point `t` writes back block `(t / 16, (t / 4) % 4, 0)`: row `p` of the block is query `((t / 4) % 4)·512 + p` of
    head group `t / 16`;
  * the 32 × 4 blocks cover the array: index `(g, i, d)` lies in the block of point `g·16 + (i / 512)·4 + 3`.
-/
import proofs.«126934_j43173011259799_1_alg».proof.Proof.Val.Reg1Acc
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One grid point -/

/-- The output window's block index at point `t`, decided over the 512 points: the head group `t / 16`, the query tile
    `(t / 4) % 4`, the one feature block. -/
theorem idx_facts1_3 : ∀ t : Fin cfg1.N, win1_3.index t (0 : Fin 3) = t.val / 16 ∧ win1_3.index t (1 : Fin 3) = (t.val / 4) % 4
    ∧ win1_3.index t (2 : Fin 3) = 0 :=
  (by decide +kernel : ∀ t : Fin grid1.N, _)

/-- At a point of the last key tile the output block at `j` is the attention at the array index `i` under it: head
    group `t / 16`, query `((t / 4) % 4)·512 + j₁`, head feature `j₂`. -/
theorem point_eq1 (c : Dev nD) (t : Fin cfg1.N) (h3 : t.val % 4 = 3) (j : S1x512x64.Idx) (i : S32x2048x64.Idx)
    (hi0 : (i 0).val = t.val / 16) (hi1 : (i 1).val = (t.val / 4) % 4 * 512 + (j 1).val) (hi2 : (i 2).val = (j 2).val) :
    ((outsAt1 V c t.val t.isLt).1 : Vec Ideal S1x512x64 .f32) j
      = Cert.Spec.attn (V c main_v10) (V c main_v13) (V c main_v16) i := by
  obtain ⟨u, p, d, rfl⟩ : ∃ (u : Fin 1) (p : Fin 512) (d : Fin 64), j = ix3 u p d := ⟨j 0, j 1, j 2, eq_ix3 j⟩
  obtain rfl : u = 0 := Subsingleton.elim _ _
  rw [out_value V c t h3 p d]
  refine congrArg _ (funext fun a => Fin.ext ?_)
  match a with
  | ⟨0, _⟩ => exact hi0.symm
  | ⟨1, _⟩ => exact hi1.symm
  | ⟨2, _⟩ => exact hi2.symm

/-- What a point of the last key tile writes back is its block of the attention of the three arrays as the region
    finds them. -/
theorem flushed_eq1 (c : Dev nD) (t : Fin cfg1.N) (h3 : t.val % 4 = 3) :
    (dat1 V c).flushed 3 t
      = ((cfg1.win 3).blk t).view.read (Elt Ideal) (Cert.Spec.attn (V c main_v10) (V c main_v13) (V c main_v16)) := by
  show (cfg1.win 3).cut (grid1.coords t) ((dat1 V c).after 3 t) = _
  rw [after1_3]
  obtain ⟨e0, e1, e2⟩ := idx_facts1_3 t
  funext j
  show ((outsAt1 V c t.val t.isLt).1 : Vec Ideal S1x512x64 .f32) j
    = Cert.Spec.attn (V c main_v10) (V c main_v13) (V c main_v16) (((cfg1.win 3).blk t).view.emb j)
  have hj0 : (j 0).val < 1 := (j 0).isLt
  refine point_eq1 V c t h3 j _ ?_ ?_ ?_
  · show win1_3.index t (0 : Fin 3) * 1 + 1 * (j 0).val = t.val / 16; omega
  · show win1_3.index t (1 : Fin 3) * 512 + 1 * (j 1).val = (t.val / 4) % 4 * 512 + (j 1).val; omega
  · show win1_3.index t (2 : Fin 3) * 64 + 1 * (j 2).val = (j 2).val; omega

/-! ## The blocks cover the array -/

/-- An index of the array is in point `t`'s block iff each coordinate is in the block's range on its axis. -/
theorem mem_blk1_3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v17).slice (win1_3.rect t)).set ↔ _
  rw [View.set_slice_whole, Rect.mem_set_unit]
  exact Iff.rfl

/-- Index `(g, i, d)` lies in the block of point `g·16 + (i / 512)·4 + 3`, the last key tile of its head group and
    query tile, which writes back. -/
theorem cover1_3 (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hlt : (i 0).val * 16 + (i 1).val / 512 * 4 + 3 < cfg1.N := Nat.lt_of_lt_of_eq (by omega) N_1.symm
  obtain ⟨t, ht⟩ : ∃ t : Fin cfg1.N, t.val = (i 0).val * 16 + (i 1).val / 512 * 4 + 3 := ⟨⟨_, hlt⟩, rfl⟩
  obtain ⟨e0, e1, e2⟩ := idx_facts1_3 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-! ## The region's output array -/

/-- After the second region its output array holds the attention of the three arrays the region found, index by index. -/
theorem reg1_value (c : Dev nD) :
    (dat1 V c).arrAt 3 cfg1.N = Cert.Spec.attn (V c main_v10) (V c main_v13) (V c main_v16) :=
  (dat1 V c).arrAt_eq_of_cover 3 (Cert.Spec.attn (V c main_v10) (V c main_v13) (V c main_v16))
    (fun t hf => flushed_eq1 V c t ((flush1_3 t).mp hf)) cover1_3

end Cert.KernelIdeal.Val

end
-- ==== Proof.Val.RefValue.lean ====
/-
  The reference program's result is the specification G of its three arguments.

  The reference computes, stage by stage: the projection x · Wᵀ + bias over batch, time and output feature; the three
  thirds of the output features split into heads (feature e = h·64 + d) and moved to batch × head × time × head
  feature; the causal mask j ≤ i; the scaled scores clamped at zero and masked; the weighted sum of the value rows;
  and the heads merged back into the model feature. Each stage is read at explicit coordinates and identified with the
  specification's function of the same name.
-/
import proofs.«126934_j43173011259799_1_alg».proof.Proof.Gen.ReferenceIdeal.Read
import proofs.«126934_j43173011259799_1_alg».proof.Proof.Val.Spec
import Idealize.ShloMosaic.Lib.ValueIdx
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx

variable (x : (⟨S2x2048x1024, .f32⟩ : BufTy).Contents (Elt Ideal)) (W : (⟨S3072x1024, .f32⟩ : BufTy).Contents (Elt Ideal))
  (bias : (⟨S3072, .f32⟩ : BufTy).Contents (Elt Ideal))

/-! ## The projection -/

/-- The projection at batch b, time t, output feature o. -/
theorem proj_at (b : Fin 2) (t : Fin 2048) (o : Fin 3072) :
    val_main_v3 (F := Ideal) x W bias (ix3 b t o) = Cert.Spec.qkvFlat x W bias (ix3 b t o) := by
  rw [val_main_v3_apply, val_main_v0_apply, val_main_v2_apply, val_main_v1_apply]
  have hl : ∀ k : Fin 1024, lidx_main_v0 (ix3 b t o) k = ix3 b t k := fun k => funext fun a => by
    match a with
    | ⟨0, _⟩ => rfl
    | ⟨1, _⟩ => rfl
    | ⟨2, _⟩ => rfl
  have hr : ∀ k : Fin 1024, ridx_main_v0 (ix3 b t o) k = ix2 o k := fun k => funext fun a => by
    match a with
    | ⟨0, _⟩ => rfl
    | ⟨1, _⟩ => rfl
  have hb : idx_main_v1 (idx_main_v2 (ix3 b t o)) = ix1 o := funext fun a => by
    match a with
    | ⟨0, _⟩ => rfl
  simp only [hl, hr, hb]
  rfl

/-! ## Queries, keys and values by head -/

/-- The query of batch b, head h, time t, head feature d. -/
theorem q_at (b : Fin 2) (h : Fin 16) (t : Fin 2048) (d : Fin 64) :
    val_main_v8 (F := Ideal) x W bias (ix4 b h t d) = Cert.Spec.headQ x W bias b h t d := by
  rw [val_main_v8_apply, val_main_v7_apply, val_main_v4_apply]
  have hb := b.isLt; have hh := h.isLt; have ht := t.isLt; have hd := d.isLt
  have hi : idx_main_v4 (idx_main_v7 (idx_main_v8 (ix4 b h t d))) = ix3 b t (⟨h.val * 64 + d.val, by omega⟩ : Fin 3072) :=
    funext fun a => Fin.ext (by
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show (((b.val * 2048 + t.val) * 16 + h.val) * 64 + d.val) % 1024 = h.val * 64 + d.val; omega)
  rw [hi, proj_at]
  rfl

/-- The key of batch b, head h, time t, head feature d. -/
theorem k_at (b : Fin 2) (h : Fin 16) (t : Fin 2048) (d : Fin 64) :
    val_main_v10 (F := Ideal) x W bias (ix4 b h t d) = Cert.Spec.headK x W bias b h t d := by
  rw [val_main_v10_apply, val_main_v9_apply, val_main_v5_apply]
  have hb := b.isLt; have hh := h.isLt; have ht := t.isLt; have hd := d.isLt
  have hi : idx_main_v5 (idx_main_v9 (idx_main_v10 (ix4 b h t d))) = ix3 b t (⟨1024 + h.val * 64 + d.val, by omega⟩ : Fin 3072) :=
    funext fun a => Fin.ext (by
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show 1024 + (((b.val * 2048 + t.val) * 16 + h.val) * 64 + d.val) % 1024 = 1024 + h.val * 64 + d.val; omega)
  rw [hi, proj_at]
  rfl

/-- The value of batch b, head h, time t, head feature d. -/
theorem v_at (b : Fin 2) (h : Fin 16) (t : Fin 2048) (d : Fin 64) :
    val_main_v12 (F := Ideal) x W bias (ix4 b h t d) = Cert.Spec.headV x W bias b h t d := by
  rw [val_main_v12_apply, val_main_v11_apply, val_main_v6_apply]
  have hb := b.isLt; have hh := h.isLt; have ht := t.isLt; have hd := d.isLt
  have hi : idx_main_v6 (idx_main_v11 (idx_main_v12 (ix4 b h t d))) = ix3 b t (⟨2048 + h.val * 64 + d.val, by omega⟩ : Fin 3072) :=
    funext fun a => Fin.ext (by
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show 2048 + (((b.val * 2048 + t.val) * 16 + h.val) * 64 + d.val) % 1024 = 2048 + h.val * 64 + d.val; omega)
  rw [hi, proj_at]
  rfl

/-! ## The causal mask -/

/-- The mask at query i, key j: set exactly when j ≤ i. -/
theorem mask_at (i j : Fin 2048) :
    val_main_v17 (F := Ideal) (ix2 i j) = if j.val ≤ i.val then 1#1 else 0#1 := by
  rw [val_main_v17_apply, val_main_call0_v4_apply, val_main_call0_v2_apply, val_main_call0_v0_apply,
    val_main_call0_v1_apply, val_main_call0_c_apply, val_main_call0_v3_apply, val_main_v16_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  have hi := i.isLt; have hj := j.isLt
  have e0 : IntOp.addi (BitVec.ofNat 32 i.val) 0#32 = BitVec.ofNat 32 i.val := by
    unfold IntOp.addi; exact BitVec.add_zero _
  have ti : (BitVec.ofNat 32 i.val).toNat = i.val := by
    rw [BitVec.toNat_ofNat]; exact Nat.mod_eq_of_lt (by omega)
  have tj : (BitVec.ofNat 32 j.val).toNat = j.val := by
    rw [BitVec.toNat_ofNat]; exact Nat.mod_eq_of_lt (by omega)
  have hc : IntOp.cmpi .sge (BitVec.ofNat 32 i.val) (BitVec.ofNat 32 j.val) = 1#1 ↔ j.val ≤ i.val := by
    have := StableHlo.Predicate.sge_iff_toNat (a := BitVec.ofNat 32 i.val) (b := BitVec.ofNat 32 j.val)
      (by rw [ti]; omega) (by rw [tj]; omega)
    rw [ti, tj] at this; exact this
  rw [e0]
  by_cases h : j.val ≤ i.val
  · rw [hc.mpr h, select_one, if_pos h]
  · rw [eq_zero_of_ne_one (fun hh => h (hc.mp hh)), select_zero, if_neg h]

/-! ## The attention weights -/

/-- The weight of key j for query i in batch b, head h: the scaled score clamped at zero on and below the diagonal,
    zero above it. -/
theorem wgt_at (b : Fin 2) (h : Fin 16) (i j : Fin 2048) :
    val_main_v19 (F := Ideal) x W bias (ix4 b h i j)
      = if j.val ≤ i.val then
          max ((∑ d' : Fin 64, Cert.Spec.headQ x W bias b h i d' * Cert.Spec.headK x W bias b h j d') * Cert.Spec.scale) 0
        else 0 := by
  rw [val_main_v19_apply, val_main_call2_v1_apply, val_main_v18_apply, val_main_v15_apply, val_main_v13_apply,
    val_main_v14_apply, val_main_cst_apply, val_main_call1_v0_apply, val_main_call1_cst_apply, val_main_call2_v2_apply,
    val_main_call2_v0_apply, val_main_cst_0_apply]
  have hm : idx_main_call2_v1 (ix4 b h i j) = ix2 i j := funext fun a => by
    match a with
    | ⟨0, _⟩ => rfl
    | ⟨1, _⟩ => rfl
  have hl : ∀ k : Fin 64, lidx_main_v13 (ix4 b h i j) k = ix4 b h i k := fun k => funext fun a => by
    match a with
    | ⟨0, _⟩ => rfl
    | ⟨1, _⟩ => rfl
    | ⟨2, _⟩ => rfl
    | ⟨3, _⟩ => rfl
  have hr : ∀ k : Fin 64, ridx_main_v13 (ix4 b h i j) k = ix4 b h j k := fun k => funext fun a => by
    match a with
    | ⟨0, _⟩ => rfl
    | ⟨1, _⟩ => rfl
    | ⟨2, _⟩ => rfl
    | ⟨3, _⟩ => rfl
  simp only [hm, hl, hr, mask_at, q_at, k_at, Ideal.ofBits_def, Ideal.mulf_def, Ideal.maximumf_def, Ideal.ofBits_zero_f32]
  by_cases hji : j.val ≤ i.val
  · rw [if_pos hji, if_pos hji, select_one]
  · rw [if_neg hji, if_neg hji, select_zero]

/-! ## The weighted sum of the value rows -/

/-- Attention at batch b, head h, time t, head feature d. -/
theorem attn_at (b : Fin 2) (h : Fin 16) (t : Fin 2048) (d : Fin 64) :
    val_main_v20 (F := Ideal) x W bias (ix4 b h t d)
      = ∑ j : Fin 2048,
          (if j.val ≤ t.val then
              max ((∑ d' : Fin 64, Cert.Spec.headQ x W bias b h t d' * Cert.Spec.headK x W bias b h j d') * Cert.Spec.scale) 0
            else 0)
            * Cert.Spec.headV x W bias b h j d := by
  rw [val_main_v20_apply]
  refine Finset.sum_congr rfl fun j _ => ?_
  have hl : lidx_main_v20 (ix4 b h t d) j = ix4 b h t j := funext fun a => by
    match a with
    | ⟨0, _⟩ => rfl
    | ⟨1, _⟩ => rfl
    | ⟨2, _⟩ => rfl
    | ⟨3, _⟩ => rfl
  have hr : ridx_main_v20 (ix4 b h t d) j = ix4 b h j d := funext fun a => by
    match a with
    | ⟨0, _⟩ => rfl
    | ⟨1, _⟩ => rfl
    | ⟨2, _⟩ => rfl
    | ⟨3, _⟩ => rfl
  rw [hl, hr, wgt_at, v_at]

/-! ## The heads merged back: the reference is G -/

theorem ref_is_G (x : (⟨S2x2048x1024, .f32⟩ : BufTy).Contents (Elt Ideal)) (W : (⟨S3072x1024, .f32⟩ : BufTy).Contents (Elt Ideal))
    (bias : (⟨S3072, .f32⟩ : BufTy).Contents (Elt Ideal)) :
    val_main_v22 (F := Ideal) x W bias = Cert.Spec.G x W bias := by
  funext idx
  obtain ⟨b, t, e, rfl⟩ : ∃ (b : Fin 2) (t : Fin 2048) (e : Fin 1024), idx = ix3 b t e := ⟨idx 0, idx 1, idx 2, eq_ix3 idx⟩
  rw [val_main_v22_apply, val_main_v21_apply]
  have hb := b.isLt; have ht := t.isLt; have he := e.isLt
  have hi : idx_main_v21 (idx_main_v22 (ix3 b t e)) = ix4 b (Cert.Spec.headOf e) t (Cert.Spec.featOf e) :=
    funext fun a => Fin.ext (by
      match a with
      | ⟨0, _⟩ => show ((b.val * 2048 + t.val) * 1024 + e.val) / 2097152 = b.val; omega
      | ⟨1, _⟩ => show ((b.val * 2048 + t.val) * 1024 + e.val) / 64 % 16 = e.val / 64; omega
      | ⟨2, _⟩ => show ((b.val * 2048 + t.val) * 1024 + e.val) / 1024 % 2048 = t.val; omega
      | ⟨3, _⟩ => show ((b.val * 2048 + t.val) * 1024 + e.val) % 64 = e.val % 64; omega)
  rw [hi, attn_at]
  rfl

end Cert.ReferenceIdeal.RefValue

end
-- ==== Proof.lean ====
/-
  The proof of `Cert.Claim`: the fused QKV projection followed by causal ReLU attention, as a two-region Pallas program,
  against its jnp reference, over the extended reals.

  The mathematics. Both programs compute, at batch `b`, time `t`, model feature `e = h·64 + d`,
      ∑_{j ≤ t} max ((q_{b,h,t} · k_{b,h,j}) / 8, 0) · v_{b,h,j,d}
  with `q, k, v` the three 1024-wide slices of `x · Wᵀ + bias` (`Cert.Spec.G`). The reference sums over all keys with the
  weights above the diagonal set to zero; the kernel tiles queries and keys by 512, skips the key tiles wholly above the
  diagonal and adds the others into an accumulator — the same sum regrouped, the skipped tiles being sums of zeros
  (addition on the extended reals is commutative and associative and `0 · x = 0`, so no finiteness is needed). Roundings
  to bf16 are the identity at the ideal instance.

  The frames. Neither printed kernel program has a generated frame; the hand frame (Proof/Fr, generic in the float
  instance; Proof/FrK its instance for the word-level program) runs @main as five segments — host operations, the
  projection region, host operations, the attention region (whose scratch accumulator is carried between grid points in
  the region's invariant), host operations — and names every unscoped buffer's final contents, from which the frame
  conjuncts read the arguments and the value conjunct reads the result.
-/
import proofs.«126934_j43173011259799_1_alg».proof.Defs
import proofs.«126934_j43173011259799_1_alg».proof.Proof.Gen.Kernel
import proofs.«126934_j43173011259799_1_alg».proof.Proof.Gen.KernelIdeal
import proofs.«126934_j43173011259799_1_alg».proof.Proof.Gen.ReferenceIdeal
import proofs.«126934_j43173011259799_1_alg».proof.Proof.Gen.Pre_finite_inputs
import proofs.«126934_j43173011259799_1_alg».proof.Proof.Gen.ReferenceIdeal.Run
import proofs.«126934_j43173011259799_1_alg».proof.Proof.Gen.ReferenceIdeal.Read
import proofs.«126934_j43173011259799_1_alg».proof.Proof.Fr.Run
import proofs.«126934_j43173011259799_1_alg».proof.Proof.FrK.Run
import proofs.«126934_j43173011259799_1_alg».proof.Proof.Val.KernelValue
import proofs.«126934_j43173011259799_1_alg».proof.Proof.Val.KernelG
import proofs.«126934_j43173011259799_1_alg».proof.Proof.Val.Reg0Value
import proofs.«126934_j43173011259799_1_alg».proof.Proof.Val.Reg1Value
import proofs.«126934_j43173011259799_1_alg».proof.Proof.Val.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both idealized programs end with the result at `Cert.Spec.G` of the arguments: the kernel's last valuation at the
    result buffer is the kernel program's pure function of the arguments (the two regions' arrays index by index, the
    host operations' layout changes between them), which is `G`; the reference's composed term is `G` by the generated
    read-at-an-index lemmas. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Fr.run_all m ρ)
    · exact (h c _ (Cert.KernelIdeal.Fr.mem_uc Cert.KernelIdeal.main_v20 (by decide))).trans
        ((Cert.KernelIdeal.Val.W5_main_v20_of Cert.KernelIdeal.Val.reg0_value Cert.KernelIdeal.Val.reg1_value m ρ c).trans
          (Cert.KernelIdeal.Val.kernelFun_is_G _ _ _))
    · exact (h c _ (Cert.KernelIdeal.Fr.mem_uc Cert.KernelIdeal.main_arg0 (by decide))).trans (Cert.KernelIdeal.Fr.W5_main_arg0 m ρ c)
    · exact (h c _ (Cert.KernelIdeal.Fr.mem_uc Cert.KernelIdeal.main_arg1 (by decide))).trans (Cert.KernelIdeal.Fr.W5_main_arg1 m ρ c)
    · exact (h c _ (Cert.KernelIdeal.Fr.mem_uc Cert.KernelIdeal.main_arg2 (by decide))).trans (Cert.KernelIdeal.Fr.W5_main_arg2 m ρ c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v22_eq _ _ _).trans (Cert.ReferenceIdeal.RefValue.ref_is_G _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
